-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64x2x256x256 : Shape := ⟨4, ![64, 2, 256, 256]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64x2x256x256 : S_.BroadcastsInDim S64x2x256x256 (![] : Fin 0 → Fin S64x2x256x256.rank)
  reducesTo_S64x2x256x256_S_d0_1_2_3 : S64x2x256x256.ReducesTo [0, 1, 2, 3] S_

variable [Facts]

def fn {F : FTy → Type} [FloatOps F] (main_arg0 : FVec F S64x3x256x256 .f32) (main_arg1 : FVec F S64x2x256x256 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x2x256x256 .f32 := Host.absf main_arg1
  let main_cst_0 : FVec F S_ .f32 := constant S_ .f32 0x7F800000#32
  let main_v5 : FVec F S64x2x256x256 .f32 := broadcastInDim S64x2x256x256 ![] bcast_S_S64x2x256x256 main_cst_0
  let main_v6 : IVec S64x2x256x256 1 := cmpf .olt main_v4 main_v5
  let main_c_1 : IVec S_ 1 := constantI S_ 1 1#1
  let main_v7 : IVec S_ 1 := (fun x v => Host.reduce IntOp.andi x v reducesTo_S64x2x256x256_S_d0_1_2_3 h_S_) main_v6 main_c_1
  let main_v8 : IVec S_ 1 := andi main_v3 main_v7
  main_v8
-- ==== Kernel.lean ====
abbrev S64x3x256x256 : Shape := ⟨4, ![64, 3, 256, 256]⟩
abbrev S64x2x256x256 : Shape := ⟨4, ![64, 2, 256, 256]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S64x1x256x256 : Shape := ⟨4, ![64, 1, 256, 256]⟩
abbrev S_ : Shape := ⟨0, ![]⟩
abbrev S1x1x256x256 : Shape := ⟨4, ![1, 1, 256, 256]⟩
abbrev S64x65536 : Shape := ⟨2, ![64, 65536]⟩
abbrev S64x262144 : Shape := ⟨2, ![64, 262144]⟩
abbrev S64x1x262144 : Shape := ⟨3, ![64, 1, 262144]⟩
abbrev S64x3x262144 : Shape := ⟨3, ![64, 3, 262144]⟩
abbrev S64x3x65536 : Shape := ⟨3, ![64, 3, 65536]⟩
abbrev S64x3x262144x1 : Shape := ⟨4, ![64, 3, 262144, 1]⟩
abbrev S1 : Shape := ⟨1, ![1]⟩
abbrev S1x1x1x1 : Shape := ⟨4, ![1, 1, 1, 1]⟩
abbrev S64x3x4x65536 : Shape := ⟨4, ![64, 3, 4, 65536]⟩
abbrev S64x3x1x65536 : Shape := ⟨4, ![64, 3, 1, 65536]⟩
abbrev S2x3x256x256 : Shape := ⟨4, ![2, 3, 256, 256]⟩
abbrev S2x2x256x256 : Shape := ⟨4, ![2, 2, 256, 256]⟩
abbrev S2x1x256x256 : Shape := ⟨4, ![2, 1, 256, 256]⟩

abbrev nBuf : Space → Nat
  | .hbm => 107
  | .vmem => 12
  | .smem => 0
  | _ => 0

abbrev bufTy : (tb : Table) → Fin (tcTables nBuf tb) → BufTy
  | .hbm, ⟨0, _⟩ => ⟨S64x3x256x256, .f32⟩
  | .hbm, ⟨1, _⟩ => ⟨S64x2x256x256, .f32⟩
  | .hbm, ⟨2, _⟩ => ⟨S256, .i32⟩
  | .hbm, ⟨3, _⟩ => ⟨S256x1, .i32⟩
  | .hbm, ⟨4, _⟩ => ⟨S256x256, .i32⟩
  | .hbm, ⟨5, _⟩ => ⟨S1x256, .i32⟩
  | .hbm, ⟨6, _⟩ => ⟨S256x256, .i32⟩
  | .hbm, ⟨7, _⟩ => ⟨S64x1x256x256, .f32⟩
  | .hbm, ⟨8, _⟩ => ⟨S_, .f32⟩
  | .hbm, ⟨9, _⟩ => ⟨S64x1x256x256, .f32⟩
  | .hbm, ⟨10, _⟩ => ⟨S64x1x256x256, .f32⟩
  | .hbm, ⟨11, _⟩ => ⟨S64x1x256x256, .f32⟩
  | .hbm, ⟨12, _⟩ => ⟨S_, .f32⟩
  | .hbm, ⟨13, _⟩ => ⟨S64x1x256x256, .f32⟩
  | .hbm, ⟨14, _⟩ => ⟨S64x1x256x256, .f32⟩
  | .hbm, ⟨15, _⟩ => ⟨S1x1x256x256, .i32⟩
  | .hbm, ⟨16, _⟩ => ⟨S1x1x256x256, .f32⟩
  | .hbm, ⟨17, _⟩ => ⟨S64x1x256x256, .f32⟩
  | .hbm, ⟨18, _⟩ => ⟨S64x1x256x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x1x256x256, .f32⟩
  | .hbm, ⟨23, _⟩ => ⟨S64x1x256x256, .f32⟩
  | .hbm, ⟨24, _⟩ => ⟨S_, .f32⟩
  | .hbm, ⟨25, _⟩ => ⟨S64x1x256x256, .f32⟩
  | .hbm, ⟨26, _⟩ => ⟨S64x1x256x256, .f32⟩
  | .hbm, ⟨27, _⟩ => ⟨S1x1x256x256, .i32⟩
  | .hbm, ⟨28, _⟩ => ⟨S1x1x256x256, .f32⟩
  | .hbm, ⟨29, _⟩ => ⟨S64x1x256x256, .f32⟩
  | .hbm, ⟨30, _⟩ => ⟨S64x1x256x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64x1x256x256, .f32⟩
  | .hbm, ⟨35, _⟩ => ⟨S64x1x256x256, .f32⟩
  | .hbm, ⟨36, _⟩ => ⟨S_, .f32⟩
  | .hbm, ⟨37, _⟩ => ⟨S64x1x256x256, .f32⟩
  | .hbm, ⟨38, _⟩ => ⟨S64x1x256x256, .f32⟩
  | .hbm, ⟨39, _⟩ => ⟨S64x1x256x256, .f32⟩
  | .hbm, ⟨40, _⟩ => ⟨S64x1x256x256, .i32⟩
  | .hbm, ⟨41, _⟩ => ⟨S64x1x256x256, .f32⟩
  | .hbm, ⟨42, _⟩ => ⟨S64x1x256x256, .i32⟩
  | .hbm, ⟨43, _⟩ => ⟨S64x1x256x256, .f32⟩
  | .hbm, ⟨44, _⟩ => ⟨S64x1x256x256, .i32⟩
  | .hbm, ⟨45, _⟩ => ⟨S64x1x256x256, .f32⟩
  | .hbm, ⟨46, _⟩ => ⟨S64x1x256x256, .i32⟩
  | .hbm, ⟨47, _⟩ => ⟨S_, .i32⟩
  | .hbm, ⟨48, _⟩ => ⟨S64x1x256x256, .i32⟩
  | .hbm, ⟨49, _⟩ => ⟨S64x1x256x256, .i32⟩
  | .hbm, ⟨50, _⟩ => ⟨S64x1x256x256, .i32⟩
  | .hbm, ⟨51, _⟩ => ⟨S64x65536, .i32⟩
  | .hbm, ⟨52, _⟩ => ⟨S_, .i32⟩
  | .hbm, ⟨53, _⟩ => ⟨S64x1x256x256, .i32⟩
  | .hbm, ⟨54, _⟩ => ⟨S64x1x256x256, .i32⟩
  | .hbm, ⟨55, _⟩ => ⟨S64x1x256x256, .i32⟩
  | .hbm, ⟨56, _⟩ => ⟨S64x65536, .i32⟩
  | .hbm, ⟨57, _⟩ => ⟨S_, .i32⟩
  | .hbm, ⟨58, _⟩ => ⟨S64x1x256x256, .i32⟩
  | .hbm, ⟨59, _⟩ => ⟨S64x1x256x256, .i32⟩
  | .hbm, ⟨60, _⟩ => ⟨S64x1x256x256, .i32⟩
  | .hbm, ⟨61, _⟩ => ⟨S64x65536, .i32⟩
  | .hbm, ⟨62, _⟩ => ⟨S_, .i32⟩
  | .hbm, ⟨63, _⟩ => ⟨S64x1x256x256, .i32⟩
  | .hbm, ⟨64, _⟩ => ⟨S64x1x256x256, .i32⟩
  | .hbm, ⟨65, _⟩ => ⟨S64x1x256x256, .i32⟩
  | .hbm, ⟨66, _⟩ => ⟨S64x65536, .i32⟩
  | .hbm, ⟨67, _⟩ => ⟨S64x262144, .i32⟩
  | .hbm, ⟨68, _⟩ => ⟨S64x1x262144, .i32⟩
  | .hbm, ⟨69, _⟩ => ⟨S64x3x262144, .i32⟩
  | .hbm, ⟨70, _⟩ => ⟨S64x3x65536, .f32⟩
  | .hbm, ⟨71, _⟩ => ⟨S_, .i32⟩
  | .hbm, ⟨72, _⟩ => ⟨S64x3x262144, .i32⟩
  | .hbm, ⟨73, _⟩ => ⟨S64x3x262144, .i1⟩
  | .hbm, ⟨74, _⟩ => ⟨S_, .i32⟩
  | .hbm, ⟨75, _⟩ => ⟨S64x3x262144, .i32⟩
  | .hbm, ⟨76, _⟩ => ⟨S64x3x262144, .i32⟩
  | .hbm, ⟨77, _⟩ => ⟨S64x3x262144, .i32⟩
  | .hbm, ⟨78, _⟩ => ⟨S64x3x262144x1, .i32⟩
  | .hbm, ⟨79, _⟩ => ⟨S1, .i32⟩
  | .hbm, ⟨80, _⟩ => ⟨S_, .i32⟩
  | .hbm, ⟨81, _⟩ => ⟨S64x3x262144x1, .i32⟩
  | .hbm, ⟨82, _⟩ => ⟨S64x3x262144x1, .i1⟩
  | .hbm, ⟨83, _⟩ => ⟨S1x1x1x1, .i32⟩
  | .hbm, ⟨84, _⟩ => ⟨S64x3x262144x1, .i32⟩
  | .hbm, ⟨85, _⟩ => ⟨S64x3x262144x1, .i1⟩
  | .hbm, ⟨86, _⟩ => ⟨S64x3x262144x1, .i1⟩
  | .hbm, ⟨87, _⟩ => ⟨S_, .i1⟩
  | .hbm, ⟨88, _⟩ => ⟨S64x3x262144, .i1⟩
  | .hbm, ⟨89, _⟩ => ⟨S64x3x262144, .f32⟩
  | .hbm, ⟨90, _⟩ => ⟨S_, .f32⟩
  | .hbm, ⟨91, _⟩ => ⟨S64x3x262144, .f32⟩
  | .hbm, ⟨92, _⟩ => ⟨S64x3x262144, .f32⟩
  | .hbm, ⟨93, _⟩ => ⟨S64x3x4x65536, .f32⟩
  | .hbm, ⟨94, _⟩ => ⟨S64x3x1x65536, .f32⟩
  | .hbm, ⟨95, _⟩ => ⟨S64x3x65536, .f32⟩
  | .hbm, ⟨96, _⟩ => ⟨S64x3x256x256, .f32⟩
  | .hbm, ⟨97, _⟩ => ⟨S64x3x1x65536, .f32⟩
  | .hbm, ⟨98, _⟩ => ⟨S64x3x65536, .f32⟩
  | .hbm, ⟨99, _⟩ => ⟨S64x3x256x256, .f32⟩
  | .hbm, ⟨100, _⟩ => ⟨S64x3x1x65536, .f32⟩
  | .hbm, ⟨101, _⟩ => ⟨S64x3x65536, .f32⟩
  | .hbm, ⟨102, _⟩ => ⟨S64x3x256x256, .f32⟩
  | .hbm, ⟨103, _⟩ => ⟨S64x3x1x65536, .f32⟩
  | .hbm, ⟨104, _⟩ => ⟨S64x3x65536, .f32⟩
  | .hbm, ⟨105, _⟩ => ⟨S64x3x256x256, .f32⟩
  | .hbm, ⟨106, _⟩ => ⟨S64x3x256x256, .f32⟩
  | .local _ .vmem, ⟨0, _⟩ => ⟨S2x3x256x256, .f32⟩
  | .local _ .vmem, ⟨1, _⟩ => ⟨S2x3x256x256, .f32⟩
  | .local _ .vmem, ⟨2, _⟩ => ⟨S2x3x256x256, .f32⟩
  | .local _ .vmem, ⟨3, _⟩ => ⟨S2x3x256x256, .f32⟩
  | .local _ .vmem, ⟨4, _⟩ => ⟨S2x3x256x256, .f32⟩
  | .local _ .vmem, ⟨5, _⟩ => ⟨S2x3x256x256, .f32⟩
  | .local _ .vmem, ⟨6, _⟩ => ⟨S2x3x256x256, .f32⟩
  | .local _ .vmem, ⟨7, _⟩ => ⟨S2x3x256x256, .f32⟩
  | .local _ .vmem, ⟨8, _⟩ => ⟨S2x2x256x256, .f32⟩
  | .local _ .vmem, ⟨9, _⟩ => ⟨S2x2x256x256, .f32⟩
  | .local _ .vmem, ⟨10, _⟩ => ⟨S2x3x256x256, .f32⟩
  | .local _ .vmem, ⟨11, _⟩ => ⟨S2x3x256x256, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_cst : Ref sig .tc := ⟨.hbm, 90, rfl⟩
abbrev main_call2_v14 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  slices_S64x2x256x256_S64x1x256x256_0_0_0_0 : S64x2x256x256.Slices ![0, 0, 0, 0] S64x1x256x256
  bcast_S_S64x1x256x256 : S_.BroadcastsInDim S64x1x256x256 (![] : Fin 0 → Fin S64x1x256x256.rank)
  slices_S64x2x256x256_S64x1x256x256_0_1_0_0 : S64x2x256x256.Slices ![0, 1, 0, 0] S64x1x256x256
  bcast_S256x256_S1x1x256x256_2_3 : S256x256.BroadcastsInDim S1x1x256x256 (![2, 3] : Fin 2 → Fin S1x1x256x256.rank)
  bcast_S1x1x256x256_S64x1x256x256_0_1_2_3 : S1x1x256x256.BroadcastsInDim S64x1x256x256 (![0, 1, 2, 3] : Fin 4 → Fin S64x1x256x256.rank)
  shapeCasts_S64x1x256x256_S64x65536 : S64x1x256x256.ShapeCasts S64x65536
  concatenates_S64x65536_S64x65536_S64x65536_S64x65536_S64x262144_d1 : Shape.Concatenates [S64x65536, S64x65536, S64x65536, S64x65536] S64x262144 1
  bcast_S64x262144_S64x1x262144_0_2 : S64x262144.BroadcastsInDim S64x1x262144 (![0, 2] : Fin 2 → Fin S64x1x262144.rank)
  bcast_S64x1x262144_S64x3x262144_0_1_2 : S64x1x262144.BroadcastsInDim S64x3x262144 (![0, 1, 2] : Fin 3 → Fin S64x3x262144.rank)
  shapeCasts_S64x3x256x256_S64x3x65536 : S64x3x256x256.ShapeCasts S64x3x65536
  bcast_S_S64x3x262144 : S_.BroadcastsInDim S64x3x262144 (![] : Fin 0 → Fin S64x3x262144.rank)
  shapeCasts_S64x3x262144_S64x3x262144x1 : S64x3x262144.ShapeCasts S64x3x262144x1
  bcast_S_S64x3x262144x1 : S_.BroadcastsInDim S64x3x262144x1 (![] : Fin 0 → Fin S64x3x262144x1.rank)
  bcast_S1_S1x1x1x1_3 : S1.BroadcastsInDim S1x1x1x1 (![3] : Fin 1 → Fin S1x1x1x1.rank)
  bcast_S1x1x1x1_S64x3x262144x1_0_1_2_3 : S1x1x1x1.BroadcastsInDim S64x3x262144x1 (![0, 1, 2, 3] : Fin 4 → Fin S64x3x262144x1.rank)
  reducesTo_S64x3x262144x1_S64x3x262144_d3 : S64x3x262144x1.ReducesTo [3] S64x3x262144
  h_S_ : 0 < S_.numel
  shapeCasts_S64x3x262144_S64x3x4x65536 : S64x3x262144.ShapeCasts S64x3x4x65536
  slices_S64x3x4x65536_S64x3x1x65536_0_0_0_0 : S64x3x4x65536.Slices ![0, 0, 0, 0] S64x3x1x65536
  shapeCasts_S64x3x1x65536_S64x3x65536 : S64x3x1x65536.ShapeCasts S64x3x65536
  shapeCasts_S64x3x65536_S64x3x256x256 : S64x3x65536.ShapeCasts S64x3x256x256
  slices_S64x3x4x65536_S64x3x1x65536_0_0_1_0 : S64x3x4x65536.Slices ![0, 0, 1, 0] S64x3x1x65536
  slices_S64x3x4x65536_S64x3x1x65536_0_0_2_0 : S64x3x4x65536.Slices ![0, 0, 2, 0] S64x3x1x65536
  slices_S64x3x4x65536_S64x3x1x65536_0_0_3_0 : S64x3x4x65536.Slices ![0, 0, 3, 0] S64x3x1x65536
  inb_S2x3x256x256_S2x3x256x256_0_0_0_0 : ∀ a, (![0, 0, 0, 0] : Fin 4 → Nat) a + S2x3x256x256.size a ≤ S2x3x256x256.size a
  h_S2x3x256x256 : 0 < S2x3x256x256.numel
  shapeCasts_S2x3x256x256_S2x3x256x256 : S2x3x256x256.ShapeCasts S2x3x256x256
  inb_S2x2x256x256_S2x2x256x256_0_0_0_0 : ∀ a, (![0, 0, 0, 0] : Fin 4 → Nat) a + S2x2x256x256.size a ≤ S2x2x256x256.size a
  h_S2x2x256x256 : 0 < S2x2x256x256.numel
  iota_S1x1x256x256_d2_w32 : S1x1x256x256.Iotas .tc 32 [2]
  iota_S1x1x256x256_d3_w32 : S1x1x256x256.Iotas .tc 32 [3]
  slices_S2x2x256x256_o0_0_0_0_S2x1x256x256 : S2x2x256x256.Slices ![0, 0, 0, 0] S2x1x256x256
  slices_S2x2x256x256_o0_1_0_0_S2x1x256x256 : S2x2x256x256.Slices ![0, 1, 0, 0] S2x1x256x256
  broadcasts_S1x1x256x256_S2x1x256x256 : S1x1x256x256.Broadcasts S2x1x256x256
  broadcasts_S2x1x256x256_S2x3x256x256 : S2x1x256x256.Broadcasts S2x3x256x256
  gather_S64x3x65536_S64x3x262144x1_S64x3x262144_n_2_01_01_2_3_111_wf : GatherDims.WF S64x3x65536 S64x3x262144x1 S64x3x262144 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x256x256.size a ≤ S64x3x256x256.size a
  hwx0_0 : ∀ i : grid0.Coords, EltTy.bits .f32 = 32 ∨ (Rect.block (s := S64x3x256x256) S2x3x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x256x256.size a ≤ S64x3x256x256.size a
  hwx0_1 : ∀ i : grid0.Coords, EltTy.bits .f32 = 32 ∨ (Rect.block (s := S64x3x256x256) S2x3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3x256x256.size a ≤ S64x3x256x256.size a
  hwx0_2 : ∀ i : grid0.Coords, EltTy.bits .f32 = 32 ∨ (Rect.block (s := S64x3x256x256) S2x3x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x3x256x256.size a ≤ S64x3x256x256.size a
  hwx0_3 : ∀ i : grid0.Coords, EltTy.bits .f32 = 32 ∨ (Rect.block (s := S64x3x256x256) S2x3x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x2x256x256.size a ≤ S64x2x256x256.size a
  hwx0_4 : ∀ i : grid0.Coords, EltTy.bits .f32 = 32 ∨ (Rect.block (s := S64x2x256x256) S2x2x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x3x256x256.size a ≤ S64x3x256x256.size a
  hwx0_5 : ∀ i : grid0.Coords, EltTy.bits .f32 = 32 ∨ (Rect.block (s := S64x3x256x256) S2x3x256x256.size (cc0_transform_5 i) (hinb0_5 i)).WholeWords (EltTy.packing .f32)

variable [Facts₀]

def gather_S64x3x65536_S64x3x262144x1_S64x3x262144_n_2_01_01_2_3_111 : GatherDims S64x3x65536 S64x3x262144x1 S64x3x262144 where
  offsetDims := []
  collapsedSliceDims := [2]
  operandBatchingDims := [0, 1]
  startIndicesBatchingDims := [0, 1]
  startIndexMap := [2]
  indexVectorDim := 3
  sliceSizes := ![1, 1, 1]
  wf := gather_S64x3x65536_S64x3x262144x1_S64x3x262144_n_2_01_01_2_3_111_wf

abbrev win0_0 : Pipeline.Window sig grid0 :=
  Pipeline.Window.ofSpec (Memref.whole main_v53) S2x3x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S2x3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2x3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S2x3x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2x2x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v63) S2x3x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x3x256x256 : Shape := ⟨4, ![64, 3, 256, 256]⟩
abbrev S64x2x256x256 : Shape := ⟨4, ![64, 2, 256, 256]⟩
abbrev S64x256x256x3 : Shape := ⟨4, ![64, 256, 256, 3]⟩
abbrev S64x256x256x2 : Shape := ⟨4, ![64, 256, 256, 2]⟩
abbrev S_ : Shape := ⟨0, ![]⟩
abbrev S64x65536x2 : Shape := ⟨3, ![64, 65536, 2]⟩
abbrev S256 : Shape := ⟨1, ![256]⟩
abbrev S256x256 : Shape := ⟨2, ![256, 256]⟩
abbrev S256x256x1 : Shape := ⟨3, ![256, 256, 1]⟩
abbrev S256x256x2 : Shape := ⟨3, ![256, 256, 2]⟩
abbrev S65536x2 : Shape := ⟨2, ![65536, 2]⟩
abbrev S1x65536x2 : Shape := ⟨3, ![1, 65536, 2]⟩
abbrev S64x65536x1 : Shape := ⟨3, ![64, 65536, 1]⟩
abbrev S64x65536 : Shape := ⟨2, ![64, 65536]⟩
abbrev S64 : Shape := ⟨1, ![64]⟩
abbrev S64x1 : Shape := ⟨2, ![64, 1]⟩
abbrev S64x65536x3 : Shape := ⟨3, ![64, 65536, 3]⟩

abbrev nBuf : Space → Nat
  | .hbm => 195
  | .vmem => 0
  | .smem => 0
  | _ => 0

abbrev hbmTy0_0 (i : Nat) : BufTy := match i % 128 with
  | 0 => ⟨S64x3x256x256, .f32⟩
  | 1 => ⟨S64x2x256x256, .f32⟩
  | 2 => ⟨S64x256x256x3, .f32⟩
  | 3 => ⟨S64x256x256x2, .f32⟩
  | 4 => ⟨S_, .f32⟩
  | 5 => ⟨S64x256x256x2, .f32⟩
  | 6 => ⟨S64x256x256x2, .f32⟩
  | 7 => ⟨S64x65536x2, .f32⟩
  | 8 => ⟨S256, .i32⟩
  | 9 => ⟨S256, .i32⟩
  | 10 => ⟨S256x256, .i32⟩
  | 11 => ⟨S256x256, .i32⟩
  | 12 => ⟨S256x256x1, .i32⟩
  | 13 => ⟨S256x256x1, .i32⟩
  | 14 => ⟨S256x256x2, .i32⟩
  | 15 => ⟨S65536x2, .i32⟩
  | 16 => ⟨S65536x2, .f32⟩
  | 17 => ⟨S1x65536x2, .f32⟩
  | 18 => ⟨S64x65536x2, .f32⟩
  | 19 => ⟨S64x65536x2, .f32⟩
  | 20 => ⟨S_, .f32⟩
  | 21 => ⟨S_, .i32⟩
  | 22 => ⟨S_, .f32⟩
  | 23 => ⟨S64x65536x2, .f32⟩
  | 24 => ⟨S64x65536x2, .f32⟩
  | 25 => ⟨S_, .f32⟩
  | 26 => ⟨S64x65536x2, .f32⟩
  | 27 => ⟨S64x65536x2, .f32⟩
  | 28 => ⟨S64x65536x2, .f32⟩
  | 29 => ⟨S64x65536x2, .f32⟩
  | 30 => ⟨S64x65536x1, .f32⟩
  | 31 => ⟨S64x65536, .f32⟩
  | 32 => ⟨S64x65536x1, .f32⟩
  | 33 => ⟨S64x65536, .f32⟩
  | 34 => ⟨S64x65536x1, .f32⟩
  | 35 => ⟨S64x65536x1, .f32⟩
  | 36 => ⟨S64x65536x2, .f32⟩
  | 37 => ⟨S64x65536x1, .f32⟩
  | 38 => ⟨S64x65536, .f32⟩
  | 39 => ⟨S64x65536x1, .f32⟩
  | 40 => ⟨S64x65536, .f32⟩
  | 41 => ⟨S64x65536x1, .f32⟩
  | 42 => ⟨S64x65536x1, .f32⟩
  | 43 => ⟨S64x65536x2, .f32⟩
  | 44 => ⟨S64, .i32⟩
  | 45 => ⟨S64x1, .i32⟩
  | 46 => ⟨S64x65536x1, .f32⟩
  | 47 => ⟨S64x65536, .f32⟩
  | 48 => ⟨S64x65536, .i32⟩
  | 49 => ⟨S64x65536x1, .f32⟩
  | 50 => ⟨S64x65536, .f32⟩
  | 51 => ⟨S64x65536, .i32⟩
  | 52 => ⟨S_, .i32⟩
  | 53 => ⟨S64x1, .i32⟩
  | 54 => ⟨S64x1, .i1⟩
  | 55 => ⟨S_, .i32⟩
  | 56 => ⟨S64x1, .i32⟩
  | 57 => ⟨S64x1, .i32⟩
  | 58 => ⟨S64x1, .i32⟩
  | 59 => ⟨S_, .i32⟩
  | 60 => ⟨S64x65536, .i32⟩
  | 61 => ⟨S64x65536, .i1⟩
  | 62 => ⟨S_, .i32⟩
  | 63 => ⟨S64x65536, .i32⟩
  | 64 => ⟨S64x65536, .i32⟩
  | 65 => ⟨S64x65536, .i32⟩
  | 66 => ⟨S_, .i32⟩
  | 67 => ⟨S64x65536, .i32⟩
  | 68 => ⟨S64x65536, .i1⟩
  | 69 => ⟨S_, .i32⟩
  | 70 => ⟨S64x65536, .i32⟩
  | 71 => ⟨S64x65536, .i32⟩
  | 72 => ⟨S64x65536, .i32⟩
  | 73 => ⟨S64x65536, .i32⟩
  | 74 => ⟨S64x65536x1, .i32⟩
  | 75 => ⟨S64x65536x1, .i32⟩
  | 76 => ⟨S64x65536x1, .i32⟩
  | 77 => ⟨S64x65536x3, .i32⟩
  | 78 => ⟨S64x65536x3, .f32⟩
  | 79 => ⟨S64x65536x1, .f32⟩
  | 80 => ⟨S64x65536, .f32⟩
  | 81 => ⟨S64x65536, .i32⟩
  | 82 => ⟨S64x65536x1, .f32⟩
  | 83 => ⟨S64x65536, .f32⟩
  | 84 => ⟨S64x65536, .i32⟩
  | 85 => ⟨S_, .i32⟩
  | 86 => ⟨S64x1, .i32⟩
  | 87 => ⟨S64x1, .i1⟩
  | 88 => ⟨S_, .i32⟩
  | 89 => ⟨S64x1, .i32⟩
  | 90 => ⟨S64x1, .i32⟩
  | 91 => ⟨S64x1, .i32⟩
  | 92 => ⟨S_, .i32⟩
  | 93 => ⟨S64x65536, .i32⟩
  | 94 => ⟨S64x65536, .i1⟩
  | 95 => ⟨S_, .i32⟩
  | 96 => ⟨S64x65536, .i32⟩
  | 97 => ⟨S64x65536, .i32⟩
  | 98 => ⟨S64x65536, .i32⟩
  | 99 => ⟨S_, .i32⟩
  | 100 => ⟨S64x65536, .i32⟩
  | 101 => ⟨S64x65536, .i1⟩
  | 102 => ⟨S_, .i32⟩
  | 103 => ⟨S64x65536, .i32⟩
  | 104 => ⟨S64x65536, .i32⟩
  | 105 => ⟨S64x65536, .i32⟩
  | 106 => ⟨S64x65536, .i32⟩
  | 107 => ⟨S64x65536x1, .i32⟩
  | 108 => ⟨S64x65536x1, .i32⟩
  | 109 => ⟨S64x65536x1, .i32⟩
  | 110 => ⟨S64x65536x3, .i32⟩
  | 111 => ⟨S64x65536x3, .f32⟩
  | 112 => ⟨S64x65536x1, .f32⟩
  | 113 => ⟨S64x65536, .f32⟩
  | 114 => ⟨S64x65536, .i32⟩
  | 115 => ⟨S64x65536x1, .f32⟩
  | 116 => ⟨S64x65536, .f32⟩
  | 117 => ⟨S64x65536, .i32⟩
  | 118 => ⟨S_, .i32⟩
  | 119 => ⟨S64x1, .i32⟩
  | 120 => ⟨S64x1, .i1⟩
  | 121 => ⟨S_, .i32⟩
  | 122 => ⟨S64x1, .i32⟩
  | 123 => ⟨S64x1, .i32⟩
  | 124 => ⟨S64x1, .i32⟩
  | 125 => ⟨S_, .i32⟩
  | 126 => ⟨S64x65536, .i32⟩
  | 127 => ⟨S64x65536, .i1⟩
  | _ => ⟨S64x3x256x256, .f32⟩

abbrev hbmTy0_1 (i : Nat) : BufTy := match i % 128 with
  | 0 => ⟨S_, .i32⟩
  | 1 => ⟨S64x65536, .i32⟩
  | 2 => ⟨S64x65536, .i32⟩
  | 3 => ⟨S64x65536, .i32⟩
  | 4 => ⟨S_, .i32⟩
  | 5 => ⟨S64x65536, .i32⟩
  | 6 => ⟨S64x65536, .i1⟩
  | 7 => ⟨S_, .i32⟩
  | 8 => ⟨S64x65536, .i32⟩
  | 9 => ⟨S64x65536, .i32⟩
  | 10 => ⟨S64x65536, .i32⟩
  | 11 => ⟨S64x65536, .i32⟩
  | 12 => ⟨S64x65536x1, .i32⟩
  | 13 => ⟨S64x65536x1, .i32⟩
  | 14 => ⟨S64x65536x1, .i32⟩
  | 15 => ⟨S64x65536x3, .i32⟩
  | 16 => ⟨S64x65536x3, .f32⟩
  | 17 => ⟨S64x65536x1, .f32⟩
  | 18 => ⟨S64x65536, .f32⟩
  | 19 => ⟨S64x65536, .i32⟩
  | 20 => ⟨S64x65536x1, .f32⟩
  | 21 => ⟨S64x65536, .f32⟩
  | 22 => ⟨S64x65536, .i32⟩
  | 23 => ⟨S_, .i32⟩
  | 24 => ⟨S64x1, .i32⟩
  | 25 => ⟨S64x1, .i1⟩
  | 26 => ⟨S_, .i32⟩
  | 27 => ⟨S64x1, .i32⟩
  | 28 => ⟨S64x1, .i32⟩
  | 29 => ⟨S64x1, .i32⟩
  | 30 => ⟨S_, .i32⟩
  | 31 => ⟨S64x65536, .i32⟩
  | 32 => ⟨S64x65536, .i1⟩
  | 33 => ⟨S_, .i32⟩
  | 34 => ⟨S64x65536, .i32⟩
  | 35 => ⟨S64x65536, .i32⟩
  | 36 => ⟨S64x65536, .i32⟩
  | 37 => ⟨S_, .i32⟩
  | 38 => ⟨S64x65536, .i32⟩
  | 39 => ⟨S64x65536, .i1⟩
  | 40 => ⟨S_, .i32⟩
  | 41 => ⟨S64x65536, .i32⟩
  | 42 => ⟨S64x65536, .i32⟩
  | 43 => ⟨S64x65536, .i32⟩
  | 44 => ⟨S64x65536, .i32⟩
  | 45 => ⟨S64x65536x1, .i32⟩
  | 46 => ⟨S64x65536x1, .i32⟩
  | 47 => ⟨S64x65536x1, .i32⟩
  | 48 => ⟨S64x65536x3, .i32⟩
  | 49 => ⟨S64x65536x3, .f32⟩
  | 50 => ⟨S64x65536x2, .f32⟩
  | 51 => ⟨S64x65536x1, .f32⟩
  | 52 => ⟨S64x65536x1, .f32⟩
  | 53 => ⟨S64x65536x3, .f32⟩
  | 54 => ⟨S64x65536x3, .f32⟩
  | 55 => ⟨S64x65536x3, .f32⟩
  | 56 => ⟨S64x65536x3, .f32⟩
  | 57 => ⟨S64x65536x3, .f32⟩
  | 58 => ⟨S64x65536x3, .f32⟩
  | 59 => ⟨S64x65536x3, .f32⟩
  | 60 => ⟨S64x65536x3, .f32⟩
  | 61 => ⟨S64x65536x3, .f32⟩
  | 62 => ⟨S64x65536x3, .f32⟩
  | 63 => ⟨S64x65536x3, .f32⟩
  | 64 => ⟨S64x65536x3, .f32⟩
  | 65 => ⟨S64x256x256x3, .f32⟩
  | 66 => ⟨S64x3x256x256, .f32⟩
  | _ => ⟨S64x3x256x256, .f32⟩

abbrev hbmTy (i : Nat) : BufTy := match i / 128 with
  | 0 => hbmTy0_0 i
  | 1 => hbmTy0_1 i
  | _ => ⟨S64x3x256x256, .f32⟩

abbrev bufTy : (tb : Table) → Fin (tcTables nBuf tb) → BufTy
  | .hbm, ⟨i, _⟩ => hbmTy i
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_1 : Ref sig .tc := ⟨.hbm, 52, rfl⟩
abbrev main_v42 : Ref sig .tc := ⟨.hbm, 53, rfl⟩
abbrev main_v43 : Ref sig .tc := ⟨.hbm, 54, rfl⟩
abbrev main_c_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_3 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_5 : Ref sig .tc := ⟨.hbm, 66, rfl⟩
abbrev main_v52 : Ref sig .tc := ⟨.hbm, 67, rfl⟩
abbrev main_v53 : Ref sig .tc := ⟨.hbm, 68, rfl⟩
abbrev main_c_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_7 : Ref sig .tc := ⟨.hbm, 85, rfl⟩
abbrev main_v69 : Ref sig .tc := ⟨.hbm, 86, rfl⟩
abbrev main_v70 : Ref sig .tc := ⟨.hbm, 87, rfl⟩
abbrev main_c_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_9 : Ref sig .tc := ⟨.hbm, 92, rfl⟩
abbrev main_v74 : Ref sig .tc := ⟨.hbm, 93, rfl⟩
abbrev main_v75 : Ref sig .tc := ⟨.hbm, 94, rfl⟩
abbrev main_c_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_11 : Ref sig .tc := ⟨.hbm, 99, rfl⟩
abbrev main_v79 : Ref sig .tc := ⟨.hbm, 100, rfl⟩
abbrev main_v80 : Ref sig .tc := ⟨.hbm, 101, rfl⟩
abbrev main_c_12 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_c_13 : Ref sig .tc := ⟨.hbm, 118, rfl⟩
abbrev main_v96 : Ref sig .tc := ⟨.hbm, 119, rfl⟩
abbrev main_v97 : Ref sig .tc := ⟨.hbm, 120, rfl⟩
abbrev main_c_14 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_15 : Ref sig .tc := ⟨.hbm, 125, rfl⟩
abbrev main_v101 : Ref sig .tc := ⟨.hbm, 126, rfl⟩
abbrev main_v102 : Ref sig .tc := ⟨.hbm, 127, rfl⟩
abbrev main_c_16 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_17 : Ref sig .tc := ⟨.hbm, 132, rfl⟩
abbrev main_v106 : Ref sig .tc := ⟨.hbm, 133, rfl⟩
abbrev main_v107 : Ref sig .tc := ⟨.hbm, 134, rfl⟩
abbrev main_c_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_c_19 : Ref sig .tc := ⟨.hbm, 151, rfl⟩
abbrev main_v123 : Ref sig .tc := ⟨.hbm, 152, rfl⟩
abbrev main_v124 : Ref sig .tc := ⟨.hbm, 153, rfl⟩
abbrev main_c_20 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_c_21 : Ref sig .tc := ⟨.hbm, 158, rfl⟩
abbrev main_v128 : Ref sig .tc := ⟨.hbm, 159, rfl⟩
abbrev main_v129 : Ref sig .tc := ⟨.hbm, 160, rfl⟩
abbrev main_c_22 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_c_23 : Ref sig .tc := ⟨.hbm, 165, rfl⟩
abbrev main_v133 : Ref sig .tc := ⟨.hbm, 166, rfl⟩
abbrev main_v134 : Ref sig .tc := ⟨.hbm, 167, rfl⟩
abbrev main_c_24 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩

abbrev nD : Nat := 1
abbrev τ : Topo := Topo.v7x

variable {F : FTy → Type} [FloatOps F]

class Facts₀ : Prop where
  transposes_S64x3x256x256_S64x256x256x3_0_2_3_1 : S64x3x256x256.Transposes [0, 2, 3, 1] S64x256x256x3
  transposes_S64x2x256x256_S64x256x256x2_0_2_3_1 : S64x2x256x256.Transposes [0, 2, 3, 1] S64x256x256x2
  bcast_S_S64x256x256x2 : S_.BroadcastsInDim S64x256x256x2 (![] : Fin 0 → Fin S64x256x256x2.rank)
  shapeCasts_S64x256x256x2_S64x65536x2 : S64x256x256x2.ShapeCasts S64x65536x2
  bcast_S256_S256x256_0 : S256.BroadcastsInDim S256x256 (![0] : Fin 1 → Fin S256x256.rank)
  bcast_S256_S256x256_1 : S256.BroadcastsInDim S256x256 (![1] : Fin 1 → Fin S256x256.rank)
  bcast_S256x256_S256x256x1_0_1 : S256x256.BroadcastsInDim S256x256x1 (![0, 1] : Fin 2 → Fin S256x256x1.rank)
  concatenates_S256x256x1_S256x256x1_S256x256x2_d2 : Shape.Concatenates [S256x256x1, S256x256x1] S256x256x2 2
  shapeCasts_S256x256x2_S65536x2 : S256x256x2.ShapeCasts S65536x2
  bcast_S65536x2_S1x65536x2_1_2 : S65536x2.BroadcastsInDim S1x65536x2 (![1, 2] : Fin 2 → Fin S1x65536x2.rank)
  bcast_S1x65536x2_S64x65536x2_0_1_2 : S1x65536x2.BroadcastsInDim S64x65536x2 (![0, 1, 2] : Fin 3 → Fin S64x65536x2.rank)
  bcast_S_S64x65536x2 : S_.BroadcastsInDim S64x65536x2 (![] : Fin 0 → Fin S64x65536x2.rank)
  slices_S64x65536x2_S64x65536x1_0_0_0 : S64x65536x2.Slices ![0, 0, 0] S64x65536x1
  shapeCasts_S64x65536x1_S64x65536 : S64x65536x1.ShapeCasts S64x65536
  slices_S64x65536x2_S64x65536x1_0_0_1 : S64x65536x2.Slices ![0, 0, 1] S64x65536x1
  bcast_S64x65536_S64x65536x1_0_1 : S64x65536.BroadcastsInDim S64x65536x1 (![0, 1] : Fin 2 → Fin S64x65536x1.rank)
  concatenates_S64x65536x1_S64x65536x1_S64x65536x2_d2 : Shape.Concatenates [S64x65536x1, S64x65536x1] S64x65536x2 2
  bcast_S64_S64x1_0 : S64.BroadcastsInDim S64x1 (![0] : Fin 1 → Fin S64x1.rank)
  bcast_S_S64x1 : S_.BroadcastsInDim S64x1 (![] : Fin 0 → Fin S64x1.rank)
  bcast_S_S64x65536 : S_.BroadcastsInDim S64x65536 (![] : Fin 0 → Fin S64x65536.rank)
  bcast_S64x1_S64x65536_0_1 : S64x1.BroadcastsInDim S64x65536 (![0, 1] : Fin 2 → Fin S64x65536.rank)
  concatenates_S64x65536x1_S64x65536x1_S64x65536x1_S64x65536x3_d2 : Shape.Concatenates [S64x65536x1, S64x65536x1, S64x65536x1] S64x65536x3 2
  bcast_S64x65536x1_S64x65536x3_0_1_2 : S64x65536x1.BroadcastsInDim S64x65536x3 (![0, 1, 2] : Fin 3 → Fin S64x65536x3.rank)
  shapeCasts_S64x65536x3_S64x256x256x3 : S64x65536x3.ShapeCasts S64x256x256x3
  transposes_S64x256x256x3_S64x3x256x256_0_3_1_2 : S64x256x256x3.Transposes [0, 3, 1, 2] S64x3x256x256
  gather_S64x256x256x3_S64x65536x3_S64x65536x3_2_012_n_n_012_2_1113_wf : GatherDims.WF S64x256x256x3 S64x65536x3 S64x65536x3 [2] [0, 1, 2] [] [0, 1, 2] [] 2 ![1, 1, 1, 3]

variable [Facts₀]

def gather_S64x256x256x3_S64x65536x3_S64x65536x3_2_012_n_n_012_2_1113 : GatherDims S64x256x256x3 S64x65536x3 S64x65536x3 where
  offsetDims := [2]
  collapsedSliceDims := [0, 1, 2]
  operandBatchingDims := []
  startIndicesBatchingDims := []
  startIndexMap := [0, 1, 2]
  indexVectorDim := 2
  sliceSizes := ![1, 1, 1, 3]
  wf := gather_S64x256x256x3_S64x65536x3_S64x65536x3_2_012_n_n_012_2_1113_wf

class Facts : Prop extends Facts₀ where

variable [Facts]
-- ==== Proof.KernelFrame.lean ====
/-
  The frame of `Kernel`, at any float instance: every weakly fair execution of @main terminates without a fault and leaves
  the two argument arrays as launched.

  @main is 101 host operations (seven stretches, one of them a four-piece concatenate of the flat corner indices) followed
  by one pipelined region over a grid of 32 points. Each point stages a block of two images from each of the four gathered
  corner arrays and from the offsets, and writes back a block of two images of the result. The body loads the five input
  blocks whole, computes, and stores the output block whole through one rectangle that is the block itself; it keeps nothing
  between points. So what the output buffer holds after the body is a function of the five input blocks alone (`out5`), each
  input buffer is left at its block, and the pipeline's invariant is the class's own (the scoped rest and the generator
  register, untouched).
-/
import proofs.«405025_j5866925326584_3_alg».proof.Proof.Gen.Kernel.Launch
import proofs.«405025_j5866925326584_3_alg».proof.Proof.Gen.Kernel.Skeleton
import proofs.«405025_j5866925326584_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seven stretches of host operations before the region, in order. -/
abbrev hostStretches : List (List (HloOp τ sig (Elt F))) :=
  [hostOps0, hostOps0_1, hostOps0_2, hostOps0_3, hostOps0_4, hostOps0_5, hostOps0_6]

/-- Core `c`'s buffers when the region is entered: the launch contents after the host operations. -/
abbrev V (c : Dev nD) (b : Ref sig .tc) : Buf (Elt F) ((c : Thread nD τ).loc b) :=
  StableHlo.after (List.flatten (hostStretches (F := F))) (fun b => m (c, b)) b

/-- No host operation allocates: each writes a buffer the signature already has. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

set_option maxHeartbeats 2000000 in
/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`: two consecutive images of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: every input is fetched at every point,
    no block is cut at the array's edge, and the body leaves the block in place. One statement per input window. -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The first argument is staged by no window (the host operations alone read it), so the run's post keeps it at its
    entry contents; the second is the fifth window's array, an input, which the run returns as it found it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).1 4).trans (((dats 0 c).arrAt_in 4 rfl _).trans ((hA c 4).trans (V_main_arg1 m c)))⟩) h

/-! ## What the body leaves in the output window's buffer -/

/-- The whole block of a corner or result window, and of the offsets window. -/
abbrev rImg : Rect S2x3x256x256 := Rect.unit (s := S2x3x256x256) ![0, 0, 0, 0] S2x3x256x256.size inb_S2x3x256x256_S2x3x256x256_0_0_0_0
abbrev rOff : Rect S2x2x256x256 := Rect.unit (s := S2x2x256x256) ![0, 0, 0, 0] S2x2x256x256.size inb_S2x2x256x256_S2x2x256x256_0_0_0_0

/-- The output buffer after the body, from the five input blocks: one store of the blended value over the whole block. -/
def out5 (x0 x1 x2 x3 : Vec F S2x3x256x256 .f32) (x4 : Vec F S2x2x256x256 .f32) : Vec F S2x3x256x256 .f32 :=
  View.canon [⟨rImg, k0_pay1 (k0_pay2 (View.ld x0 rImg)) (k0_pay3 (View.ld x1 rImg)) (k0_pay4 (View.ld x2 rImg)) (k0_pay5 (View.ld x3 rImg))
    (k0_pay6 (View.ld x4 rOff)) (k0_pay7 (View.ld x4 rOff)) (k0_pay8 (View.ld x4 rOff)) (k0_pay9 (View.ld x4 rOff))⟩]

/-- The one store's rectangle is the buffer. -/
theorem cover5 (p0 : Vec F S2x3x256x256 .f32) (y : S2x3x256x256.Idx) :
    ∃ pc ∈ ([⟨rImg, p0⟩] : List (View.Piece (Elt F) S2x3x256x256 .f32)), y ∈ pc.1.set :=
  View.cover_of_tiled [⟨rImg, p0⟩] S2x3x256x256.size (by rfl) y

/-! ## The body's triple -/

set_option maxHeartbeats 4000000 in
/-- The body on whole staging buffers, the inputs' at contents `x0 … x4` and the output's at anything, returns with the
    inputs' as they were and the output's at `out5` of them. -/
theorem sound_kernel (c : Dev nD) (E : Set ℕ) (i : grid0.Coords)
    (arg1 : Memref sig .tc .vmem S2x3x256x256 .f32) (harg1 : arg1.IsWhole) (arg2 : Memref sig .tc .vmem S2x3x256x256 .f32) (harg2 : arg2.IsWhole)
    (arg3 : Memref sig .tc .vmem S2x3x256x256 .f32) (harg3 : arg3.IsWhole) (arg4 : Memref sig .tc .vmem S2x3x256x256 .f32) (harg4 : arg4.IsWhole)
    (arg5 : Memref sig .tc .vmem S2x2x256x256 .f32) (harg5 : arg5.IsWhole) (arg6 : Memref sig .tc .vmem S2x3x256x256 .f32) (harg6 : arg6.IsWhole)
    (x0 x1 x2 x3 : Vec F S2x3x256x256 .f32) (x4 : Vec F S2x2x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__blend_kernel i arg1 harg1 arg2 harg2 arg3 harg3 arg4 harg4 arg5 harg5 arg6 harg6) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

/-! ## The pipeline's proof data -/

/-- On core `c`: the arrays as the region finds them; after the body at point `t` each input's buffer at its block and the
    output's at `out5` of the five input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d
theorem before_4 (c : Dev nD) (t : Fin cfg0.N) (d) : (dats m 0 c).before 4 t d = iblk m c 4 t :=
  before_in_of_4 m (dats m 0 c) (A_eq m c 4) (after_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data says and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KernelIdealFrame.lean ====
/-
  The frame of `KernelIdeal`, at any float instance: every weakly fair execution of @main terminates without a fault and leaves
  the two argument arrays as launched.

  @main is 101 host operations (seven stretches, one of them a four-piece concatenate of the flat corner indices) followed
  by one pipelined region over a grid of 32 points. Each point stages a block of two images from each of the four gathered
  corner arrays and from the offsets, and writes back a block of two images of the result. The body loads the five input
  blocks whole, computes, and stores the output block whole through one rectangle that is the block itself; it keeps nothing
  between points. So what the output buffer holds after the body is a function of the five input blocks alone (`out5`), each
  input buffer is left at its block, and the pipeline's invariant is the class's own (the scoped rest and the generator
  register, untouched).
-/
import proofs.«405025_j5866925326584_3_alg».proof.Proof.Gen.KernelIdeal.Launch
import proofs.«405025_j5866925326584_3_alg».proof.Proof.Gen.KernelIdeal.Skeleton
import proofs.«405025_j5866925326584_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seven stretches of host operations before the region, in order. -/
abbrev hostStretches : List (List (HloOp τ sig (Elt F))) :=
  [hostOps0, hostOps0_1, hostOps0_2, hostOps0_3, hostOps0_4, hostOps0_5, hostOps0_6]

/-- Core `c`'s buffers when the region is entered: the launch contents after the host operations. -/
abbrev V (c : Dev nD) (b : Ref sig .tc) : Buf (Elt F) ((c : Thread nD τ).loc b) :=
  StableHlo.after (List.flatten (hostStretches (F := F))) (fun b => m (c, b)) b

/-- No host operation allocates: each writes a buffer the signature already has. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

set_option maxHeartbeats 2000000 in
/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 2000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`: two consecutive images of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: every input is fetched at every point,
    no block is cut at the array's edge, and the body leaves the block in place. One statement per input window. -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The first argument is staged by no window (the host operations alone read it), so the run's post keeps it at its
    entry contents; the second is the fifth window's array, an input, which the run returns as it found it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).1 4).trans (((dats 0 c).arrAt_in 4 rfl _).trans ((hA c 4).trans (V_main_arg1 m c)))⟩) h

/-! ## What the body leaves in the output window's buffer -/

/-- The whole block of a corner or result window, and of the offsets window. -/
abbrev rImg : Rect S2x3x256x256 := Rect.unit (s := S2x3x256x256) ![0, 0, 0, 0] S2x3x256x256.size inb_S2x3x256x256_S2x3x256x256_0_0_0_0
abbrev rOff : Rect S2x2x256x256 := Rect.unit (s := S2x2x256x256) ![0, 0, 0, 0] S2x2x256x256.size inb_S2x2x256x256_S2x2x256x256_0_0_0_0

/-- The output buffer after the body, from the five input blocks: one store of the blended value over the whole block. -/
def out5 (x0 x1 x2 x3 : Vec F S2x3x256x256 .f32) (x4 : Vec F S2x2x256x256 .f32) : Vec F S2x3x256x256 .f32 :=
  View.canon [⟨rImg, k0_pay1 (k0_pay2 (View.ld x0 rImg)) (k0_pay3 (View.ld x1 rImg)) (k0_pay4 (View.ld x2 rImg)) (k0_pay5 (View.ld x3 rImg))
    (k0_pay6 (View.ld x4 rOff)) (k0_pay7 (View.ld x4 rOff)) (k0_pay8 (View.ld x4 rOff)) (k0_pay9 (View.ld x4 rOff))⟩]

/-- The one store's rectangle is the buffer. -/
theorem cover5 (p0 : Vec F S2x3x256x256 .f32) (y : S2x3x256x256.Idx) :
    ∃ pc ∈ ([⟨rImg, p0⟩] : List (View.Piece (Elt F) S2x3x256x256 .f32)), y ∈ pc.1.set :=
  View.cover_of_tiled [⟨rImg, p0⟩] S2x3x256x256.size (by rfl) y

/-! ## The body's triple -/

set_option maxHeartbeats 4000000 in
/-- The body on whole staging buffers, the inputs' at contents `x0 … x4` and the output's at anything, returns with the
    inputs' as they were and the output's at `out5` of them. -/
theorem sound_kernel (c : Dev nD) (E : Set ℕ) (i : grid0.Coords)
    (arg1 : Memref sig .tc .vmem S2x3x256x256 .f32) (harg1 : arg1.IsWhole) (arg2 : Memref sig .tc .vmem S2x3x256x256 .f32) (harg2 : arg2.IsWhole)
    (arg3 : Memref sig .tc .vmem S2x3x256x256 .f32) (harg3 : arg3.IsWhole) (arg4 : Memref sig .tc .vmem S2x3x256x256 .f32) (harg4 : arg4.IsWhole)
    (arg5 : Memref sig .tc .vmem S2x2x256x256 .f32) (harg5 : arg5.IsWhole) (arg6 : Memref sig .tc .vmem S2x3x256x256 .f32) (harg6 : arg6.IsWhole)
    (x0 x1 x2 x3 : Vec F S2x3x256x256 .f32) (x4 : Vec F S2x2x256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__blend_kernel i arg1 harg1 arg2 harg2 arg3 harg3 arg4 harg4 arg5 harg5 arg6 harg6) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5 _)

/-! ## The pipeline's proof data -/

/-- On core `c`: the arrays as the region finds them; after the body at point `t` each input's buffer at its block and the
    output's at `out5` of the five input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = out5 (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d
theorem before_4 (c : Dev nD) (t : Fin cfg0.N) (d) : (dats m 0 c).before 4 t d = iblk m c 4 t :=
  before_in_of_4 m (dats m 0 c) (A_eq m c 4) (after_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the proof data says and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.Warp.lean ====
/-
  The bilinear warp both programs compute, as one function of the two argument arrays, and the scalar facts about its
  source coordinates.

  For batch `b` and pixel `(i, j)` the source row is `srow = clip (i + off[b, 0, i, j] · 256)` and the source column
  `scol = clip (j + off[b, 1, i, j] · 256)`, clipped into `[0, 255]`. The four corner pixels are read at the floor and the
  ceiling of the two coordinates, turned into integer words and then into positions on an axis of 256 as a gather reads a
  start index (signed, clamped into the axis). The result blends the four corners with the fractional parts
  `srow − ⌊srow⌋` and `scol − ⌊scol⌋`. Because the clipped coordinate lies in `[0, 255]` whatever the offset is (an
  infinite offset included), its floor and ceiling are integers in that range and the index words are exact.
-/
import Idealize.ShloMosaic.PureOps.Ideal
import Idealize.ShloMosaic.Lib.ValueIdx

noncomputable section

namespace Cert.Warp

open Idealize.ShloMosaic Idealize.ShloMosaic.ValueIdx

/-- An image batch `[64, 3, 256, 256]` and an offsets batch `[64, 2, 256, 256]`. -/
abbrev Img : Shape := ⟨4, ![64, 3, 256, 256]⟩
abbrev Off : Shape := ⟨4, ![64, 2, 256, 256]⟩

/-! ## The three float literals -/

/-- `0.0`, `255.0` and `256.0` as the programs spell them. -/
abbrev c0 : EReal := Ideal.ofBits .f32 0x00000000#32
abbrev c255 : EReal := Ideal.ofBits .f32 0x437F0000#32
abbrev c256 : EReal := Ideal.ofBits .f32 0x43800000#32

theorem c0_eq : c0 = 0 := by
  simp [Ideal.ofBits, Ideal.ieee]
theorem c255_eq : c255 = ((255 : ℝ) : EReal) := by
  simp [Ideal.ofBits, Ideal.ieee, -EReal.coe_mul]; norm_num
/-- The integer `255` converted to a float is the literal `255.0`. -/
theorem sitofp_255 : (((255#32 : BitVec 32).toInt : ℝ) : EReal) = c255 := by
  rw [c255_eq]
  have h : (255#32 : BitVec 32).toInt = 255 := by decide
  rw [h]; norm_num

/-! ## The clipped source coordinate -/

/-- A pixel's row or column number as a float: its 32-bit word read signed. -/
def gridf (i : Fin 256) : EReal := (((BitVec.ofNat 32 i.val).toInt : ℝ) : EReal)

/-- Clipping into `[0, 255]`: the maximum with `0`, then the minimum with `255`. -/
def clip (x : EReal) : EReal := min c255 (max c0 x)

/-- A clipped coordinate is a real number in `[0, 255]`, whatever was clipped. -/
theorem clip_real (x : EReal) : ∃ r : ℝ, clip x = (r : EReal) ∧ 0 ≤ r ∧ r ≤ 255 := by
  have h0 : (0 : EReal) ≤ clip x := by
    unfold clip
    rw [c0_eq, c255_eq]
    exact le_min (by exact_mod_cast (by norm_num : (0 : ℝ) ≤ 255)) (le_max_left _ _)
  have h1 : clip x ≤ ((255 : ℝ) : EReal) := by
    unfold clip
    rw [c255_eq]
    exact min_le_left _ _
  have hb : clip x ≠ ⊥ := fun h => by rw [h] at h0; simp at h0
  have ht : clip x ≠ ⊤ := fun h => by rw [h] at h1; simp at h1
  refine ⟨(clip x).toReal, (EReal.coe_toReal ht hb).symm, ?_, ?_⟩
  · rw [← EReal.coe_toReal ht hb] at h0
    exact_mod_cast h0
  · rw [← EReal.coe_toReal ht hb] at h1
    exact_mod_cast h1

/-- Floor and ceiling on the extended reals (the infinities fixed), and the conversion to a 32-bit integer word. -/
def flo (s : EReal) : EReal := Ideal.liftRound Int.floor s
def cei (s : EReal) : EReal := Ideal.liftRound Int.ceil s
def word (x : EReal) : BitVec 32 := Ideal.fptosi 32 x

/-- The word of a natural number below 256, given as a float, is that number: rounding toward zero leaves an integer
    alone and the clamp into the signed 32-bit range is the identity there. -/
theorem word_natCast {n : ℕ} (hn : n < 256) : word (((n : ℝ)) : EReal) = BitVec.ofNat 32 n := by
  unfold word Ideal.fptosi
  rw [Ideal.toIntClamped_coe, if_pos (Nat.cast_nonneg n), Int.floor_natCast]
  have h : max (-((2 ^ (32 - 1) : ℕ) : ℤ)) (min (((2 ^ (32 - 1) : ℕ) : ℤ) - 1) (n : ℤ)) = (n : ℤ) := by
    norm_num
    omega
  rw [h, BitVec.ofInt_natCast]

/-- The word of an integer in `[0, 255]`, given as a float. -/
theorem word_intCast {k : ℤ} (h0 : 0 ≤ k) (h1 : k ≤ 255) :
    ∃ n : ℕ, n < 256 ∧ word (((k : ℝ)) : EReal) = BitVec.ofNat 32 n := by
  refine ⟨k.toNat, by omega, ?_⟩
  have h : ((k : ℤ) : ℝ) = ((k.toNat : ℕ) : ℝ) := by
    have := Int.toNat_of_nonneg h0
    exact_mod_cast this.symm
  rw [h]
  exact word_natCast (by omega)

/-- The floor of a clipped coordinate, as a word, is a number below 256 … -/
theorem word_flo_clip (x : EReal) : ∃ k : ℕ, k < 256 ∧ word (flo (clip x)) = BitVec.ofNat 32 k := by
  obtain ⟨r, hr, h0, h1⟩ := clip_real x
  have hf0 : 0 ≤ ⌊r⌋ := Int.floor_nonneg.mpr h0
  have hf1 : ⌊r⌋ ≤ 255 := by
    have h : ((⌊r⌋ : ℤ) : ℝ) ≤ ((255 : ℤ) : ℝ) := le_trans (Int.floor_le r) (by exact_mod_cast h1)
    exact_mod_cast h
  rw [hr, flo, Ideal.liftRound_coe]
  exact word_intCast hf0 hf1
/-- … and so is its ceiling. -/
theorem word_cei_clip (x : EReal) : ∃ k : ℕ, k < 256 ∧ word (cei (clip x)) = BitVec.ofNat 32 k := by
  obtain ⟨r, hr, h0, h1⟩ := clip_real x
  have hc0 : 0 ≤ ⌈r⌉ := Int.ceil_nonneg h0
  have hc1 : ⌈r⌉ ≤ 255 := Int.ceil_le.mpr (by exact_mod_cast h1)
  rw [hr, cei, Ideal.liftRound_coe]
  exact word_intCast hc0 hc1

/-! ## Positions on an axis of 256 -/

/-- The position a gather reads off a start-index word on an axis of 256: the word read signed, clamped into the axis. -/
def pos (w : BitVec 32) : Fin 256 := ⟨min w.toInt.toNat 255, by omega⟩

theorem pos_ofNat {k : ℕ} (hk : k < 256) : pos (BitVec.ofNat 32 k) = ⟨k, hk⟩ := by
  have hn : (BitVec.ofNat 32 k).toNat = k := by
    rw [BitVec.toNat_ofNat]; omega
  have hi : (BitVec.ofNat 32 k).toInt = (k : ℤ) := by
    rw [BitVec.toInt_eq_toNat_cond, hn, if_pos (by omega)]
  apply Fin.ext
  simp only [pos, hi, Int.toNat_natCast]
  omega

/-! ## Words below 65536: the flat index `row · 256 + col` and its comparisons -/

/-- A small number's word read signed or unsigned is the number. -/
theorem toInt_ofNat_small {n : ℕ} (hn : n < 65536) : (BitVec.ofNat 32 n).toInt = (n : ℤ) := by
  have h : (BitVec.ofNat 32 n).toNat = n := by
    rw [BitVec.toNat_ofNat]; omega
  rw [BitVec.toInt_eq_toNat_cond, h, if_pos (by omega)]
theorem toNat_ofNat_small {n : ℕ} (hn : n < 65536) : (BitVec.ofNat 32 n).toNat = n := by
  rw [BitVec.toNat_ofNat]; omega
/-- The flat index of row `k` and column `l` does not wrap. -/
theorem flat_eq {k l : ℕ} (hk : k < 256) (hl : l < 256) :
    BitVec.ofNat 32 k * 256#32 + BitVec.ofNat 32 l = BitVec.ofNat 32 (k * 256 + l) := by
  rw [BitVec.ofNat_add, BitVec.ofNat_mul]
theorem flat_lt {k l : ℕ} (hk : k < 256) (hl : l < 256) : k * 256 + l < 65536 := by omega
theorem flat_div {k l : ℕ} (hl : l < 256) : (k * 256 + l) / 256 = k := by omega
theorem flat_mod {k l : ℕ} (hl : l < 256) : (k * 256 + l) % 256 = l := by omega

/-! ## Small index words under the gathers' comparisons -/

/-- A word below 65536, read signed, is not negative: the signed test `w < 0` fails. -/
theorem cmpi_slt_zero_small {n : ℕ} (hn : n < 65536) : IntOp.cmpi .slt (BitVec.ofNat 32 n) 0#32 = 0#1 := by
  have h : (BitVec.ofNat 32 n).slt 0#32 = false := by
    rw [BitVec.slt_eq_decide, toInt_ofNat_small hn, BitVec.toInt_zero]
    exact decide_eq_false (by omega)
  unfold IntOp.cmpi
  simp only [h]
  rfl
/-- A word below 65536, read signed, is not negative: the signed test `w ≥ 0` holds. -/
theorem cmpi_sge_zero_small {n : ℕ} (hn : n < 65536) : IntOp.cmpi .sge (BitVec.ofNat 32 n) 0#32 = 1#1 := by
  have h : (0#32 : BitVec 32).sle (BitVec.ofNat 32 n) = true := by
    rw [BitVec.sle_eq_decide, toInt_ofNat_small hn, BitVec.toInt_zero]
    exact decide_eq_true (by omega)
  unfold IntOp.cmpi
  simp only [h]
  rfl
/-- A word below 65536, read signed, is at most 65535: the signed test `w ≤ 65535` holds. -/
theorem cmpi_sle_max_small {n : ℕ} (hn : n < 65536) : IntOp.cmpi .sle (BitVec.ofNat 32 n) 65535#32 = 1#1 := by
  have h : (BitVec.ofNat 32 n).sle 65535#32 = true := by
    rw [BitVec.sle_eq_decide, toInt_ofNat_small hn, toInt_ofNat_small (n := 65535) (by norm_num)]
    exact decide_eq_true (by omega)
  unfold IntOp.cmpi
  simp only [h]
  rfl
/-- The conjunction of two true bits is true. -/
theorem andi_one_one : IntOp.andi (1#1) (1#1) = 1#1 := by decide

/-- Clamping a small word, read signed, into an axis that holds it gives the number back: the flat axis of 65536, an
    image axis of 256, the batch axis of 64. -/
theorem clamp_flat_small {n : ℕ} (hn : n < 65536) : min (BitVec.ofNat 32 n).toInt.toNat 65535 = n := by
  rw [toInt_ofNat_small hn, Int.toNat_natCast]; omega
theorem clamp_pos_small {k : ℕ} (hk : k < 256) : min (BitVec.ofNat 32 k).toInt.toNat 255 = k := by
  rw [toInt_ofNat_small (by omega), Int.toNat_natCast]; omega
theorem clamp_batch_small {b : ℕ} (hb : b < 64) : min (BitVec.ofNat 32 b).toInt.toNat 63 = b := by
  rw [toInt_ofNat_small (by omega), Int.toNat_natCast]; omega

/-- Normalising a possibly negative index (choose `a` where the word is negative) keeps a small word. -/
theorem select_neg_small {n : ℕ} (hn : n < 65536) (a : BitVec 32) :
    Scalar.select (IntOp.cmpi .slt (BitVec.ofNat 32 n) 0#32) a (BitVec.ofNat 32 n) = BitVec.ofNat 32 n := by
  rw [cmpi_slt_zero_small hn]
  exact select_zero _ _

/-- The position of a word below 256 is that number. -/
theorem pos_val {k : ℕ} (hk : k < 256) : (pos (BitVec.ofNat 32 k)).val = k := by
  rw [pos_ofNat hk]

/-! ## The blend and the warp -/

/-- The bilinear blend of four corner values with the two fractional parts, in the order both programs compute it:
    first along the rows on the upper and on the lower pair, then along the columns between the two. -/
def blend (xlu xrb xlb xru fx fy : EReal) : EReal :=
  (xlu + (xru - xlu) * fx) + ((xlb + (xrb - xlb) * fx) - (xlu + (xru - xlu) * fx)) * fy

/-- The clipped source row and column of pixel `(i, j)` of batch `b`. -/
def srow (off : Off.Idx → EReal) (b : Fin 64) (i j : Fin 256) : EReal :=
  clip (gridf i + off (ix4 b (0 : Fin 2) i j) * c256)
def scol (off : Off.Idx → EReal) (b : Fin 64) (i j : Fin 256) : EReal :=
  clip (gridf j + off (ix4 b (1 : Fin 2) i j) * c256)

/-- The four corner positions. -/
def rowF (off : Off.Idx → EReal) (b : Fin 64) (i j : Fin 256) : Fin 256 := pos (word (flo (srow off b i j)))
def rowC (off : Off.Idx → EReal) (b : Fin 64) (i j : Fin 256) : Fin 256 := pos (word (cei (srow off b i j)))
def colF (off : Off.Idx → EReal) (b : Fin 64) (i j : Fin 256) : Fin 256 := pos (word (flo (scol off b i j)))
def colC (off : Off.Idx → EReal) (b : Fin 64) (i j : Fin 256) : Fin 256 := pos (word (cei (scol off b i j)))

/-- The two fractional parts. -/
def fracR (off : Off.Idx → EReal) (b : Fin 64) (i j : Fin 256) : EReal := srow off b i j - flo (srow off b i j)
def fracC (off : Off.Idx → EReal) (b : Fin 64) (i j : Fin 256) : EReal := scol off b i j - flo (scol off b i j)

/-- The warped image at batch `b`, channel `ch`, pixel `(i, j)`. -/
def warpAt (tr : Img.Idx → EReal) (off : Off.Idx → EReal) (b : Fin 64) (ch : Fin 3) (i j : Fin 256) : EReal :=
  blend (tr (ix4 b ch (rowF off b i j) (colF off b i j))) (tr (ix4 b ch (rowC off b i j) (colC off b i j)))
    (tr (ix4 b ch (rowF off b i j) (colC off b i j))) (tr (ix4 b ch (rowC off b i j) (colF off b i j)))
    (fracR off b i j) (fracC off b i j)

/-- The warped batch as one array. -/
def warp (tr : Img.Idx → EReal) (off : Off.Idx → EReal) : Img.Idx → EReal :=
  fun y => warpAt tr off (y 0) (y 1) (y 2) (y 3)

theorem warp_ix4 (tr : Img.Idx → EReal) (off : Off.Idx → EReal) (b : Fin 64) (ch : Fin 3) (i j : Fin 256) :
    warp tr off (ix4 b ch i j) = warpAt tr off b ch i j := rfl

/-- The blend of four corner ARRAYS at the same pixel: what the kernel's region computes from the gathered corners. -/
def blendArr (xlu xrb xlb xru : Img.Idx → EReal) (off : Off.Idx → EReal) : Img.Idx → EReal :=
  fun y => blend (xlu y) (xrb y) (xlb y) (xru y) (fracR off (y 0) (y 2) (y 3)) (fracC off (y 0) (y 2) (y 3))

theorem blendArr_ix4 (xlu xrb xlb xru : Img.Idx → EReal) (off : Off.Idx → EReal) (b : Fin 64) (ch : Fin 3) (i j : Fin 256) :
    blendArr xlu xrb xlb xru off (ix4 b ch i j)
      = blend (xlu (ix4 b ch i j)) (xrb (ix4 b ch i j)) (xlb (ix4 b ch i j)) (xru (ix4 b ch i j)) (fracR off b i j) (fracC off b i j) := rfl

end Cert.Warp

end
-- ==== Proof.KernelIdealBlend.lean ====
/-
  What the kernel program's region leaves in the result array, read off the frame run: the blend of the four corner
  arrays, pixel by pixel, with the fractional parts of the clipped source coordinates recomputed from the offsets.

  Point `t` of the grid handles images `2t` and `2t + 1`. Its body's one store writes, at `(bb, ch, i, j)` of the block,
  the blend of the four corner blocks there; the row number `i` and column number `j` come from an in-kernel iota, the
  offsets from the fifth block at `(bb, 0, i, j)` and `(bb, 1, i, j)`. The blocks tile the array, so the array after the
  run is one function of the five arrays the region found.

  The steps. First the stored value at one index of a block, as a term of the five blocks' entries there (the row and
  column numbers, the two offset channels, the clipped coordinates, their floors, the broadcast of the fractional parts
  over the channels, the blend). Then the blocks as parts of their arrays: element `(bb, ch, i, j)` of the block at point
  `t` is element `(2t + bb, ch, i, j)` of the array, for all six windows alike. So what point `t` writes back is block
  `t` of the blend of the five arrays; image `b` lies in the block of point `b / 2`; hence the array after the run.
-/
import proofs.«405025_j5866925326584_3_alg».proof.Proof.KernelIdealFrame
import proofs.«405025_j5866925326584_3_alg».proof.Proof.Warp
import Idealize.ShloMosaic.Lib.ValueIdx
import Idealize.ShloMosaic.Lib.ValueLayout
import Idealize.ShloMosaic.Lib.Pipeline.Value

set_option maxRecDepth 16384

noncomputable section

namespace Cert.KernelIdeal.Blend

open Cert.KernelIdeal Cert.KernelIdeal.Gen Cert.KernelIdeal.Fr Cert.Warp
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The stored value at one index of a block -/

/-- The row number as a float, the same on both images of a block: the iota along the rows, converted, at `(bb, 0, i, j)`
    of its broadcast is the number of row `i`. -/
theorem rowGrid_apply (hI : S1x1x256x256.Iotas .tc 32 [2]) (hB : S1x1x256x256.Broadcasts S2x1x256x256)
    (bb : Fin 2) (i j : Fin 256) :
    broadcastTo S2x1x256x256 (sitofp (F := Ideal) .f32 (iota .tc S1x1x256x256 32 [2] hI)) hB (ix4 bb (0 : Fin 1) i j) = gridf i := by
  refine (broadcastTo_apply _ hB (ix4 bb (0 : Fin 1) i j) (ix4 (0 : Fin 1) (0 : Fin 1) i j) fun a => ?_).trans ?_
  · match a with
    | ⟨0, _⟩ => rfl
    | ⟨1, _⟩ => rfl
    | ⟨2, _⟩ => rfl
    | ⟨3, _⟩ => rfl
  · show FloatOps.sitofp .f32 (iota .tc S1x1x256x256 32 [2] hI (ix4 (0 : Fin 1) (0 : Fin 1) i j)) = _
    rw [iota_single_apply]
    rfl

/-- The column number as a float: the iota along the columns at `(bb, 0, i, j)` of its broadcast is the number of
    column `j`. -/
theorem colGrid_apply (hI : S1x1x256x256.Iotas .tc 32 [3]) (hB : S1x1x256x256.Broadcasts S2x1x256x256)
    (bb : Fin 2) (i j : Fin 256) :
    broadcastTo S2x1x256x256 (sitofp (F := Ideal) .f32 (iota .tc S1x1x256x256 32 [3] hI)) hB (ix4 bb (0 : Fin 1) i j) = gridf j := by
  refine (broadcastTo_apply _ hB (ix4 bb (0 : Fin 1) i j) (ix4 (0 : Fin 1) (0 : Fin 1) i j) fun a => ?_).trans ?_
  · match a with
    | ⟨0, _⟩ => rfl
    | ⟨1, _⟩ => rfl
    | ⟨2, _⟩ => rfl
    | ⟨3, _⟩ => rfl
  · show FloatOps.sitofp .f32 (iota .tc S1x1x256x256 32 [3] hI (ix4 (0 : Fin 1) (0 : Fin 1) i j)) = _
    rw [iota_single_apply]
    rfl

/-- The row offsets are channel `0` of the offsets block … -/
theorem offRow_apply (x4 : Vec Ideal S2x2x256x256 .f32) (h : S2x2x256x256.Slices ![0, 0, 0, 0] S2x1x256x256)
    (bb : Fin 2) (i j : Fin 256) :
    extractStridedSlice S2x1x256x256 ![0, 0, 0, 0] x4 h (ix4 bb (0 : Fin 1) i j) = x4 (ix4 bb (0 : Fin 2) i j) :=
  extractStridedSlice_apply _ x4 h _ _ fun a => by
    match a with
    | ⟨0, _⟩ => show bb.val = 0 + bb.val; omega
    | ⟨1, _⟩ => rfl
    | ⟨2, _⟩ => show i.val = 0 + i.val; omega
    | ⟨3, _⟩ => show j.val = 0 + j.val; omega

/-- … and the column offsets channel `1`. -/
theorem offCol_apply (x4 : Vec Ideal S2x2x256x256 .f32) (h : S2x2x256x256.Slices ![0, 1, 0, 0] S2x1x256x256)
    (bb : Fin 2) (i j : Fin 256) :
    extractStridedSlice S2x1x256x256 ![0, 1, 0, 0] x4 h (ix4 bb (0 : Fin 1) i j) = x4 (ix4 bb (1 : Fin 2) i j) :=
  extractStridedSlice_apply _ x4 h _ _ fun a => by
    match a with
    | ⟨0, _⟩ => show bb.val = 0 + bb.val; omega
    | ⟨1, _⟩ => rfl
    | ⟨2, _⟩ => show i.val = 0 + i.val; omega
    | ⟨3, _⟩ => show j.val = 0 + j.val; omega

/-- The clipped source row of pixel `(i, j)` of image `bb` of the block: the row number plus 256 times the row offset,
    clipped into `[0, 255]`. -/
theorem srcRow_apply (x4 : Vec Ideal S2x2x256x256 .f32) (bb : Fin 2) (i j : Fin 256) :
    k0_pay6 x4 (ix4 bb (0 : Fin 1) i j) = clip (gridf i + x4 (ix4 bb (0 : Fin 2) i j) * c256) := by
  unfold k0_pay6
  show min c255 (max c0 (broadcastTo S2x1x256x256 (sitofp (F := Ideal) .f32 (iota .tc S1x1x256x256 32 [2] _)) _ (ix4 bb (0 : Fin 1) i j)
    + extractStridedSlice S2x1x256x256 ![0, 0, 0, 0] x4 _ (ix4 bb (0 : Fin 1) i j) * c256)) = _
  rw [rowGrid_apply, offRow_apply]
  rfl

/-- The clipped source column: the column number plus 256 times the column offset, clipped. -/
theorem srcCol_apply (x4 : Vec Ideal S2x2x256x256 .f32) (bb : Fin 2) (i j : Fin 256) :
    k0_pay7 x4 (ix4 bb (0 : Fin 1) i j) = clip (gridf j + x4 (ix4 bb (1 : Fin 2) i j) * c256) := by
  unfold k0_pay7
  show min c255 (max c0 (broadcastTo S2x1x256x256 (sitofp (F := Ideal) .f32 (iota .tc S1x1x256x256 32 [3] _)) _ (ix4 bb (0 : Fin 1) i j)
    + extractStridedSlice S2x1x256x256 ![0, 1, 0, 0] x4 _ (ix4 bb (0 : Fin 1) i j) * c256)) = _
  rw [colGrid_apply, offCol_apply]
  rfl

/-- The floors of the two clipped coordinates, entry by entry. -/
theorem floorRow_apply (x4 : Vec Ideal S2x2x256x256 .f32) (y : S2x1x256x256.Idx) : k0_pay8 x4 y = flo (k0_pay6 x4 y) := rfl
theorem floorCol_apply (x4 : Vec Ideal S2x2x256x256 .f32) (y : S2x1x256x256.Idx) : k0_pay9 x4 y = flo (k0_pay7 x4 y) := rfl

/-- A one-channel value broadcast over the three channels reads, at channel `ch`, its one channel. -/
theorem chan_apply (v : FVec Ideal S2x1x256x256 .f32) (h : S2x1x256x256.Broadcasts S2x3x256x256)
    (bb : Fin 2) (ch : Fin 3) (i j : Fin 256) :
    broadcastTo S2x3x256x256 v h (ix4 bb ch i j) = v (ix4 bb (0 : Fin 1) i j) :=
  broadcastTo_apply v h _ _ fun a => by
    match a with
    | ⟨0, _⟩ => rfl
    | ⟨1, _⟩ => rfl
    | ⟨2, _⟩ => rfl
    | ⟨3, _⟩ => rfl

/-- The stored value from the eight values the arithmetic starts from: the blend of the four corners with the two
    fractional parts (coordinate minus its floor), each read at the pixel's one-channel index. -/
theorem stored_apply (v1 v3 v5 v7 : FVec Ideal S2x3x256x256 .f32) (v24 v30 v31 v32 : FVec Ideal S2x1x256x256 .f32)
    (bb : Fin 2) (ch : Fin 3) (i j : Fin 256) :
    k0_pay1 v1 v3 v5 v7 v24 v30 v31 v32 (ix4 bb ch i j)
      = blend (v1 (ix4 bb ch i j)) (v3 (ix4 bb ch i j)) (v5 (ix4 bb ch i j)) (v7 (ix4 bb ch i j))
          (v24 (ix4 bb (0 : Fin 1) i j) - v31 (ix4 bb (0 : Fin 1) i j)) (v30 (ix4 bb (0 : Fin 1) i j) - v32 (ix4 bb (0 : Fin 1) i j)) := by
  unfold k0_pay1
  have hr := chan_apply (subf v24 v31) broadcasts_S2x1x256x256_S2x3x256x256 bb ch i j
  have hc := chan_apply (subf v30 v32) broadcasts_S2x1x256x256_S2x3x256x256 bb ch i j
  show (v1 (ix4 bb ch i j) + (v7 (ix4 bb ch i j) - v1 (ix4 bb ch i j)) * broadcastTo S2x3x256x256 (subf v24 v31) _ (ix4 bb ch i j))
      + ((v5 (ix4 bb ch i j) + (v3 (ix4 bb ch i j) - v5 (ix4 bb ch i j)) * broadcastTo S2x3x256x256 (subf v24 v31) _ (ix4 bb ch i j))
        - (v1 (ix4 bb ch i j) + (v7 (ix4 bb ch i j) - v1 (ix4 bb ch i j)) * broadcastTo S2x3x256x256 (subf v24 v31) _ (ix4 bb ch i j)))
        * broadcastTo S2x3x256x256 (subf v30 v32) _ (ix4 bb ch i j) = _
  rw [hr, hc]
  rfl

theorem hz : (![0, 0, 0, 0] : Fin 4 → Nat) = fun _ => 0 := funext fun a => by fin_cases a <;> rfl

/-- WHAT THE BODY LEAVES at `(bb, ch, i, j)` of the output block, from the five input blocks: the blend of the four corner
    blocks' entries there with the fractional parts of the two clipped source coordinates of pixel `(i, j)` of image `bb`. -/
theorem out5_apply (x0 x1 x2 x3 : Vec Ideal S2x3x256x256 .f32) (x4 : Vec Ideal S2x2x256x256 .f32)
    (bb : Fin 2) (ch : Fin 3) (i j : Fin 256) :
    out5 x0 x1 x2 x3 x4 (ix4 bb ch i j)
      = blend (x0 (ix4 bb ch i j)) (x1 (ix4 bb ch i j)) (x2 (ix4 bb ch i j)) (x3 (ix4 bb ch i j))
          (clip (gridf i + x4 (ix4 bb (0 : Fin 2) i j) * c256) - flo (clip (gridf i + x4 (ix4 bb (0 : Fin 2) i j) * c256)))
          (clip (gridf j + x4 (ix4 bb (1 : Fin 2) i j) * c256) - flo (clip (gridf j + x4 (ix4 bb (1 : Fin 2) i j) * c256))) := by
  unfold out5
  rw [View.canon_unit_zero hz]
  simp only [View.ld_unit_zero (S := S2x3x256x256) hz, View.ld_unit_zero (S := S2x2x256x256) hz]
  refine (stored_apply _ _ _ _ _ _ _ _ bb ch i j).trans ?_
  rw [floorRow_apply, floorCol_apply, srcRow_apply, srcCol_apply]
  unfold k0_pay2 k0_pay3 k0_pay4 k0_pay5
  simp only [shapeCast_self]

/-! ## The blocks as parts of their arrays

Every window's index map sends point `t` to block `(t, 0, 0, 0)`, and a block is two whole images: so element
`(bb, k, i, j)` of the block at point `t` is element `(2t + bb, k, i, j)` of the array. -/

/-- The grid has 32 points. -/
theorem lt_points (t : Fin cfg0.N) : t.val < 32 := lt_of_lt_of_eq t.isLt N_0

/-- Window 0 (the upper-left corners): the block index at point `t` is `(t, 0, 0, 0)`. -/
theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- Window 1 (the lower-right corners): the block index at point `t` is `(t, 0, 0, 0)`. -/
theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- Window 2 (the floor-row, ceiling-column corners): the block index at point `t` is `(t, 0, 0, 0)`. -/
theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- Window 3 (the ceiling-row, floor-column corners): the block index at point `t` is `(t, 0, 0, 0)`. -/
theorem idx_facts3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-- Window 4 (the offsets): the block index at point `t` is `(t, 0, 0, 0)`. -/
theorem idx_facts4 : ∀ t : Fin cfg0.N, win0_4.index t (0 : Fin 4) = t.val ∧ win0_4.index t (1 : Fin 4) = 0
    ∧ win0_4.index t (2 : Fin 4) = 0 ∧ win0_4.index t (3 : Fin 4) = 0 :=
  (by decide +kernel : ∀ t : Fin grid0.N, _)

/-- Window 5 (the result): the block index at point `t` is `(t, 0, 0, 0)`. -/
theorem idx_facts5 : ∀ t : Fin cfg0.N, win0_5.index t (0 : Fin 4) = t.val ∧ win0_5.index t (1 : Fin 4) = 0
    ∧ win0_5.index t (2 : Fin 4) = 0 ∧ win0_5.index t (3 : Fin 4) = 0 :=
  (by decide +kernel : ∀ t : Fin grid0.N, _)

/-- Window 0: element `(bb, k, i, j)` of the block at point `t` lies at `(2t + bb, k, i, j)` of the array. -/
theorem emb0 (t : Fin cfg0.N) (bb : Fin 2) (k : Fin 3) (i j : Fin 256) (hb : 2 * t.val + bb.val < 64) :
    ((cfg0.win 0).blk t).view.emb (ix4 bb k i j) = (ix4 ⟨2 * t.val + bb.val, hb⟩ k i j : Img.Idx) := by
  obtain ⟨e0, e1, e2, e3⟩ := idx_facts0 t
  funext a; apply Fin.ext
  match a with
  | ⟨0, _⟩ => show win0_0.index t (0 : Fin 4) * 2 + 1 * bb.val = 2 * t.val + bb.val; rw [e0]; omega
  | ⟨1, _⟩ => show win0_0.index t (1 : Fin 4) * 3 + 1 * k.val = k.val; rw [e1]; omega
  | ⟨2, _⟩ => show win0_0.index t (2 : Fin 4) * 256 + 1 * i.val = i.val; rw [e2]; omega
  | ⟨3, _⟩ => show win0_0.index t (3 : Fin 4) * 256 + 1 * j.val = j.val; rw [e3]; omega

/-- Window 1: element `(bb, k, i, j)` of the block at point `t` lies at `(2t + bb, k, i, j)` of the array. -/
theorem emb1 (t : Fin cfg0.N) (bb : Fin 2) (k : Fin 3) (i j : Fin 256) (hb : 2 * t.val + bb.val < 64) :
    ((cfg0.win 1).blk t).view.emb (ix4 bb k i j) = (ix4 ⟨2 * t.val + bb.val, hb⟩ k i j : Img.Idx) := by
  obtain ⟨e0, e1, e2, e3⟩ := idx_facts1 t
  funext a; apply Fin.ext
  match a with
  | ⟨0, _⟩ => show win0_1.index t (0 : Fin 4) * 2 + 1 * bb.val = 2 * t.val + bb.val; rw [e0]; omega
  | ⟨1, _⟩ => show win0_1.index t (1 : Fin 4) * 3 + 1 * k.val = k.val; rw [e1]; omega
  | ⟨2, _⟩ => show win0_1.index t (2 : Fin 4) * 256 + 1 * i.val = i.val; rw [e2]; omega
  | ⟨3, _⟩ => show win0_1.index t (3 : Fin 4) * 256 + 1 * j.val = j.val; rw [e3]; omega

/-- Window 2: element `(bb, k, i, j)` of the block at point `t` lies at `(2t + bb, k, i, j)` of the array. -/
theorem emb2 (t : Fin cfg0.N) (bb : Fin 2) (k : Fin 3) (i j : Fin 256) (hb : 2 * t.val + bb.val < 64) :
    ((cfg0.win 2).blk t).view.emb (ix4 bb k i j) = (ix4 ⟨2 * t.val + bb.val, hb⟩ k i j : Img.Idx) := by
  obtain ⟨e0, e1, e2, e3⟩ := idx_facts2 t
  funext a; apply Fin.ext
  match a with
  | ⟨0, _⟩ => show win0_2.index t (0 : Fin 4) * 2 + 1 * bb.val = 2 * t.val + bb.val; rw [e0]; omega
  | ⟨1, _⟩ => show win0_2.index t (1 : Fin 4) * 3 + 1 * k.val = k.val; rw [e1]; omega
  | ⟨2, _⟩ => show win0_2.index t (2 : Fin 4) * 256 + 1 * i.val = i.val; rw [e2]; omega
  | ⟨3, _⟩ => show win0_2.index t (3 : Fin 4) * 256 + 1 * j.val = j.val; rw [e3]; omega

/-- Window 3: element `(bb, k, i, j)` of the block at point `t` lies at `(2t + bb, k, i, j)` of the array. -/
theorem emb3 (t : Fin cfg0.N) (bb : Fin 2) (k : Fin 3) (i j : Fin 256) (hb : 2 * t.val + bb.val < 64) :
    ((cfg0.win 3).blk t).view.emb (ix4 bb k i j) = (ix4 ⟨2 * t.val + bb.val, hb⟩ k i j : Img.Idx) := by
  obtain ⟨e0, e1, e2, e3⟩ := idx_facts3 t
  funext a; apply Fin.ext
  match a with
  | ⟨0, _⟩ => show win0_3.index t (0 : Fin 4) * 2 + 1 * bb.val = 2 * t.val + bb.val; rw [e0]; omega
  | ⟨1, _⟩ => show win0_3.index t (1 : Fin 4) * 3 + 1 * k.val = k.val; rw [e1]; omega
  | ⟨2, _⟩ => show win0_3.index t (2 : Fin 4) * 256 + 1 * i.val = i.val; rw [e2]; omega
  | ⟨3, _⟩ => show win0_3.index t (3 : Fin 4) * 256 + 1 * j.val = j.val; rw [e3]; omega

/-- Window 4: element `(bb, k, i, j)` of the block at point `t` lies at `(2t + bb, k, i, j)` of the array. -/
theorem emb4 (t : Fin cfg0.N) (bb : Fin 2) (k : Fin 2) (i j : Fin 256) (hb : 2 * t.val + bb.val < 64) :
    ((cfg0.win 4).blk t).view.emb (ix4 bb k i j) = (ix4 ⟨2 * t.val + bb.val, hb⟩ k i j : Off.Idx) := by
  obtain ⟨e0, e1, e2, e3⟩ := idx_facts4 t
  funext a; apply Fin.ext
  match a with
  | ⟨0, _⟩ => show win0_4.index t (0 : Fin 4) * 2 + 1 * bb.val = 2 * t.val + bb.val; rw [e0]; omega
  | ⟨1, _⟩ => show win0_4.index t (1 : Fin 4) * 2 + 1 * k.val = k.val; rw [e1]; omega
  | ⟨2, _⟩ => show win0_4.index t (2 : Fin 4) * 256 + 1 * i.val = i.val; rw [e2]; omega
  | ⟨3, _⟩ => show win0_4.index t (3 : Fin 4) * 256 + 1 * j.val = j.val; rw [e3]; omega

/-- Window 5: element `(bb, k, i, j)` of the block at point `t` lies at `(2t + bb, k, i, j)` of the array. -/
theorem emb5 (t : Fin cfg0.N) (bb : Fin 2) (k : Fin 3) (i j : Fin 256) (hb : 2 * t.val + bb.val < 64) :
    ((cfg0.win 5).blk t).view.emb (ix4 bb k i j) = (ix4 ⟨2 * t.val + bb.val, hb⟩ k i j : Img.Idx) := by
  obtain ⟨e0, e1, e2, e3⟩ := idx_facts5 t
  funext a; apply Fin.ext
  match a with
  | ⟨0, _⟩ => show win0_5.index t (0 : Fin 4) * 2 + 1 * bb.val = 2 * t.val + bb.val; rw [e0]; omega
  | ⟨1, _⟩ => show win0_5.index t (1 : Fin 4) * 3 + 1 * k.val = k.val; rw [e1]; omega
  | ⟨2, _⟩ => show win0_5.index t (2 : Fin 4) * 256 + 1 * i.val = i.val; rw [e2]; omega
  | ⟨3, _⟩ => show win0_5.index t (3 : Fin 4) * 256 + 1 * j.val = j.val; rw [e3]; omega

/-- Window 0: a block's entry is the array's entry under it, whatever the array holds. -/
theorem read_blk0 (A : Img.Idx → EReal) (t : Fin cfg0.N) (bb : Fin 2) (k : Fin 3) (i j : Fin 256) (hb : 2 * t.val + bb.val < 64) :
    ((cfg0.win 0).blk t).view.read (Elt Ideal) A (ix4 bb k i j) = A (ix4 ⟨2 * t.val + bb.val, hb⟩ k i j) :=
  congrArg A (emb0 t bb k i j hb)

/-- Window 1: a block's entry is the array's entry under it, whatever the array holds. -/
theorem read_blk1 (A : Img.Idx → EReal) (t : Fin cfg0.N) (bb : Fin 2) (k : Fin 3) (i j : Fin 256) (hb : 2 * t.val + bb.val < 64) :
    ((cfg0.win 1).blk t).view.read (Elt Ideal) A (ix4 bb k i j) = A (ix4 ⟨2 * t.val + bb.val, hb⟩ k i j) :=
  congrArg A (emb1 t bb k i j hb)

/-- Window 2: a block's entry is the array's entry under it, whatever the array holds. -/
theorem read_blk2 (A : Img.Idx → EReal) (t : Fin cfg0.N) (bb : Fin 2) (k : Fin 3) (i j : Fin 256) (hb : 2 * t.val + bb.val < 64) :
    ((cfg0.win 2).blk t).view.read (Elt Ideal) A (ix4 bb k i j) = A (ix4 ⟨2 * t.val + bb.val, hb⟩ k i j) :=
  congrArg A (emb2 t bb k i j hb)

/-- Window 3: a block's entry is the array's entry under it, whatever the array holds. -/
theorem read_blk3 (A : Img.Idx → EReal) (t : Fin cfg0.N) (bb : Fin 2) (k : Fin 3) (i j : Fin 256) (hb : 2 * t.val + bb.val < 64) :
    ((cfg0.win 3).blk t).view.read (Elt Ideal) A (ix4 bb k i j) = A (ix4 ⟨2 * t.val + bb.val, hb⟩ k i j) :=
  congrArg A (emb3 t bb k i j hb)

/-- Window 4: a block's entry is the array's entry under it, whatever the array holds. -/
theorem read_blk4 (A : Off.Idx → EReal) (t : Fin cfg0.N) (bb : Fin 2) (k : Fin 2) (i j : Fin 256) (hb : 2 * t.val + bb.val < 64) :
    ((cfg0.win 4).blk t).view.read (Elt Ideal) A (ix4 bb k i j) = A (ix4 ⟨2 * t.val + bb.val, hb⟩ k i j) :=
  congrArg A (emb4 t bb k i j hb)

/-! ## What a point writes back, the cover, the array after the run -/

/-- At one index of the output block, for any five arrays: the body's result on their blocks at point `t` is the blend of the
    five arrays at the array index under it. -/
theorem blockBlend_apply (A0 A1 A2 A3 : Img.Idx → EReal) (A4 : Off.Idx → EReal) (t : Fin cfg0.N) (y : S2x3x256x256.Idx) :
    out5 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) y
      = blendArr A0 A1 A2 A3 A4 (((cfg0.win 5).blk t).view.emb y) := by
  obtain ⟨bb, ch, i, j, rfl⟩ : ∃ (bb : Fin 2) (ch : Fin 3) (i j : Fin 256), y = ix4 bb ch i j := ⟨y 0, y 1, y 2, y 3, eq_ix4 y⟩
  have ht := lt_points t
  have hb : 2 * t.val + bb.val < 64 := by omega
  refine (out5_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) bb ch i j).trans ?_
  rw [read_blk0 A0 t bb ch i j hb, read_blk1 A1 t bb ch i j hb, read_blk2 A2 t bb ch i j hb, read_blk3 A3 t bb ch i j hb,
    read_blk4 A4 t bb (0 : Fin 2) i j hb, read_blk4 A4 t bb (1 : Fin 2) i j hb, emb5 t bb ch i j hb, blendArr_ix4]
  rfl

/-- A window block's entry is the array's entry under it (whatever the array). -/
theorem read_blk5 (G : Img.Idx → EReal) (t : Fin cfg0.N) (y : S2x3x256x256.Idx) :
    ((cfg0.win 5).blk t).view.read (Elt Ideal) G y = G (((cfg0.win 5).blk t).view.emb y) := rfl

/-- WHAT POINT `t` WRITES BACK is block `t` of the blend of the five arrays as the region finds them. -/
theorem flushed_eq (c : Dev nD) (t : Fin cfg0.N) :
    (dats m 0 c).flushed 5 t = ((cfg0.win 5).blk t).view.read (Elt Ideal)
      (blendArr (V m c main_v53) (V m c main_v56) (V m c main_v59) (V m c main_v62) (V m c main_arg1)) := by
  show (cfg0.win 5).cut (grid0.coords t) ((dats m 0 c).after 5 t) = _
  rw [after_5]
  funext y
  exact (blockBlend_apply (V m c main_v53) (V m c main_v56) (V m c main_v59) (V m c main_v62) (V m c main_arg1) t y).trans
    (read_blk5 (blendArr (V m c main_v53) (V m c main_v56) (V m c main_v59) (V m c main_v62) (V m c main_arg1)) t y).symm

/-- Image `b` of the result lies in the block of point `b / 2`: the blocks cover the array. -/
theorem cover (i : Img.Idx) : ∃ t : Fin cfg0.N, (cfg0.win 5).flush t = true ∧ i ∈ ((cfg0.win 5).blk t).view.set := by
  have h0 : (i 0).val < 64 := (i 0).isLt
  have h1 : (i 1).val < 3 := (i 1).isLt
  have h2 : (i 2).val < 256 := (i 2).isLt
  have h3 : (i 3).val < 256 := (i 3).isLt
  have hN : grid0.N = 32 := N_0
  have hlt : (i 0).val / 2 < cfg0.N := by show (i 0).val / 2 < grid0.N; omega
  obtain ⟨t, et⟩ : ∃ t : Fin cfg0.N, t.val = (i 0).val / 2 := ⟨⟨(i 0).val / 2, hlt⟩, rfl⟩
  obtain ⟨e0, e1, e2, e3⟩ := idx_facts5 t
  refine ⟨t, flush0_5 t, ?_⟩
  show i ∈ ((View.whole main_v63).slice (win0_5.rect t)).set
  rw [View.set_slice_whole, Rect.mem_set_unit]
  intro a
  match a with
  | ⟨0, _⟩ => show win0_5.index t (0 : Fin 4) * 2 ≤ (i 0).val ∧ (i 0).val < win0_5.index t (0 : Fin 4) * 2 + 2; rw [e0]; omega
  | ⟨1, _⟩ => show win0_5.index t (1 : Fin 4) * 3 ≤ (i 1).val ∧ (i 1).val < win0_5.index t (1 : Fin 4) * 3 + 3; rw [e1]; omega
  | ⟨2, _⟩ => show win0_5.index t (2 : Fin 4) * 256 ≤ (i 2).val ∧ (i 2).val < win0_5.index t (2 : Fin 4) * 256 + 256; rw [e2]; omega
  | ⟨3, _⟩ => show win0_5.index t (3 : Fin 4) * 256 ≤ (i 3).val ∧ (i 3).val < win0_5.index t (3 : Fin 4) * 256 + 256; rw [e3]; omega

/-- THE RESULT ARRAY after the run: the blend of the four corner arrays and the offsets, pixel by pixel. -/
theorem final (c : Dev nD) : (dats m 0 c).arrAt 5 cfg0.N
    = blendArr (V m c main_v53) (V m c main_v56) (V m c main_v59) (V m c main_v62) (V m c main_arg1) :=
  (dats m 0 c).arrAt_eq_of_cover 5
    (blendArr (V m c main_v53) (V m c main_v56) (V m c main_v59) (V m c main_v62) (V m c main_arg1))
    (fun t _ => flushed_eq m c t) cover

/-! ## The run -/

/-- The run of @main at the ideal instance with the result array named: the blend of the four corner arrays and the
    offsets as the region found them; the arguments unchanged. -/
theorem run_blend : θ_run defs (onTc (τ := τ) (main (F := Ideal))) ⟨m, fun _ => 0, ρ⟩ (fun r => ∀ c : Dev nD,
      (r.2.mem ((c.tc : Thread nD τ).loc main_v63) : Img.Idx → EReal)
        = blendArr (V m c main_v53) (V m c main_v56) (V m c main_v59) (V m c main_v62) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).1 5).trans (final m c),
        ((h c).2 main_arg0 (Pipeline.mem_restRefs_of main_arg0 (by decide) (by decide))).trans (V_main_arg0 m c),
        ((h c).1 4).trans (((dats m 0 c).arrAt_in 4 rfl _).trans ((A_eq m c 4).trans (V_main_arg1 m c)))⟩)
    (run_main m ρ)

end Cert.KernelIdeal.Blend

end
-- ==== Proof.HostLayout.lean ====
/-
  Three shape operations of the kernel program's host chain, read at an index.

  The flat corner indices are four arrays `[64, 65536]` joined along the second axis into `[64, 262144]`: piece `q`
  occupies columns `q · 65536 … q · 65536 + 65535`. The gather reads, for batch `b`, channel `ch` and position `n`, the
  operand `[64, 3, 65536]` at `(b, ch, s)` with `s` the start index word at `(b, ch, n, 0)` read signed and clamped into the
  axis. The in-range mask is reduced with `and` over an axis of extent one, so it is the mask's one element.
-/
import proofs.«405025_j5866925326584_3_alg».proof.Proof.Gen.KernelIdeal
import Idealize.ShloMosaic.Lib.ValueIdx
import Idealize.ShloMosaic.Lib.Pipeline.Value
import Idealize.ShloMosaic.PureOps.Reduce
import Mathlib.Data.Finset.Fold
import Mathlib.Data.Finset.BooleanAlgebra

set_option maxRecDepth 16384

noncomputable section

namespace Cert.KernelIdeal.HostLayout

open Cert.KernelIdeal Cert.KernelIdeal.Gen
open Idealize.ShloMosaic Idealize.ShloMosaic.ValueIdx

variable {α : Type}

-- The gather's dimension numbers: the image and channel axes are batching axes of the operand `[64, 3, 65536]`, paired
-- with the first two axes of the start indices `[64, 3, 262144, 1]`; the flat pixel axis is collapsed and is the one axis
-- the start index (of one component, on the last axis of the start indices) addresses; there are no offset axes.
local notation "GD" => gather_S64x3x65536_S64x3x262144x1_S64x3x262144_n_2_01_01_2_3_111

/-- The gather along the flat pixel axis, batched over image and channel: element `(b, ch, n)` of the result is the operand
    at `(b, ch, s)`, `s` the start index at `(b, ch, n, 0)` read signed and clamped into `[0, 65535]`.

    The operand index is, axis by axis, the clamped start plus the batching coordinate plus the offset coordinate. On the two
    batching axes the start and the offset are zero and the batching coordinate is the result's own coordinate `b`, `ch`; on
    the collapsed pixel axis the batching and offset coordinates are zero and the start is the start-index word, read at the
    result's batch coordinates with component `0` on the index vector's axis, clamped to `65536 - 1`. -/
theorem gather_flat_apply (x : S64x3x65536.Idx → α) (i5 : IVec S64x3x262144x1 32) (b : Fin 64) (ch : Fin 3) (n : Fin 262144) :
    Host.gather gather_S64x3x65536_S64x3x262144x1_S64x3x262144_n_2_01_01_2_3_111 x i5 (ix3 b ch n)
      = x (ix3 b ch ⟨min (i5 (ix4 b ch n (0 : Fin 1))).toInt.toNat 65535, by omega⟩) := by
  unfold Host.gather
  congr 1
  funext a
  refine Fin.ext ?_
  match a with
  | ⟨0, _⟩ =>
    -- the image axis: a batching axis, so only the batching coordinate is not zero, and it is `b`
    show GatherDims.start GD (ix3 b ch n) i5 0 + GatherDims.batchCoord GD (ix3 b ch n) 0
      + GatherDims.offCoord GD (ix3 b ch n) 0 = b.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    -- the channel axis: the same, with `ch`
    show GatherDims.start GD (ix3 b ch n) i5 1 + GatherDims.batchCoord GD (ix3 b ch n) 1
      + GatherDims.offCoord GD (ix3 b ch n) 1 = ch.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    -- the flat pixel axis: collapsed and not batching, so only the clamped start is not zero
    show GatherDims.start GD (ix3 b ch n) i5 2 + GatherDims.batchCoord GD (ix3 b ch n) 2
      + GatherDims.offCoord GD (ix3 b ch n) 2 = min (i5 (ix4 b ch n (0 : Fin 1))).toInt.toNat 65535
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 3) ∈ (GatherDims.startIndexMap GD) from by decide)]
    -- the start index's one component is read at `(b, ch, n, 0)`
    have hsi : GatherDims.siIdx GD (ix3 b ch n) ⟨List.idxOf (2 : Fin 3) (GatherDims.startIndexMap GD),
        List.idxOf_lt_length_iff.2 (by decide)⟩ = ix4 b ch n (0 : Fin 1) := by
      funext c; refine Fin.ext ?_
      match c with
      | ⟨0, _⟩ => rfl
      | ⟨1, _⟩ => rfl
      | ⟨2, _⟩ => rfl
      | ⟨3, _⟩ => rfl
    rw [hsi]
    rfl

/-- A fold of a commutative and associative operation over the one coordinate of an axis of extent one is one application of
    the operation: the element at coordinate `0` combined with the initial value. -/
theorem fold_univ_of_eq_one {β : Type} (op : β → β → β) [Std.Commutative op] [Std.Associative op] (init : β)
    {m : Nat} (hm : m = 1) (g : Fin m → β) :
    (Finset.univ : Finset (Fin m)).fold op init g = op (g ⟨0, by omega⟩) init := by
  subst hm
  rw [Finset.univ_unique, Finset.fold_singleton]
  rfl

/-- An `and`-reduction over the last axis, of extent one, from the initial value `true`, is the operand's one element.

    A reduction over one axis folds, from the initial value, over that axis's coordinates; here there is the one coordinate
    `0`, the operand index over `(b, ch, n)` with `0` inserted on the last axis is `(b, ch, n, 0)`, and `v and true = v`
    on one-bit words. -/
theorem reduce_and_unit (p : IVec S64x3x262144x1 1) (b : Fin 64) (ch : Fin 3) (n : Fin 262144) :
    Host.reduce IntOp.andi p (constantI S_ 1 1#1) reducesTo_S64x3x262144x1_S64x3x262144_d3 h_S_ (ix3 b ch n)
      = p (ix4 b ch n (0 : Fin 1)) := by
  have h : S64x3x262144x1.Reduces [3] S64x3x262144 := by decide
  refine (Host.reduce_eq_fold_single IntOp.andi p (constantI S_ 1 1#1) reducesTo_S64x3x262144x1_S64x3x262144_d3 h h_S_
    (ix3 b ch n)).trans ?_
  have hl : h.lift (ix3 b ch n) (0 : Fin 1) = ix4 b ch n (0 : Fin 1) := by
    funext c
    refine Fin.ext ?_
    match c with
    | ⟨0, _⟩ => rfl
    | ⟨1, _⟩ => rfl
    | ⟨2, _⟩ => rfl
    | ⟨3, _⟩ => rfl
  have hand : ∀ v : BitVec 1, IntOp.andi v 1#1 = v := by decide
  refine (fold_univ_of_eq_one IntOp.andi _ rfl _).trans ?_
  show IntOp.andi (p (h.lift (ix3 b ch n) (0 : Fin 1))) 1#1 = _
  rw [hl, hand]

/-- Piece `q` of the four-piece join along the second axis, at its own column `n`.

    The four pieces have one shape and extent `65536` along the joined axis, so column `c` of the join lies in piece
    `c / 65536` at column `c % 65536`; for `c = q · 65536 + n` with `n < 65536` these are `q` and `n`. The other
    coordinate, the image `b`, is kept. -/
theorem concat4_apply (u0 u1 u2 u3 : S64x65536.Idx → α) (b : Fin 64) (q : Fin 4) (n : Fin 65536) :
    concatenate S64x262144 1 [⟨S64x65536, u0⟩, ⟨S64x65536, u1⟩, ⟨S64x65536, u2⟩, ⟨S64x65536, u3⟩]
        concatenates_S64x65536_S64x65536_S64x65536_S64x65536_S64x262144_d1 (ix2 b ⟨q.val * 65536 + n.val, by omega⟩)
      = (match q with | 0 => u0 | 1 => u1 | 2 => u2 | 3 => u3) (ix2 b n) := by
  -- off the joined axis the piece's index and the join's index have the same coordinate
  have hi : ∀ (hr : S64x65536.rank = S64x262144.rank) (c : Nat) (hc : c < 262144) (b' : Fin S64x65536.rank),
      b'.cast hr ≠ (1 : Fin S64x262144.rank) →
      ((ix2 b n : S64x65536.Idx) b').val = ((ix2 b (⟨c, hc⟩ : Fin 262144) : S64x262144.Idx) (b'.cast hr)).val := by
    intro hr c hc b' hb'
    match b', hb' with
    | ⟨0, _⟩, _ => rfl
    | ⟨1, _⟩, hb' => exact absurd rfl hb'
  -- the list of the four pieces is the list of piece `k` for `k = 0, 1, 2, 3`
  exact concatenate_ofFn_apply (t := S64x262144) (s₁ := S64x65536) (1 : Fin S64x262144.rank)
    (fun q : Fin 4 => match q with | 0 => u0 | 1 => u1 | 2 => u2 | 3 => u3)
    concatenates_S64x65536_S64x65536_S64x65536_S64x65536_S64x262144_d1 rfl 65536 rfl _ q
    (by show (q.val * 65536 + n.val) / 65536 = q.val; omega) (ix2 b n)
    (by show n.val = (q.val * 65536 + n.val) % 65536; omega) (hi rfl _ _)

end Cert.KernelIdeal.HostLayout

end
-- ==== Proof.HostCoords.lean ====
/-
  The first four stretches of the kernel program's host operations, over any contents of the buffers they start from:
  they leave the clipped source row of every pixel in one array `[64, 1, 256, 256]` and the clipped source column in
  another, and touch neither argument.

  The row number of pixel `(i, j)` is an iota along the first axis of a `[256, 256]` grid, the column number an iota along
  the second, each converted to a float; the offsets' two channels are sliced out and multiplied by `256`; the sum is
  clipped by a maximum with `0` and a minimum with `255`.
-/
import proofs.«405025_j5866925326584_3_alg».proof.Proof.Gen.KernelIdeal.Launch
import proofs.«405025_j5866925326584_3_alg».proof.Proof.Warp
import Idealize.ShloMosaic.Lib.ValueIdx
import Idealize.ShloMosaic.Lib.ValueLayout
import Idealize.ShloMosaic.Lib.IdealHost
import Idealize.ShloMosaic.Lib.Pipeline.Value
import Idealize.ShloMosaic.Lib.Pipeline.Frame
import Idealize.ShloMosaic.Lib.StableHlo.Run

set_option maxRecDepth 16384

noncomputable section

namespace Cert.KernelIdeal.HostCoords

open Cert.KernelIdeal Cert.KernelIdeal.Gen Cert.Warp
open Idealize.ShloMosaic Idealize.ShloMosaic.TcCoe Idealize.ShloMosaic.ValueIdx Idealize.SL.Sem

/-- The buffers after the first four stretches, from contents `W`. -/
abbrev after03 (W : Valuation τ sig (Elt Ideal)) : Valuation τ sig (Elt Ideal) :=
  StableHlo.after (hostOps0_3 (F := Ideal)) (StableHlo.after (hostOps0_2 (F := Ideal))
    (StableHlo.after (hostOps0_1 (F := Ideal)) (StableHlo.after (hostOps0 (F := Ideal)) W)))

/-! ## What the stretches compute, named -/

/-- The source row before clipping: the row number as a float plus the first offset channel times `256`. -/
def rowPre (off : Off.Idx → EReal) (b : Fin 64) (i j : Fin 256) : EReal := gridf i + off (ix4 b (0 : Fin 2) i j) * c256
/-- The second offset channel times `256`: what is added to the column number. -/
def colScaled (off : Off.Idx → EReal) (b : Fin 64) (i j : Fin 256) : EReal := off (ix4 b (1 : Fin 2) i j) * c256

/-- A grid of integer words converted to floats and added to an array `[64, 1, 256, 256]`, at `(b, 0, i, j)`. -/
def addGrid (g : S256x256.Idx → BitVec 32) (m : S64x1x256x256.Idx → EReal) (b : Fin 64) (i j : Fin 256) : EReal :=
  (((g (ix2 i j)).toInt : ℝ) : EReal) + m (ix4 b (0 : Fin 1) i j)

/-- The clip with its two bounds read from scalar arrays: the maximum with the lower bound, then the minimum with the
    upper one. -/
def clipAt (lo hi : S_.Idx → EReal) (x : S64x1x256x256.Idx → EReal) (b : Fin 64) (i j : Fin 256) : EReal :=
  min (hi ix0) (max (lo ix0) (x (ix4 b (0 : Fin 1) i j)))

/-- A buffer that no operation of a stretch writes keeps its contents: the buffer differs from every result buffer. -/
macro "keep_buffer" : tactic => `(tactic| (
  refine StableHlo.after_of_forall_not_mem _ _ (List.forall_iff_forall_mem.mp ?_)
  simp only [hostOps0, hostOps0_1, hostOps0_2, hostOps0_3, List.Forall, StableHlo.nullary_writes, StableHlo.unary_writes,
    StableHlo.binary_writes, Finset.mem_singleton]
  repeat' apply And.intro
  all_goals exact StableHlo.devRef_ne_of_ne (by decide)))

/-! ## The first stretch: the grids, the scaled offsets, the unclipped row, the two bounds -/

section Stretch0
variable (V : Valuation τ sig (Elt Ideal))

set_option maxHeartbeats 4000000 in
/-- The unclipped source row: the row number as a float plus the first offset channel times `256`. -/
theorem s0_v14 (b : Fin 64) (i j : Fin 256) :
    (StableHlo.after (hostOps0 (F := Ideal)) V (Proc.devRef .tc main_v14) : S64x1x256x256.Idx → EReal) (ix4 b (0 : Fin 1) i j)
      = rowPre (V (Proc.devRef .tc main_arg1)) b i j := by
  simp only [hostOps0]
  after_results
  refine (addf_apply _ _ _).trans ?_
  unfold rowPre
  refine congrArg₂ (· + ·) ?_ ?_
  · refine (broadcastInDim_apply _ _ _ (ix4 b (0 : Fin 1) i j) (ix4 (0 : Fin 1) (0 : Fin 1) i j) ?_).trans ?_
    · intro a; fin_cases a <;> rfl
    refine (sitofp_apply _ _).trans ?_
    show FloatOps.sitofp (F := Ideal) .f32 _ = FloatOps.sitofp (F := Ideal) .f32 (BitVec.ofNat 32 i.val)
    refine congrArg _ ?_
    refine (broadcastInDim_apply _ _ _ (ix4 (0 : Fin 1) (0 : Fin 1) i j) (ix2 i j) ?_).trans ?_
    · intro a; fin_cases a <;> rfl
    refine (broadcastInDim_apply _ _ _ (ix2 i j) (ix2 i (0 : Fin 1)) ?_).trans ?_
    · intro a; fin_cases a <;> rfl
    refine (broadcastInDim_apply _ _ _ (ix2 i (0 : Fin 1)) (ix1 i) ?_).trans ?_
    · intro a; fin_cases a <;> rfl
    rfl
  · refine (mulf_apply _ _ _).trans ?_
    refine congrArg₂ (· * ·) ?_ ?_
    · exact extractStridedSlice_apply _ _ _ (ix4 b (0 : Fin 1) i j) (ix4 b (0 : Fin 2) i j)
        (by intro a; fin_cases a <;> exact (Nat.zero_add _).symm)
    · exact broadcastInDim_scalar_apply _ _ _

set_option maxHeartbeats 4000000 in
/-- The second offset channel times `256`. -/
theorem s0_v10 (b : Fin 64) (i j : Fin 256) :
    (StableHlo.after (hostOps0 (F := Ideal)) V (Proc.devRef .tc main_v10) : S64x1x256x256.Idx → EReal) (ix4 b (0 : Fin 1) i j)
      = colScaled (V (Proc.devRef .tc main_arg1)) b i j := by
  simp only [hostOps0]
  after_results
  refine (mulf_apply _ _ _).trans ?_
  unfold colScaled
  refine congrArg₂ (· * ·) ?_ ?_
  · exact extractStridedSlice_apply _ _ _ (ix4 b (0 : Fin 1) i j) (ix4 b (1 : Fin 2) i j)
      (by intro a; fin_cases a <;> first | rfl | exact (Nat.zero_add _).symm)
  · exact broadcastInDim_scalar_apply _ _ _

set_option maxHeartbeats 4000000 in
/-- The grid of column numbers: the iota along the second axis. -/
theorem s0_v4 (i j : Fin 256) :
    (StableHlo.after (hostOps0 (F := Ideal)) V (Proc.devRef .tc main_v4) : S256x256.Idx → BitVec 32) (ix2 i j)
      = BitVec.ofNat 32 j.val := by
  simp only [hostOps0]
  after_results
  refine (broadcastInDim_apply _ _ _ (ix2 i j) (ix2 (0 : Fin 1) j) ?_).trans ?_
  · intro a; fin_cases a <;> rfl
  refine (broadcastInDim_apply _ _ _ (ix2 (0 : Fin 1) j) (ix1 j) ?_).trans ?_
  · intro a; fin_cases a <;> rfl
  rfl

set_option maxHeartbeats 4000000 in
/-- The two bounds `0.0` and `255.0`. -/
theorem s0_cst1 : (StableHlo.after (hostOps0 (F := Ideal)) V (Proc.devRef .tc main_cst_1) : S_.Idx → EReal) ix0 = c0 := by
  simp only [hostOps0]
  after_results
  rfl
set_option maxHeartbeats 4000000 in
theorem s0_cst2 : (StableHlo.after (hostOps0 (F := Ideal)) V (Proc.devRef .tc main_cst_2) : S_.Idx → EReal) ix0 = c255 := by
  simp only [hostOps0]
  after_results
  rfl

theorem k0_arg0 : StableHlo.after (hostOps0 (F := Ideal)) V (Proc.devRef .tc main_arg0) = V (Proc.devRef .tc main_arg0) := by
  keep_buffer
theorem k0_arg1 : StableHlo.after (hostOps0 (F := Ideal)) V (Proc.devRef .tc main_arg1) = V (Proc.devRef .tc main_arg1) := by
  keep_buffer

end Stretch0

/-! ## The second stretch: the row clipped -/

section Stretch1
variable (V : Valuation τ sig (Elt Ideal))

set_option maxHeartbeats 4000000 in
theorem s1_v15 (b : Fin 64) (i j : Fin 256) :
    (StableHlo.after (hostOps0_1 (F := Ideal)) V (Proc.devRef .tc main_v15) : S64x1x256x256.Idx → EReal) (ix4 b (0 : Fin 1) i j)
      = clipAt (V (Proc.devRef .tc main_cst_1)) (V (Proc.devRef .tc main_cst_2)) (V (Proc.devRef .tc main_v14)) b i j := by
  simp only [hostOps0_1]
  after_results
  simp only [StableHlo.TRef.ofBuf, StableHlo.TRef.toBuf, cast_eq, id_eq]
  refine (minimumf_apply _ _ _).trans ?_
  unfold clipAt
  refine congrArg₂ min ?_ ?_
  · exact broadcastInDim_scalar_apply _ _ _
  · refine (maximumf_apply _ _ _).trans ?_
    refine congrArg₂ max ?_ rfl
    exact broadcastInDim_scalar_apply _ _ _

theorem k1_v4 : StableHlo.after (hostOps0_1 (F := Ideal)) V (Proc.devRef .tc main_v4) = V (Proc.devRef .tc main_v4) := by
  keep_buffer
theorem k1_v10 : StableHlo.after (hostOps0_1 (F := Ideal)) V (Proc.devRef .tc main_v10) = V (Proc.devRef .tc main_v10) := by
  keep_buffer
theorem k1_arg0 : StableHlo.after (hostOps0_1 (F := Ideal)) V (Proc.devRef .tc main_arg0) = V (Proc.devRef .tc main_arg0) := by
  keep_buffer
theorem k1_arg1 : StableHlo.after (hostOps0_1 (F := Ideal)) V (Proc.devRef .tc main_arg1) = V (Proc.devRef .tc main_arg1) := by
  keep_buffer

end Stretch1

/-! ## The third stretch: the unclipped column, the two bounds again -/

section Stretch2
variable (V : Valuation τ sig (Elt Ideal))

set_option maxHeartbeats 4000000 in
/-- The unclipped source column, from the grid of column numbers and the scaled second offset channel. -/
theorem s2_v19 (b : Fin 64) (i j : Fin 256) :
    (StableHlo.after (hostOps0_2 (F := Ideal)) V (Proc.devRef .tc main_v19) : S64x1x256x256.Idx → EReal) (ix4 b (0 : Fin 1) i j)
      = addGrid (V (Proc.devRef .tc main_v4)) (V (Proc.devRef .tc main_v10)) b i j := by
  simp only [hostOps0_2]
  after_results
  refine (addf_apply _ _ _).trans ?_
  unfold addGrid
  refine congrArg₂ (· + ·) ?_ rfl
  refine (broadcastInDim_apply _ _ _ (ix4 b (0 : Fin 1) i j) (ix4 (0 : Fin 1) (0 : Fin 1) i j) ?_).trans ?_
  · intro a; fin_cases a <;> rfl
  refine (sitofp_apply _ _).trans ?_
  show FloatOps.sitofp (F := Ideal) .f32 _ = FloatOps.sitofp (F := Ideal) .f32 _
  refine congrArg _ ?_
  exact broadcastInDim_apply _ _ _ (ix4 (0 : Fin 1) (0 : Fin 1) i j) (ix2 i j) (by intro a; fin_cases a <;> rfl)

set_option maxHeartbeats 4000000 in
theorem s2_cst3 : (StableHlo.after (hostOps0_2 (F := Ideal)) V (Proc.devRef .tc main_cst_3) : S_.Idx → EReal) ix0 = c0 := by
  simp only [hostOps0_2]
  after_results
  rfl
set_option maxHeartbeats 4000000 in
theorem s2_cst4 : (StableHlo.after (hostOps0_2 (F := Ideal)) V (Proc.devRef .tc main_cst_4) : S_.Idx → EReal) ix0 = c255 := by
  simp only [hostOps0_2]
  after_results
  rfl

theorem k2_v15 : StableHlo.after (hostOps0_2 (F := Ideal)) V (Proc.devRef .tc main_v15) = V (Proc.devRef .tc main_v15) := by
  keep_buffer
theorem k2_arg0 : StableHlo.after (hostOps0_2 (F := Ideal)) V (Proc.devRef .tc main_arg0) = V (Proc.devRef .tc main_arg0) := by
  keep_buffer
theorem k2_arg1 : StableHlo.after (hostOps0_2 (F := Ideal)) V (Proc.devRef .tc main_arg1) = V (Proc.devRef .tc main_arg1) := by
  keep_buffer

end Stretch2

/-! ## The fourth stretch: the column clipped -/

section Stretch3
variable (V : Valuation τ sig (Elt Ideal))

set_option maxHeartbeats 4000000 in
theorem s3_v20 (b : Fin 64) (i j : Fin 256) :
    (StableHlo.after (hostOps0_3 (F := Ideal)) V (Proc.devRef .tc main_v20) : S64x1x256x256.Idx → EReal) (ix4 b (0 : Fin 1) i j)
      = clipAt (V (Proc.devRef .tc main_cst_3)) (V (Proc.devRef .tc main_cst_4)) (V (Proc.devRef .tc main_v19)) b i j := by
  simp only [hostOps0_3]
  after_results
  simp only [StableHlo.TRef.ofBuf, StableHlo.TRef.toBuf, cast_eq, id_eq]
  refine (minimumf_apply _ _ _).trans ?_
  unfold clipAt
  refine congrArg₂ min ?_ ?_
  · exact broadcastInDim_scalar_apply _ _ _
  · refine (maximumf_apply _ _ _).trans ?_
    refine congrArg₂ max ?_ rfl
    exact broadcastInDim_scalar_apply _ _ _

theorem k3_v15 : StableHlo.after (hostOps0_3 (F := Ideal)) V (Proc.devRef .tc main_v15) = V (Proc.devRef .tc main_v15) := by
  keep_buffer
theorem k3_arg0 : StableHlo.after (hostOps0_3 (F := Ideal)) V (Proc.devRef .tc main_arg0) = V (Proc.devRef .tc main_arg0) := by
  keep_buffer
theorem k3_arg1 : StableHlo.after (hostOps0_3 (F := Ideal)) V (Proc.devRef .tc main_arg1) = V (Proc.devRef .tc main_arg1) := by
  keep_buffer

end Stretch3

/-! ## The four stretches chained -/

/-- The clipped source row. -/
theorem row_coord (W : Valuation τ sig (Elt Ideal)) (b : Fin 64) (i j : Fin 256) :
    (after03 W (Proc.devRef .tc main_v15) : S64x1x256x256.Idx → EReal) (ix4 b (0 : Fin 1) i j)
      = srow (W (Proc.devRef .tc main_arg1)) b i j := by
  unfold after03
  rw [k3_v15, k2_v15]
  refine (s1_v15 _ b i j).trans ?_
  unfold clipAt
  rw [s0_cst1, s0_cst2, s0_v14]
  rfl
/-- The clipped source column. -/
theorem col_coord (W : Valuation τ sig (Elt Ideal)) (b : Fin 64) (i j : Fin 256) :
    (after03 W (Proc.devRef .tc main_v20) : S64x1x256x256.Idx → EReal) (ix4 b (0 : Fin 1) i j)
      = scol (W (Proc.devRef .tc main_arg1)) b i j := by
  unfold after03
  refine (s3_v20 _ b i j).trans ?_
  unfold clipAt
  rw [s2_cst3, s2_cst4, s2_v19]
  unfold addGrid
  rw [k1_v4, k1_v10, s0_v4, s0_v10]
  rfl
/-- Neither argument is written. -/
theorem keep_arg0 (W : Valuation τ sig (Elt Ideal)) : after03 W (Proc.devRef .tc main_arg0) = W (Proc.devRef .tc main_arg0) := by
  unfold after03
  rw [k3_arg0, k2_arg0, k1_arg0, k0_arg0]
theorem keep_arg1 (W : Valuation τ sig (Elt Ideal)) : after03 W (Proc.devRef .tc main_arg1) = W (Proc.devRef .tc main_arg1) := by
  unfold after03
  rw [k3_arg1, k2_arg1, k1_arg1, k0_arg1]

end Cert.KernelIdeal.HostCoords

end
-- ==== Proof.HostIndex.lean ====
/-
  The fifth stretch of the kernel program's host operations, over any contents of the buffers it starts from: from the
  clipped source row and column arrays it makes the start indices of the one gather, `[64, 3, 262144]`, and the image with
  its pixels on one flat axis, `[64, 3, 65536]`.

  The floor and the ceiling of each coordinate become integer words; the four flat indices `row · 256 + col` (floor/floor,
  ceiling/ceiling, floor/ceiling, ceiling/floor) are reshaped to `[64, 65536]`, joined along the second axis in that order
  and broadcast over the three channels: position `q · 65536 + i · 256 + j` holds corner `q`'s flat index of pixel `(i, j)`.
-/
import proofs.«405025_j5866925326584_3_alg».proof.Proof.Gen.KernelIdeal.Launch
import proofs.«405025_j5866925326584_3_alg».proof.Proof.Warp
import proofs.«405025_j5866925326584_3_alg».proof.Proof.HostLayout
import Idealize.ShloMosaic.Lib.ValueIdx
import Idealize.ShloMosaic.Lib.ValueLayout
import Idealize.ShloMosaic.Lib.Pipeline.Value
import Idealize.ShloMosaic.Lib.Pipeline.Frame
import Idealize.ShloMosaic.Lib.StableHlo.Run

set_option maxRecDepth 16384

noncomputable section

namespace Cert.KernelIdeal.HostIndex

open Cert.KernelIdeal Cert.KernelIdeal.Gen Cert.Warp
open Idealize.ShloMosaic Idealize.ShloMosaic.TcCoe Idealize.ShloMosaic.ValueIdx Idealize.SL.Sem

/-- Position `q · 65536 + i · 256 + j` of the joined flat axis. -/
abbrev joined (q : Fin 4) (i j : Fin 256) : Fin 262144 := ⟨q.val * 65536 + (i.val * 256 + j.val), by omega⟩

/-- Which rounding feeds the row and the column of corner `q`: 0 floor/floor, 1 ceiling/ceiling, 2 floor/ceiling,
    3 ceiling/floor. -/
def rowRound (q : Fin 4) (s : EReal) : EReal := match q with | 0 => flo s | 1 => cei s | 2 => flo s | 3 => cei s
def colRound (q : Fin 4) (s : EReal) : EReal := match q with | 0 => flo s | 1 => cei s | 2 => cei s | 3 => flo s

/-- The operations before the join: the roundings, the words, the four flat indices and their reshapes. -/
abbrev pre : List (HloOp τ sig (Elt Ideal)) := List.take 28 (hostOps0_4 (F := Ideal))

/-- Pixel `(i, j)` of image `b` has the same row-major position in `[64, 1, 256, 256]` and, as `i · 256 + j`, in
    `[64, 65536]`. -/
theorem flat_pos (b : Fin 64) (i j : Fin 256) :
    (S64x1x256x256.rowMajor (ix4 b (0 : Fin 1) i j)).val
      = (S64x65536.rowMajor (ix2 b (⟨i.val * 256 + j.val, by omega⟩ : Fin 65536))).val := by
  rw [Shape.rowMajor_val_four, Shape.rowMajor_val_two]
  show ((b.val * 1 + 0) * 256 + i.val) * 256 + j.val = b.val * 65536 + (i.val * 256 + j.val)
  omega

set_option maxHeartbeats 4000000 in
/-- Before the join, the first piece holds the floor/floor flat index `word ⌊row⌋ · 256 + word ⌊col⌋`. -/
theorem pre_v32 (W : Valuation τ sig (Elt Ideal)) (b : Fin 64) (i j : Fin 256) :
    (StableHlo.after pre W (Proc.devRef .tc main_v32) : S64x65536.Idx → BitVec 32) (ix2 b ⟨i.val * 256 + j.val, by omega⟩)
      = word (flo ((W (Proc.devRef .tc main_v15) : S64x1x256x256.Idx → EReal) (ix4 b (0 : Fin 1) i j))) * 256#32
        + word (flo ((W (Proc.devRef .tc main_v20) : S64x1x256x256.Idx → EReal) (ix4 b (0 : Fin 1) i j))) := by
  simp only [pre, hostOps0_4, List.take_succ_cons, List.take_zero]
  after_results
  show shapeCast S64x65536 _ shapeCasts_S64x1x256x256_S64x65536 (ix2 b _) = _
  refine (shapeCast_apply _ _ _ (ix4 b (0 : Fin 1) i j) (flat_pos b i j)).trans ?_
  rfl

set_option maxHeartbeats 4000000 in
/-- The second piece holds the ceiling/ceiling flat index. -/
theorem pre_v36 (W : Valuation τ sig (Elt Ideal)) (b : Fin 64) (i j : Fin 256) :
    (StableHlo.after pre W (Proc.devRef .tc main_v36) : S64x65536.Idx → BitVec 32) (ix2 b ⟨i.val * 256 + j.val, by omega⟩)
      = word (cei ((W (Proc.devRef .tc main_v15) : S64x1x256x256.Idx → EReal) (ix4 b (0 : Fin 1) i j))) * 256#32
        + word (cei ((W (Proc.devRef .tc main_v20) : S64x1x256x256.Idx → EReal) (ix4 b (0 : Fin 1) i j))) := by
  simp only [pre, hostOps0_4, List.take_succ_cons, List.take_zero]
  after_results
  show shapeCast S64x65536 _ shapeCasts_S64x1x256x256_S64x65536 (ix2 b _) = _
  refine (shapeCast_apply _ _ _ (ix4 b (0 : Fin 1) i j) (flat_pos b i j)).trans ?_
  rfl

set_option maxHeartbeats 4000000 in
/-- The third piece holds the floor/ceiling flat index. -/
theorem pre_v40 (W : Valuation τ sig (Elt Ideal)) (b : Fin 64) (i j : Fin 256) :
    (StableHlo.after pre W (Proc.devRef .tc main_v40) : S64x65536.Idx → BitVec 32) (ix2 b ⟨i.val * 256 + j.val, by omega⟩)
      = word (flo ((W (Proc.devRef .tc main_v15) : S64x1x256x256.Idx → EReal) (ix4 b (0 : Fin 1) i j))) * 256#32
        + word (cei ((W (Proc.devRef .tc main_v20) : S64x1x256x256.Idx → EReal) (ix4 b (0 : Fin 1) i j))) := by
  simp only [pre, hostOps0_4, List.take_succ_cons, List.take_zero]
  after_results
  show shapeCast S64x65536 _ shapeCasts_S64x1x256x256_S64x65536 (ix2 b _) = _
  refine (shapeCast_apply _ _ _ (ix4 b (0 : Fin 1) i j) (flat_pos b i j)).trans ?_
  rfl

set_option maxHeartbeats 4000000 in
/-- The fourth piece holds the ceiling/floor flat index. -/
theorem pre_v44 (W : Valuation τ sig (Elt Ideal)) (b : Fin 64) (i j : Fin 256) :
    (StableHlo.after pre W (Proc.devRef .tc main_v44) : S64x65536.Idx → BitVec 32) (ix2 b ⟨i.val * 256 + j.val, by omega⟩)
      = word (cei ((W (Proc.devRef .tc main_v15) : S64x1x256x256.Idx → EReal) (ix4 b (0 : Fin 1) i j))) * 256#32
        + word (flo ((W (Proc.devRef .tc main_v20) : S64x1x256x256.Idx → EReal) (ix4 b (0 : Fin 1) i j))) := by
  simp only [pre, hostOps0_4, List.take_succ_cons, List.take_zero]
  after_results
  show shapeCast S64x65536 _ shapeCasts_S64x1x256x256_S64x65536 (ix2 b _) = _
  refine (shapeCast_apply _ _ _ (ix4 b (0 : Fin 1) i j) (flat_pos b i j)).trans ?_
  rfl

/-- The whole stretch is the operations before the join, then the join, the two broadcasts and the image's reshape. -/
theorem after_split (W : Valuation τ sig (Elt Ideal)) :
    StableHlo.after (hostOps0_4 (F := Ideal)) W
      = StableHlo.after (List.drop 28 (hostOps0_4 (F := Ideal))) (StableHlo.after pre W) := by
  rw [← StableHlo.after_append, List.take_append_drop]

set_option maxHeartbeats 4000000 in
/-- The start index of corner `q` at pixel `(i, j)`, for every channel: `word(row) · 256 + word(col)`. -/
theorem start_index (W : Valuation τ sig (Elt Ideal)) (b : Fin 64) (ch : Fin 3) (q : Fin 4) (i j : Fin 256) :
    (StableHlo.after (hostOps0_4 (F := Ideal)) W (Proc.devRef .tc main_v47) : S64x3x262144.Idx → BitVec 32) (ix3 b ch (joined q i j))
      = word (rowRound q ((W (Proc.devRef .tc main_v15) : S64x1x256x256.Idx → EReal) (ix4 b (0 : Fin 1) i j))) * 256#32
        + word (colRound q ((W (Proc.devRef .tc main_v20) : S64x1x256x256.Idx → EReal) (ix4 b (0 : Fin 1) i j))) := by
  rw [after_split]
  generalize hV : StableHlo.after pre W = V
  simp only [hostOps0_4, List.drop_succ_cons, List.drop_zero, StableHlo.after_cons, StableHlo.after_nil]
  rw [StableHlo.reshape_result_ne]; rotate_left; decide
  rw [StableHlo.unary_result, StableHlo.unary_result, StableHlo.nary4_result]
  refine (broadcastInDim_apply _ _ _ _ (ix3 b (0 : Fin 1) (joined q i j)) ?_).trans ?_
  · intro a
    match a with
    | ⟨0, _⟩ => rfl
    | ⟨1, _⟩ => rfl
    | ⟨2, _⟩ => rfl
  refine (broadcastInDim_apply _ _ _ _ (ix2 b (joined q i j)) ?_).trans ?_
  · intro a
    match a with
    | ⟨0, _⟩ => rfl
    | ⟨1, _⟩ => rfl
  refine (HostLayout.concat4_apply _ _ _ _ b q (⟨i.val * 256 + j.val, by omega⟩ : Fin 65536)).trans ?_
  subst hV
  match q with
  | ⟨0, _⟩ => exact pre_v32 W b i j
  | ⟨1, _⟩ => exact pre_v36 W b i j
  | ⟨2, _⟩ => exact pre_v40 W b i j
  | ⟨3, _⟩ => exact pre_v44 W b i j

set_option maxHeartbeats 4000000 in
/-- The image on a flat pixel axis. -/
theorem flat_image (W : Valuation τ sig (Elt Ideal)) (b : Fin 64) (ch : Fin 3) (r c : Fin 256) :
    (StableHlo.after (hostOps0_4 (F := Ideal)) W (Proc.devRef .tc main_v48) : S64x3x65536.Idx → EReal) (ix3 b ch ⟨r.val * 256 + c.val, by omega⟩)
      = (W (Proc.devRef .tc main_arg0) : Img.Idx → EReal) (ix4 b ch r c) := by
  simp only [hostOps0_4]
  after_results
  show shapeCast S64x3x65536 (W (Proc.devRef .tc main_arg0) : S64x3x256x256.Idx → EReal)
    shapeCasts_S64x3x256x256_S64x3x65536 (ix3 b ch ⟨r.val * 256 + c.val, by omega⟩) = _
  refine shapeCast_apply _ _ _ (ix4 b ch r c) ?_
  rw [Shape.rowMajor_val_four, Shape.rowMajor_val_three]
  show ((b.val * 3 + ch.val) * 256 + r.val) * 256 + c.val = (b.val * 3 + ch.val) * 65536 + (r.val * 256 + c.val)
  omega

end Cert.KernelIdeal.HostIndex

end
-- ==== Proof.HostCorners.lean ====
/-
  The four corner arrays the kernel program's host operations hand to the region, as functions of the two arguments.

  The host computes the clipped source row and column of every pixel, their floors and ceilings as integer words, the
  four flat indices `row · 256 + col` (floor/floor, ceiling/ceiling, floor/ceiling, ceiling/floor), joins them, gathers
  the image (reshaped to a flat pixel axis) once at all of them, and slices the result back into four arrays. Every flat
  index lies in `[0, 65535]`, so the gather's in-range mask is true everywhere and the fill value is never selected; the
  flat index splits back into its row and column.

  The first five stretches (the coordinates, the start indices, the flat image) are read in two neighbour modules over any
  starting contents. Here the gather stretch and the slice stretch are each shown to compute one function of arrays
  (`takeArr`, `pickArr`), those functions are read at an index, and the seven stretches are composed: corner `q` of pixel
  `(i, j)` sits at position `q · 65536 + i · 256 + j` of the gathered array, whose start index there is the word of
  `k · 256 + l` with `k`, `l` the corner's row and column, both below `256`.
-/
import proofs.«405025_j5866925326584_3_alg».proof.Proof.KernelIdealFrame
import proofs.«405025_j5866925326584_3_alg».proof.Proof.HostLayout
import proofs.«405025_j5866925326584_3_alg».proof.Proof.HostCoords
import proofs.«405025_j5866925326584_3_alg».proof.Proof.HostIndex
import proofs.«405025_j5866925326584_3_alg».proof.Proof.Warp
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

set_option maxRecDepth 16384

noncomputable section

namespace Cert.KernelIdeal.HostCorners

open Cert.KernelIdeal Cert.KernelIdeal.Gen Cert.KernelIdeal.Fr Cert.Warp
open Idealize.ShloMosaic Idealize.ShloMosaic.TcCoe Idealize.ShloMosaic.ValueIdx Idealize.SL.Sem

/-! ## The gather and the slices as functions of arrays -/

/-- The start indices of the gather: a negative index moved up by the axis' extent, with a unit axis added. -/
def wrapIdx (idx : IVec S64x3x262144 32) : IVec S64x3x262144x1 32 :=
  shapeCast S64x3x262144x1
    (select (cmpi .slt idx (broadcastInDim S64x3x262144 ![] bcast_S_S64x3x262144 (constantI S_ 32 0#32)))
      (addi idx (broadcastInDim S64x3x262144 ![] bcast_S_S64x3x262144 (constantI S_ 32 65536#32))) idx)
    shapeCasts_S64x3x262144_S64x3x262144x1

/-- The gather's in-range mask. -/
def inRange (i5 : IVec S64x3x262144x1 32) : IVec S64x3x262144 1 :=
  Host.reduce IntOp.andi
    (andi (cmpi .sge i5 (broadcastInDim S64x3x262144x1 ![] bcast_S_S64x3x262144x1 (constantI S_ 32 0#32)))
      (cmpi .sle i5 (broadcastInDim S64x3x262144x1 ![0, 1, 2, 3] bcast_S1x1x1x1_S64x3x262144x1_0_1_2_3
        (broadcastInDim S1x1x1x1 ![3] bcast_S1_S1x1x1x1_3 (constantI S1 32 65535#32)))))
    (constantI S_ 1 1#1) reducesTo_S64x3x262144x1_S64x3x262144_d3 h_S_

/-- The flat image gathered at the indices, the fill value where an index is out of range. -/
def takeArr (x : FVec Ideal S64x3x65536 .f32) (idx : IVec S64x3x262144 32) : FVec Ideal S64x3x262144 .f32 :=
  select (inRange (wrapIdx idx))
    (Host.gather gather_S64x3x65536_S64x3x262144x1_S64x3x262144_n_2_01_01_2_3_111 x (wrapIdx idx))
    (broadcastInDim S64x3x262144 ![] bcast_S_S64x3x262144 (constant (F := Ideal) S_ .f32 0x7FC00000#32))

/-- Piece `q` of the gathered array, as an image batch. -/
def pickArr (q : ℕ) (hs : S64x3x4x65536.Slices ![0, 0, q, 0] S64x3x1x65536) (x : FVec Ideal S64x3x262144 .f32) :
    FVec Ideal S64x3x256x256 .f32 :=
  shapeCast S64x3x256x256
    (shapeCast S64x3x65536
      (extractStridedSlice S64x3x1x65536 ![0, 0, q, 0] (shapeCast S64x3x4x65536 x shapeCasts_S64x3x262144_S64x3x4x65536) hs)
      shapeCasts_S64x3x1x65536_S64x3x65536)
    shapeCasts_S64x3x65536_S64x3x256x256

/-! ## These functions read at an index -/

/-- Piece `q` at pixel `(i, j)` is the gathered array at position `q · 65536 + i · 256 + j`. -/
theorem pickArr_apply (q : ℕ) (hq : q < 4) (hs : S64x3x4x65536.Slices ![0, 0, q, 0] S64x3x1x65536) (x : FVec Ideal S64x3x262144 .f32)
    (b : Fin 64) (ch : Fin 3) (i j : Fin 256) :
    pickArr q hs x (ix4 b ch i j) = x (ix3 b ch ⟨q * 65536 + (i.val * 256 + j.val), by omega⟩) := by
  unfold pickArr
  refine (shapeCast_apply _ shapeCasts_S64x3x65536_S64x3x256x256 (ix4 b ch i j)
    (ix3 b ch (⟨i.val * 256 + j.val, by omega⟩ : Fin 65536)) ?_).trans ?_
  · rw [Shape.rowMajor_val_three, Shape.rowMajor_val_four]
    show (b.val * 3 + ch.val) * 65536 + (i.val * 256 + j.val) = ((b.val * 3 + ch.val) * 256 + i.val) * 256 + j.val
    omega
  refine (shapeCast_apply _ shapeCasts_S64x3x1x65536_S64x3x65536 (ix3 b ch (⟨i.val * 256 + j.val, by omega⟩ : Fin 65536))
    (ix4 b ch (0 : Fin 1) (⟨i.val * 256 + j.val, by omega⟩ : Fin 65536)) ?_).trans ?_
  · rw [Shape.rowMajor_val_three, Shape.rowMajor_val_four]
    show ((b.val * 3 + ch.val) * 1 + 0) * 65536 + (i.val * 256 + j.val) = (b.val * 3 + ch.val) * 65536 + (i.val * 256 + j.val)
    omega
  refine (extractStridedSlice_apply _ _ hs (ix4 b ch (0 : Fin 1) (⟨i.val * 256 + j.val, by omega⟩ : Fin 65536))
    (ix4 b ch (⟨q, hq⟩ : Fin 4) (⟨i.val * 256 + j.val, by omega⟩ : Fin 65536)) ?_).trans ?_
  · intro a
    match a with
    | ⟨0, _⟩ => show b.val = 0 + b.val; omega
    | ⟨1, _⟩ => show ch.val = 0 + ch.val; omega
    | ⟨2, _⟩ => show q = q + 0; omega
    | ⟨3, _⟩ => show i.val * 256 + j.val = 0 + (i.val * 256 + j.val); omega
  refine shapeCast_apply _ shapeCasts_S64x3x262144_S64x3x4x65536 (ix4 b ch (⟨q, hq⟩ : Fin 4) (⟨i.val * 256 + j.val, by omega⟩ : Fin 65536))
    (ix3 b ch (⟨q * 65536 + (i.val * 256 + j.val), by omega⟩ : Fin 262144)) ?_
  rw [Shape.rowMajor_val_three, Shape.rowMajor_val_four]
  show (b.val * 3 + ch.val) * 262144 + (q * 65536 + (i.val * 256 + j.val)) = ((b.val * 3 + ch.val) * 4 + q) * 65536 + (i.val * 256 + j.val)
  omega

/-- The start index at `(b, ch, n, 0)` is the index at `(b, ch, n)` when that is a word below `65536`. -/
theorem wrapIdx_apply (idx : IVec S64x3x262144 32) (b : Fin 64) (ch : Fin 3) (n : Fin 262144) {k : ℕ} (hk : k < 65536)
    (h : idx (ix3 b ch n) = BitVec.ofNat 32 k) : wrapIdx idx (ix4 b ch n (0 : Fin 1)) = BitVec.ofNat 32 k := by
  unfold wrapIdx
  refine (shapeCast_apply _ shapeCasts_S64x3x262144_S64x3x262144x1 (ix4 b ch n (0 : Fin 1)) (ix3 b ch n) ?_).trans ?_
  · rw [Shape.rowMajor_val_three, Shape.rowMajor_val_four]
    show (b.val * 3 + ch.val) * 262144 + n.val = ((b.val * 3 + ch.val) * 262144 + n.val) * 1 + 0
    omega
  show Scalar.select (IntOp.cmpi .slt (idx (ix3 b ch n)) 0#32) (IntOp.addi (idx (ix3 b ch n)) 65536#32) (idx (ix3 b ch n)) = _
  rw [h]
  exact select_neg_small hk _

/-- Where the index is a word below `65536`, the mask is true. -/
theorem inRange_apply (i5 : IVec S64x3x262144x1 32) (b : Fin 64) (ch : Fin 3) (n : Fin 262144) {k : ℕ} (hk : k < 65536)
    (h : i5 (ix4 b ch n (0 : Fin 1)) = BitVec.ofNat 32 k) : inRange i5 (ix3 b ch n) = 1#1 := by
  unfold inRange
  refine (HostLayout.reduce_and_unit _ b ch n).trans ?_
  show IntOp.andi (IntOp.cmpi .sge (i5 (ix4 b ch n (0 : Fin 1))) 0#32) (IntOp.cmpi .sle (i5 (ix4 b ch n (0 : Fin 1))) 65535#32) = 1#1
  rw [h, cmpi_sge_zero_small hk, cmpi_sle_max_small hk]
  exact andi_one_one

/-- The gathered array at a position whose index is the word of `k < 65536` is the flat image at `k`. -/
theorem takeArr_apply (x : FVec Ideal S64x3x65536 .f32) (idx : IVec S64x3x262144 32) (b : Fin 64) (ch : Fin 3) (n : Fin 262144)
    {k : ℕ} (hk : k < 65536) (h : idx (ix3 b ch n) = BitVec.ofNat 32 k) :
    takeArr x idx (ix3 b ch n) = x (ix3 b ch ⟨k, hk⟩) := by
  have hw := wrapIdx_apply idx b ch n hk h
  unfold takeArr
  refine (select_apply _ _ _ _).trans ?_
  rw [inRange_apply _ b ch n hk hw, select_one]
  refine (HostLayout.gather_flat_apply x _ b ch n).trans ?_
  have e : (⟨min ((wrapIdx idx (ix4 b ch n (0 : Fin 1))).toInt.toNat) 65535, by omega⟩ : Fin 65536) = ⟨k, hk⟩ :=
    Fin.ext (by show min ((wrapIdx idx (ix4 b ch n (0 : Fin 1))).toInt.toNat) 65535 = k; rw [hw]; exact clamp_flat_small hk)
  rw [e]

/-! ## The gather stretch over plain references -/

/-- The gather stretch's operations, each at its buffers' own types. -/
abbrev gatherOps : List (HloOp τ sig (Elt Ideal)) :=
  [ StableHlo.nullary main_call2_c (constantI S_ 32 0#32),
    StableHlo.unary main_call2_c main_call2_v0 (broadcastInDim S64x3x262144 ![] bcast_S_S64x3x262144 : (⟨S_, .i32⟩ : BufTy).Contents (Elt Ideal) → (⟨S64x3x262144, .i32⟩ : BufTy).Contents (Elt Ideal)),
    StableHlo.binary main_v47 main_call2_v0 main_call2_v1 (cmpi .slt : (⟨S64x3x262144, .i32⟩ : BufTy).Contents (Elt Ideal) → (⟨S64x3x262144, .i32⟩ : BufTy).Contents (Elt Ideal) → (⟨S64x3x262144, .i1⟩ : BufTy).Contents (Elt Ideal)),
    StableHlo.nullary main_call2_c_0 (constantI S_ 32 65536#32),
    StableHlo.unary main_call2_c_0 main_call2_v2 (broadcastInDim S64x3x262144 ![] bcast_S_S64x3x262144 : (⟨S_, .i32⟩ : BufTy).Contents (Elt Ideal) → (⟨S64x3x262144, .i32⟩ : BufTy).Contents (Elt Ideal)),
    StableHlo.binary main_v47 main_call2_v2 main_call2_v3 (addi : (⟨S64x3x262144, .i32⟩ : BufTy).Contents (Elt Ideal) → (⟨S64x3x262144, .i32⟩ : BufTy).Contents (Elt Ideal) → (⟨S64x3x262144, .i32⟩ : BufTy).Contents (Elt Ideal)),
    StableHlo.ternary main_call2_v1 main_call2_v3 main_v47 main_call2_v4 (select : (⟨S64x3x262144, .i1⟩ : BufTy).Contents (Elt Ideal) → (⟨S64x3x262144, .i32⟩ : BufTy).Contents (Elt Ideal) → (⟨S64x3x262144, .i32⟩ : BufTy).Contents (Elt Ideal) → (⟨S64x3x262144, .i32⟩ : BufTy).Contents (Elt Ideal)),
    StableHlo.reshape main_call2_v4 main_call2_v5 rfl shapeCasts_S64x3x262144_S64x3x262144x1,
    StableHlo.nullary main_call2_c_1 (constantI S1 32 65535#32),
    StableHlo.nullary main_call2_c_2 (constantI S_ 32 0#32),
    StableHlo.unary main_call2_c_2 main_call2_v6 (broadcastInDim S64x3x262144x1 ![] bcast_S_S64x3x262144x1 : (⟨S_, .i32⟩ : BufTy).Contents (Elt Ideal) → (⟨S64x3x262144x1, .i32⟩ : BufTy).Contents (Elt Ideal)),
    StableHlo.binary main_call2_v5 main_call2_v6 main_call2_v7 (cmpi .sge : (⟨S64x3x262144x1, .i32⟩ : BufTy).Contents (Elt Ideal) → (⟨S64x3x262144x1, .i32⟩ : BufTy).Contents (Elt Ideal) → (⟨S64x3x262144x1, .i1⟩ : BufTy).Contents (Elt Ideal)),
    StableHlo.unary main_call2_c_1 main_call2_v8 (broadcastInDim S1x1x1x1 ![3] bcast_S1_S1x1x1x1_3 : (⟨S1, .i32⟩ : BufTy).Contents (Elt Ideal) → (⟨S1x1x1x1, .i32⟩ : BufTy).Contents (Elt Ideal)),
    StableHlo.unary main_call2_v8 main_call2_v9 (broadcastInDim S64x3x262144x1 ![0, 1, 2, 3] bcast_S1x1x1x1_S64x3x262144x1_0_1_2_3 : (⟨S1x1x1x1, .i32⟩ : BufTy).Contents (Elt Ideal) → (⟨S64x3x262144x1, .i32⟩ : BufTy).Contents (Elt Ideal)),
    StableHlo.binary main_call2_v5 main_call2_v9 main_call2_v10 (cmpi .sle : (⟨S64x3x262144x1, .i32⟩ : BufTy).Contents (Elt Ideal) → (⟨S64x3x262144x1, .i32⟩ : BufTy).Contents (Elt Ideal) → (⟨S64x3x262144x1, .i1⟩ : BufTy).Contents (Elt Ideal)),
    StableHlo.binary main_call2_v7 main_call2_v10 main_call2_v11 (andi : (⟨S64x3x262144x1, .i1⟩ : BufTy).Contents (Elt Ideal) → (⟨S64x3x262144x1, .i1⟩ : BufTy).Contents (Elt Ideal) → (⟨S64x3x262144x1, .i1⟩ : BufTy).Contents (Elt Ideal)),
    StableHlo.nullary main_call2_c_3 (constantI S_ 1 1#1),
    StableHlo.binary main_call2_v11 main_call2_c_3 main_call2_v12 ((fun x v => Host.reduce IntOp.andi x v reducesTo_S64x3x262144x1_S64x3x262144_d3 h_S_) : (⟨S64x3x262144x1, .i1⟩ : BufTy).Contents (Elt Ideal) → (⟨S_, .i1⟩ : BufTy).Contents (Elt Ideal) → (⟨S64x3x262144, .i1⟩ : BufTy).Contents (Elt Ideal)),
    StableHlo.binary main_v48 main_call2_v5 main_call2_v13 ((fun x i => Host.gather gather_S64x3x65536_S64x3x262144x1_S64x3x262144_n_2_01_01_2_3_111 x i) : (⟨S64x3x65536, .f32⟩ : BufTy).Contents (Elt Ideal) → (⟨S64x3x262144x1, .i32⟩ : BufTy).Contents (Elt Ideal) → (⟨S64x3x262144, .f32⟩ : BufTy).Contents (Elt Ideal)),
    StableHlo.nullary main_call2_cst (constant (F := Ideal) S_ .f32 0x7FC00000#32),
    StableHlo.unary main_call2_cst main_call2_v14 (broadcastInDim S64x3x262144 ![] bcast_S_S64x3x262144 : (⟨S_, .f32⟩ : BufTy).Contents (Elt Ideal) → (⟨S64x3x262144, .f32⟩ : BufTy).Contents (Elt Ideal)),
    StableHlo.ternary main_call2_v12 main_call2_v13 main_call2_v14 main_v49 (select : (⟨S64x3x262144, .i1⟩ : BufTy).Contents (Elt Ideal) → (⟨S64x3x262144, .f32⟩ : BufTy).Contents (Elt Ideal) → (⟨S64x3x262144, .f32⟩ : BufTy).Contents (Elt Ideal) → (⟨S64x3x262144, .f32⟩ : BufTy).Contents (Elt Ideal)) ]

/-- The mask's reduction with its operands read at the buffers' own types. -/
theorem reduceOp_eq :
    (StableHlo.TRef.binary (.of main_call2_v11 : StableHlo.TRef sig ⟨S64x3x262144x1, .i1⟩) (.of main_call2_c_3 : StableHlo.TRef sig ⟨S_, .i1⟩)
        (.of main_call2_v12 : StableHlo.TRef sig ⟨S64x3x262144, .i1⟩)
        (fun x v => Host.reduce IntOp.andi x v reducesTo_S64x3x262144x1_S64x3x262144_d3 h_S_) : HloOp τ sig (Elt Ideal))
      = StableHlo.binary main_call2_v11 main_call2_c_3 main_call2_v12
          ((fun x v => Host.reduce IntOp.andi x v reducesTo_S64x3x262144x1_S64x3x262144_d3 h_S_) : (⟨S64x3x262144x1, .i1⟩ : BufTy).Contents (Elt Ideal) → (⟨S_, .i1⟩ : BufTy).Contents (Elt Ideal) → (⟨S64x3x262144, .i1⟩ : BufTy).Contents (Elt Ideal)) := by
  have hF : ∀ (u : (⟨S64x3x262144x1, .i1⟩ : BufTy).Contents (Elt Ideal)) (v : (⟨S_, .i1⟩ : BufTy).Contents (Elt Ideal)),
      (StableHlo.TRef.of main_call2_v12 : StableHlo.TRef sig ⟨S64x3x262144, .i1⟩).toBuf (Val := Elt Ideal)
          ((fun x v => Host.reduce IntOp.andi x v reducesTo_S64x3x262144x1_S64x3x262144_d3 h_S_)
            ((StableHlo.TRef.of main_call2_v11 : StableHlo.TRef sig ⟨S64x3x262144x1, .i1⟩).ofBuf (Val := Elt Ideal) u)
            ((StableHlo.TRef.of main_call2_c_3 : StableHlo.TRef sig ⟨S_, .i1⟩).ofBuf (Val := Elt Ideal) v))
        = Host.reduce IntOp.andi u v reducesTo_S64x3x262144x1_S64x3x262144_d3 h_S_ := by
    intro u v
    exact cast_eq _ _
  exact congrArg (fun g => StableHlo.binary main_call2_v11 main_call2_c_3 main_call2_v12 g) (funext fun u => funext fun v => hF u v)

set_option maxHeartbeats 4000000 in
/-- They are the printed stretch. -/
theorem gatherOps_eq : hostOps0_5 (F := Ideal) = gatherOps := by
  unfold hostOps0_5
  rw [reduceOp_eq]
  first | rfl | fail "the lists differ"

/-! ## The two last stretches compute these functions -/

set_option maxHeartbeats 4000000 in
/-- The gather stretch leaves the gathered array. -/
theorem run_gather (W : Valuation τ sig (Elt Ideal)) :
    (StableHlo.after (hostOps0_5 (F := Ideal)) W (Proc.devRef .tc main_v49) : FVec Ideal S64x3x262144 .f32)
      = takeArr (W (Proc.devRef .tc main_v48)) (W (Proc.devRef .tc main_v47)) := by
  rw [gatherOps_eq]
  simp only [gatherOps]
  after_results_simp
  first | rfl | fail "the composed term is not takeArr"

/-- The gathered array where the start index is the word of `k < 65536`. -/
theorem gathered (W : Valuation τ sig (Elt Ideal)) (b : Fin 64) (ch : Fin 3) (n : Fin 262144) {k : ℕ} (hk : k < 65536)
    (h : (W (Proc.devRef .tc main_v47) : IVec S64x3x262144 32) (ix3 b ch n) = BitVec.ofNat 32 k) :
    (StableHlo.after (hostOps0_5 (F := Ideal)) W (Proc.devRef .tc main_v49) : FVec Ideal S64x3x262144 .f32) (ix3 b ch n)
      = (W (Proc.devRef .tc main_v48) : FVec Ideal S64x3x65536 .f32) (ix3 b ch ⟨k, hk⟩) :=
  (congrFun (run_gather W) (ix3 b ch n)).trans (takeArr_apply _ _ b ch n hk h)

set_option maxHeartbeats 4000000 in
/-- The slice stretch leaves the four pieces of the gathered array. -/
theorem run_slice0 (W : Valuation τ sig (Elt Ideal)) :
    (StableHlo.after (hostOps0_6 (F := Ideal)) W (Proc.devRef .tc main_v53) : FVec Ideal S64x3x256x256 .f32)
      = pickArr 0 slices_S64x3x4x65536_S64x3x1x65536_0_0_0_0 (W (Proc.devRef .tc main_v49)) := by
  simp only [hostOps0_6]
  after_results
  first | rfl | fail "the composed term is not pickArr"
set_option maxHeartbeats 4000000 in
theorem run_slice1 (W : Valuation τ sig (Elt Ideal)) :
    (StableHlo.after (hostOps0_6 (F := Ideal)) W (Proc.devRef .tc main_v56) : FVec Ideal S64x3x256x256 .f32)
      = pickArr 1 slices_S64x3x4x65536_S64x3x1x65536_0_0_1_0 (W (Proc.devRef .tc main_v49)) := by
  simp only [hostOps0_6]
  after_results
  first | rfl | fail "the composed term is not pickArr"
set_option maxHeartbeats 4000000 in
theorem run_slice2 (W : Valuation τ sig (Elt Ideal)) :
    (StableHlo.after (hostOps0_6 (F := Ideal)) W (Proc.devRef .tc main_v59) : FVec Ideal S64x3x256x256 .f32)
      = pickArr 2 slices_S64x3x4x65536_S64x3x1x65536_0_0_2_0 (W (Proc.devRef .tc main_v49)) := by
  simp only [hostOps0_6]
  after_results
  first | rfl | fail "the composed term is not pickArr"
set_option maxHeartbeats 4000000 in
theorem run_slice3 (W : Valuation τ sig (Elt Ideal)) :
    (StableHlo.after (hostOps0_6 (F := Ideal)) W (Proc.devRef .tc main_v62) : FVec Ideal S64x3x256x256 .f32)
      = pickArr 3 slices_S64x3x4x65536_S64x3x1x65536_0_0_3_0 (W (Proc.devRef .tc main_v49)) := by
  simp only [hostOps0_6]
  after_results
  first | rfl | fail "the composed term is not pickArr"

/-! ## The four corner arrays -/

variable (m : (ℓ : Loc nD τ sig) → Buf (Elt Ideal) ℓ)

/-- The two arguments as launched on core `c`. -/
abbrev tr (c : Dev nD) : Img.Idx → EReal := m ((c : Thread nD τ).loc main_arg0)
abbrev off (c : Dev nD) : Off.Idx → EReal := m ((c : Thread nD τ).loc main_arg1)

/-- The buffers when the region is entered, stretch by stretch from the launch contents. -/
theorem V_eq (c : Dev nD) (r : Ref sig .tc) :
    V m c r = StableHlo.after (hostOps0_6 (F := Ideal)) (StableHlo.after (hostOps0_5 (F := Ideal)) (StableHlo.after (hostOps0_4 (F := Ideal))
      (HostCoords.after03 (fun b => m (c, b))))) (Proc.devRef .tc r) := by
  show StableHlo.after (List.flatten [hostOps0, hostOps0_1, hostOps0_2, hostOps0_3, hostOps0_4, hostOps0_5, hostOps0_6])
    (fun b => m (c, b)) (Proc.devRef .tc r) = _
  simp only [List.flatten_cons, List.flatten_nil, List.append_nil, StableHlo.after_append]

/-- The gathered array at corner `q`'s position of pixel `(i, j)` is the image at that corner: both index words are
    numbers below `256`, so the flat index does not wrap, is in range, and splits back into them. -/
theorem gathered_corner (c : Dev nD) (b : Fin 64) (ch : Fin 3) (q : Fin 4) (i j : Fin 256) :
    (StableHlo.after (hostOps0_5 (F := Ideal)) (StableHlo.after (hostOps0_4 (F := Ideal)) (HostCoords.after03 (fun b => m (c, b))))
        (Proc.devRef .tc main_v49) : S64x3x262144.Idx → EReal) (ix3 b ch (HostIndex.joined q i j))
      = tr m c (ix4 b ch (pos (word (HostIndex.rowRound q (srow (off m c) b i j))))
          (pos (word (HostIndex.colRound q (scol (off m c) b i j))))) := by
  obtain ⟨k, hk, ek⟩ : ∃ k : ℕ, k < 256 ∧ word (HostIndex.rowRound q (srow (off m c) b i j)) = BitVec.ofNat 32 k := by
    unfold srow HostIndex.rowRound
    fin_cases q
    · exact word_flo_clip _
    · exact word_cei_clip _
    · exact word_flo_clip _
    · exact word_cei_clip _
  obtain ⟨l, hl, el⟩ : ∃ l : ℕ, l < 256 ∧ word (HostIndex.colRound q (scol (off m c) b i j)) = BitVec.ofNat 32 l := by
    unfold scol HostIndex.colRound
    fin_cases q
    · exact word_flo_clip _
    · exact word_cei_clip _
    · exact word_cei_clip _
    · exact word_flo_clip _
  rw [ek, el, pos_ofNat hk, pos_ofNat hl]
  refine (gathered _ b ch (HostIndex.joined q i j) (flat_lt hk hl) ?_).trans ?_
  · refine (HostIndex.start_index _ b ch q i j).trans ?_
    rw [HostCoords.row_coord, HostCoords.col_coord]
    show word (HostIndex.rowRound q (srow (off m c) b i j)) * 256#32 + word (HostIndex.colRound q (scol (off m c) b i j)) = _
    rw [ek, el]
    exact flat_eq hk hl
  · refine (HostIndex.flat_image _ b ch ⟨k, hk⟩ ⟨l, hl⟩).trans ?_
    rw [HostCoords.keep_arg0]

/-- Upper-left corner: floor row, floor column. -/
theorem corner_lu (c : Dev nD) (b : Fin 64) (ch : Fin 3) (i j : Fin 256) :
    (V m c main_v53 : Img.Idx → EReal) (ix4 b ch i j) = tr m c (ix4 b ch (rowF (off m c) b i j) (colF (off m c) b i j)) := by
  rw [V_eq]
  refine (congrFun (run_slice0 _) _).trans ((pickArr_apply 0 (by omega) _ _ b ch i j).trans ?_)
  exact gathered_corner m c b ch 0 i j
/-- Lower-right corner: ceiling row, ceiling column. -/
theorem corner_rb (c : Dev nD) (b : Fin 64) (ch : Fin 3) (i j : Fin 256) :
    (V m c main_v56 : Img.Idx → EReal) (ix4 b ch i j) = tr m c (ix4 b ch (rowC (off m c) b i j) (colC (off m c) b i j)) := by
  rw [V_eq]
  refine (congrFun (run_slice1 _) _).trans ((pickArr_apply 1 (by omega) _ _ b ch i j).trans ?_)
  exact gathered_corner m c b ch 1 i j
/-- Floor row, ceiling column. -/
theorem corner_lb (c : Dev nD) (b : Fin 64) (ch : Fin 3) (i j : Fin 256) :
    (V m c main_v59 : Img.Idx → EReal) (ix4 b ch i j) = tr m c (ix4 b ch (rowF (off m c) b i j) (colC (off m c) b i j)) := by
  rw [V_eq]
  refine (congrFun (run_slice2 _) _).trans ((pickArr_apply 2 (by omega) _ _ b ch i j).trans ?_)
  exact gathered_corner m c b ch 2 i j
/-- Ceiling row, floor column. -/
theorem corner_ru (c : Dev nD) (b : Fin 64) (ch : Fin 3) (i j : Fin 256) :
    (V m c main_v62 : Img.Idx → EReal) (ix4 b ch i j) = tr m c (ix4 b ch (rowC (off m c) b i j) (colF (off m c) b i j)) := by
  rw [V_eq]
  refine (congrFun (run_slice3 _) _).trans ((pickArr_apply 3 (by omega) _ _ b ch i j).trans ?_)
  exact gathered_corner m c b ch 3 i j

end Cert.KernelIdeal.HostCorners

end
-- ==== Proof.KernelIdealRun.lean ====
/-
  The kernel program's run at the ideal instance ends with the result array at the bilinear warp of its arguments: the
  region blends the four corner arrays the host gathered, and those are the image read at the four corner positions.
-/
import proofs.«405025_j5866925326584_3_alg».proof.Proof.KernelIdealBlend
import proofs.«405025_j5866925326584_3_alg».proof.Proof.HostCorners

set_option maxRecDepth 16384

noncomputable section

namespace Cert.KernelIdeal.Run

open Cert.KernelIdeal Cert.KernelIdeal.Gen Cert.KernelIdeal.Fr Cert.Warp
open Idealize.ShloMosaic Idealize.ShloMosaic.TcCoe Idealize.ShloMosaic.ValueIdx Idealize.SL.Sem

variable (m : (ℓ : Loc nD τ sig) → Buf (Elt Ideal) ℓ) (ρ : Dev nD → PrngReg)

/-- The blend of the four gathered corner arrays is the warp of the arguments. -/
theorem blend_eq_warp (c : Dev nD) :
    blendArr (V m c main_v53) (V m c main_v56) (V m c main_v59) (V m c main_v62) (V m c main_arg1)
      = warp (m ((c : Thread nD τ).loc main_arg0)) (m ((c : Thread nD τ).loc main_arg1)) := by
  funext y
  obtain ⟨b, ch, i, j, rfl⟩ : ∃ (b : Fin 64) (ch : Fin 3) (i j : Fin 256), y = ix4 b ch i j := ⟨y 0, y 1, y 2, y 3, eq_ix4 y⟩
  rw [blendArr_ix4, warp_ix4, HostCorners.corner_lu, HostCorners.corner_rb, HostCorners.corner_lb, HostCorners.corner_ru,
    V_main_arg1]
  rfl

/-- The run with the result named as the warp. -/
theorem run : θ_run defs (onTc (τ := τ) (main (F := Ideal))) ⟨m, fun _ => 0, ρ⟩ (fun r => ∀ c : Dev nD,
      (r.2.mem ((c.tc : Thread nD τ).loc main_v63) : Img.Idx → EReal)
        = warp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (blend_eq_warp m c), (h c).2⟩) (Blend.run_blend m ρ)

end Cert.KernelIdeal.Run

end
-- ==== Proof.RefLayout.lean ====
/-
  The shape operations of the reference that its generated stage lemmas leave unread, read at an index.

  The reference gathers one pixel's three channels from the image laid out `[64, 256, 256, 3]` at a start index of three
  components `(batch, row, column)`, each read signed and clamped into its axis; the start indices `[64, 65536, 3]` are
  three arrays `[64, 65536, 1]` joined along the last axis, and the coordinate pairs `[…, 2]` two arrays `[…, 1]` joined
  along the last axis.
-/
import proofs.«405025_j5866925326584_3_alg».proof.Proof.Gen.ReferenceIdeal
import Idealize.ShloMosaic.Lib.ValueIdx
import Idealize.ShloMosaic.Lib.Pipeline.Value

set_option maxRecDepth 16384

noncomputable section

namespace Cert.ReferenceIdeal.RefLayout

open Cert.ReferenceIdeal Cert.ReferenceIdeal.Gen
open Idealize.ShloMosaic Idealize.ShloMosaic.ValueIdx

variable {α : Type}

/-- The pixel gather's dimension numbers. -/
abbrev pixelDims : GatherDims S64x256x256x3 S64x65536x3 S64x65536x3 :=
  gather_S64x256x256x3_S64x65536x3_S64x65536x3_2_012_n_n_012_2_1113

/-- Component `k` of the start index of result element `(b, n, ch)` sits at `(b, n, k)`. -/
theorem pixelDims_siIdx (b : Fin 64) (n : Fin 65536) (ch : Fin 3) (k : Nat) (hk : k < pixelDims.startIndexMap.length) :
    pixelDims.siIdx (ix3 b n ch) ⟨k, hk⟩ = ix3 b n (⟨k, hk⟩ : Fin 3) := by
  funext c; refine Fin.ext ?_
  match c with
  | ⟨0, _⟩ => rfl
  | ⟨1, _⟩ => rfl
  | ⟨2, _⟩ => rfl

/-- The pixel gather: element `(b, n, ch)` of the result is the operand at `(s₀, s₁, s₂, ch)`, `sₖ` the start index's
    component `k` at `(b, n)` read signed and clamped into its axis (64, 256, 256). -/
theorem gather_pixel_apply (x : S64x256x256x3.Idx → α) (idx : IVec S64x65536x3 32) (b : Fin 64) (n : Fin 65536) (ch : Fin 3) :
    Host.gather gather_S64x256x256x3_S64x65536x3_S64x65536x3_2_012_n_n_012_2_1113 x idx (ix3 b n ch)
      = x (ix4 (⟨min (idx (ix3 b n (0 : Fin 3))).toInt.toNat 63, by omega⟩ : Fin 64)
            (⟨min (idx (ix3 b n (1 : Fin 3))).toInt.toNat 255, by omega⟩ : Fin 256)
            (⟨min (idx (ix3 b n (2 : Fin 3))).toInt.toNat 255, by omega⟩ : Fin 256) ch) := by
  unfold Host.gather
  congr 1
  funext a
  refine Fin.ext ?_
  match a with
  | ⟨0, _⟩ =>
    show pixelDims.start (ix3 b n ch) idx 0 + pixelDims.batchCoord (ix3 b n ch) 0 + pixelDims.offCoord (ix3 b n ch) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 4) ∈ pixelDims.startIndexMap by decide), pixelDims_siIdx]
    rfl
  | ⟨1, _⟩ =>
    show pixelDims.start (ix3 b n ch) idx 1 + pixelDims.batchCoord (ix3 b n ch) 1 + pixelDims.offCoord (ix3 b n ch) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 4) ∈ pixelDims.startIndexMap by decide), pixelDims_siIdx]
    rfl
  | ⟨2, _⟩ =>
    show pixelDims.start (ix3 b n ch) idx 2 + pixelDims.batchCoord (ix3 b n ch) 2 + pixelDims.offCoord (ix3 b n ch) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 4) ∈ pixelDims.startIndexMap by decide), pixelDims_siIdx]
    rfl
  | ⟨3, _⟩ =>
    show pixelDims.start (ix3 b n ch) idx 3 + pixelDims.batchCoord (ix3 b n ch) 3 + pixelDims.offCoord (ix3 b n ch) 3 = _
    rw [GatherDims.batchCoord_eq_zero _ _ _ List.not_mem_nil]
    have hs : pixelDims.start (ix3 b n ch) idx 3 = 0 := by
      unfold GatherDims.start
      rw [dif_neg (show (3 : Fin 4) ∉ pixelDims.startIndexMap by decide)]
    have ho : pixelDims.offCoord (ix3 b n ch) 3 = ch.val := by
      unfold GatherDims.offCoord
      rw [dif_pos (show (3 : Fin 4) ∈ pixelDims.sKept by decide)]
      rfl
    rw [hs, ho]
    simp only [Nat.zero_add, Nat.add_zero]

/-- Component `k` of the three-piece join along the last axis. -/
theorem concat3_apply (u0 u1 u2 : S64x65536x1.Idx → α) (b : Fin 64) (n : Fin 65536) (k : Fin 3) :
    concatenate S64x65536x3 2 [⟨S64x65536x1, u0⟩, ⟨S64x65536x1, u1⟩, ⟨S64x65536x1, u2⟩]
        concatenates_S64x65536x1_S64x65536x1_S64x65536x1_S64x65536x3_d2 (ix3 b n k)
      = (match k with | 0 => u0 | 1 => u1 | 2 => u2) (ix3 b n (0 : Fin 1)) := by
  have hi : ∀ (k : Fin 3) (c : Fin S64x65536x1.rank), c.cast (rfl : S64x65536x1.rank = S64x65536x3.rank) ≠ 2 →
      ((ix3 b n (0 : Fin 1) : S64x65536x1.Idx) c).val = ((ix3 b n k : S64x65536x3.Idx) (c.cast rfl)).val := by
    intro k c hc
    match c, hc with
    | ⟨0, _⟩, _ => rfl
    | ⟨1, _⟩, _ => rfl
    | ⟨2, _⟩, hc => exact absurd rfl hc
  match k with
  | ⟨0, _⟩ =>
    exact concatenate_apply_piece (t := S64x65536x3) 2 _ _ _ 0 (by simp) S64x65536x1 u0 rfl rfl 0 rfl
      (ix3 b n (0 : Fin 1)) (hi _) rfl
  | ⟨1, _⟩ =>
    exact concatenate_apply_piece (t := S64x65536x3) 2 _ _ _ 1 (by simp) S64x65536x1 u1 rfl rfl 1 rfl
      (ix3 b n (0 : Fin 1)) (hi _) rfl
  | ⟨2, _⟩ =>
    exact concatenate_apply_piece (t := S64x65536x3) 2 _ _ _ 2 (by simp) S64x65536x1 u2 rfl rfl 2 rfl
      (ix3 b n (0 : Fin 1)) (hi _) rfl

/-- Component `k` of a two-piece join of `[64, 65536, 1]` arrays along the last axis. -/
theorem concat2_apply (u0 u1 : S64x65536x1.Idx → α) (b : Fin 64) (n : Fin 65536) (k : Fin 2) :
    concatenate S64x65536x2 2 [⟨S64x65536x1, u0⟩, ⟨S64x65536x1, u1⟩]
        concatenates_S64x65536x1_S64x65536x1_S64x65536x2_d2 (ix3 b n k)
      = (match k with | 0 => u0 | 1 => u1) (ix3 b n (0 : Fin 1)) := by
  match k with
  | ⟨0, _⟩ =>
    refine concatenate_pair_apply_left (t := S64x65536x2) (s₁ := S64x65536x1) (s₂ := S64x65536x1) 2 u0 u1 _ _ rfl
      (ix3 b n (0 : Fin 1)) ?_
    intro c
    match c with
    | ⟨0, _⟩ => rfl
    | ⟨1, _⟩ => rfl
    | ⟨2, _⟩ => rfl
  | ⟨1, _⟩ =>
    refine concatenate_pair_apply_right (t := S64x65536x2) (s₁ := S64x65536x1) (s₂ := S64x65536x1) 2 u0 u1 _ _ rfl rfl
      (ix3 b n (0 : Fin 1)) ?_ ?_
    · intro c hc
      match c, hc with
      | ⟨0, _⟩, _ => rfl
      | ⟨1, _⟩, _ => rfl
      | ⟨2, _⟩, hc => exact absurd rfl hc
    · rfl

/-- Component `k` of the two-piece join of the row-number and column-number grids `[256, 256, 1]`. -/
theorem concat_grid_apply (u0 u1 : S256x256x1.Idx → α) (i j : Fin 256) (k : Fin 2) :
    concatenate S256x256x2 2 [⟨S256x256x1, u0⟩, ⟨S256x256x1, u1⟩]
        concatenates_S256x256x1_S256x256x1_S256x256x2_d2 (ix3 i j k)
      = (match k with | 0 => u0 | 1 => u1) (ix3 i j (0 : Fin 1)) := by
  match k with
  | ⟨0, _⟩ =>
    refine concatenate_pair_apply_left (t := S256x256x2) (s₁ := S256x256x1) (s₂ := S256x256x1) 2 u0 u1 _ _ rfl
      (ix3 i j (0 : Fin 1)) ?_
    intro c
    match c with
    | ⟨0, _⟩ => rfl
    | ⟨1, _⟩ => rfl
    | ⟨2, _⟩ => rfl
  | ⟨1, _⟩ =>
    refine concatenate_pair_apply_right (t := S256x256x2) (s₁ := S256x256x1) (s₂ := S256x256x1) 2 u0 u1 _ _ rfl rfl
      (ix3 i j (0 : Fin 1)) ?_ ?_
    · intro c hc
      match c, hc with
      | ⟨0, _⟩, _ => rfl
      | ⟨1, _⟩, _ => rfl
      | ⟨2, _⟩, hc => exact absurd rfl hc
    · rfl

end Cert.ReferenceIdeal.RefLayout

end
-- ==== Proof.RefValue.lean ====
/-
  The reference's result, stage by stage, is the bilinear warp of its two arguments.

  The reference lays pixels out flat (`n = i · 256 + j`) with the row and the column coordinate as a last axis of extent
  two, clips, takes floor and ceiling, converts to integer words, normalises negative indices (none occurs: every word is
  in `[0, 255]`), gathers the four corner pixels with a three-component start index `(batch, row, column)`, blends them
  with the fractional parts, and transposes back to `[64, 3, 256, 256]`.
-/
import proofs.«405025_j5866925326584_3_alg».proof.Proof.RefRead
import proofs.«405025_j5866925326584_3_alg».proof.Proof.RefLayout
import proofs.«405025_j5866925326584_3_alg».proof.Proof.Warp
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.ReadP Cert.Warp
open Idealize.ShloMosaic Idealize.ShloMosaic.ValueIdx

/-- Pixel `(i, j)` on the flat pixel axis. -/
abbrev flatPix (i j : Fin 256) : Fin 65536 := ⟨i.val * 256 + j.val, by omega⟩

/-! ## The clipped coordinates and the blend -/

/-- The grid's row number at pixel `(i, j)`, as a float: the broadcasts and the reshape read back to the row iota. -/
theorem grid_row (b : Fin 64) (i j : Fin 256) :
    val_main_v15 (F := Ideal) (ix3 b (flatPix i j) (0 : Fin 2)) = gridf i := by
  rw [val_main_v15_apply, val_main_v14_apply, val_main_v13_apply, val_main_v12_apply]
  have hidx : idx_main_v12 (idx_main_v14 (idx_main_v15 (ix3 b (flatPix i j) (0 : Fin 2)))) = ix3 i j (0 : Fin 2) := by
    funext a
    have hi := i.isLt
    have hj := j.isLt
    match a with
    | ⟨0, _⟩ => exact Fin.ext (by show ((i.val * 256 + j.val) * 2 + 0) / 512 = i.val; omega)
    | ⟨1, _⟩ => exact Fin.ext (by show ((i.val * 256 + j.val) * 2 + 0) / 2 % 256 = j.val; omega)
    | ⟨2, _⟩ => exact Fin.ext (by show ((i.val * 256 + j.val) * 2 + 0) % 2 = 0; omega)
  rw [hidx]
  unfold val_main_v11
  rw [RefLayout.concat_grid_apply]
  show FloatOps.sitofp (F := Ideal) .f32 (val_main_v9 (F := Ideal) (ix3 i j (0 : Fin 1))) = gridf i
  rw [val_main_v9_apply, val_main_v7_apply, val_main_v5_apply]
  rfl

/-- The grid's column number at pixel `(i, j)`, as a float. -/
theorem grid_col (b : Fin 64) (i j : Fin 256) :
    val_main_v15 (F := Ideal) (ix3 b (flatPix i j) (1 : Fin 2)) = gridf j := by
  rw [val_main_v15_apply, val_main_v14_apply, val_main_v13_apply, val_main_v12_apply]
  have hidx : idx_main_v12 (idx_main_v14 (idx_main_v15 (ix3 b (flatPix i j) (1 : Fin 2)))) = ix3 i j (1 : Fin 2) := by
    funext a
    have hi := i.isLt
    have hj := j.isLt
    match a with
    | ⟨0, _⟩ => exact Fin.ext (by show ((i.val * 256 + j.val) * 2 + 1) / 512 = i.val; omega)
    | ⟨1, _⟩ => exact Fin.ext (by show ((i.val * 256 + j.val) * 2 + 1) / 2 % 256 = j.val; omega)
    | ⟨2, _⟩ => exact Fin.ext (by show ((i.val * 256 + j.val) * 2 + 1) % 2 = 1; omega)
  rw [hidx]
  unfold val_main_v11
  rw [RefLayout.concat_grid_apply]
  show FloatOps.sitofp (F := Ideal) .f32 (val_main_v10 (F := Ideal) (ix3 i j (0 : Fin 1))) = gridf j
  rw [val_main_v10_apply, val_main_v8_apply, val_main_v6_apply]
  rfl

/-- The scaled offset at pixel `(i, j)`, component `k`: the transpose and the reshape read back to the offsets array. -/
theorem off_at (x1 : Off.Idx → EReal) (b : Fin 64) (i j : Fin 256) (k : Fin 2) :
    val_main_v4 (F := Ideal) x1 (ix3 b (flatPix i j) k) = x1 (ix4 b k i j) * c256 := by
  rw [val_main_v4_apply, val_main_v3_apply, val_main_v1_apply, val_main_v2_apply, val_main_cst_apply]
  have hidx : idx_main_v1 (idx_main_v4 (ix3 b (flatPix i j) k)) = ix4 b k i j := by
    funext a
    have hb := b.isLt
    have hi := i.isLt
    have hj := j.isLt
    have hk := k.isLt
    match a with
    | ⟨0, _⟩ => exact Fin.ext (by show ((b.val * 65536 + (i.val * 256 + j.val)) * 2 + k.val) / 131072 = b.val; omega)
    | ⟨1, _⟩ => exact Fin.ext (by show ((b.val * 65536 + (i.val * 256 + j.val)) * 2 + k.val) % 2 = k.val; omega)
    | ⟨2, _⟩ => exact Fin.ext (by show ((b.val * 65536 + (i.val * 256 + j.val)) * 2 + k.val) / 512 % 256 = i.val; omega)
    | ⟨3, _⟩ => exact Fin.ext (by show ((b.val * 65536 + (i.val * 256 + j.val)) * 2 + k.val) / 2 % 256 = j.val; omega)
  rw [hidx]
  rfl

/-- The clip call at an index: the minimum with `255` of the maximum with `0` of grid plus scaled offset. -/
theorem clip_at (x1 : Off.Idx → EReal) (y : S64x65536x2.Idx) :
    val_main_v17 (F := Ideal) x1 y = clip (val_main_v15 (F := Ideal) y + val_main_v4 (F := Ideal) x1 y) := by
  rw [val_main_v17_apply, val_main_call0_v4_apply, val_main_call0_v3_apply, val_main_c_apply,
    val_main_call0_v2_apply, val_main_call0_v1_apply, val_main_call0_v0_apply, val_main_cst_0_apply, val_main_v16_apply]
  have h255 : FloatOps.sitofp (F := Ideal) .f32 (255#32 : BitVec 32) = c255 := sitofp_255
  rw [h255]
  rfl

/-- The fraction array at an index: the clipped coordinate minus its floor. -/
theorem frac_at (x1 : Off.Idx → EReal) (y : S64x65536x2.Idx) :
    val_main_v144 (F := Ideal) x1 y = val_main_v17 (F := Ideal) x1 y - flo (val_main_v17 (F := Ideal) x1 y) := by
  rw [val_main_v144_apply, val_main_v18_apply]
  rfl

/-- The row fraction spread over the three channels (it is spread twice, once for each pair of corners) … -/
theorem fracR_at (x1 : Off.Idx → EReal) (b : Fin 64) (n : Fin 65536) (ch : Fin 3) :
    val_main_v148 (F := Ideal) x1 (ix3 b n ch)
      = val_main_v17 (F := Ideal) x1 (ix3 b n (0 : Fin 2)) - flo (val_main_v17 (F := Ideal) x1 (ix3 b n (0 : Fin 2))) := by
  rw [val_main_v148_apply, val_main_v145_apply]
  have hidx : idx_main_v145 (idx_main_v148 (ix3 b n ch)) = ix3 b n (0 : Fin 2) := by
    funext a
    match a with
    | ⟨0, _⟩ => rfl
    | ⟨1, _⟩ => rfl
    | ⟨2, _⟩ => rfl
  rw [hidx, frac_at]
theorem fracR_at' (x1 : Off.Idx → EReal) (b : Fin 64) (n : Fin 65536) (ch : Fin 3) :
    val_main_v152 (F := Ideal) x1 (ix3 b n ch)
      = val_main_v17 (F := Ideal) x1 (ix3 b n (0 : Fin 2)) - flo (val_main_v17 (F := Ideal) x1 (ix3 b n (0 : Fin 2))) := by
  rw [val_main_v152_apply, val_main_v145_apply]
  have hidx : idx_main_v145 (idx_main_v152 (ix3 b n ch)) = ix3 b n (0 : Fin 2) := by
    funext a
    match a with
    | ⟨0, _⟩ => rfl
    | ⟨1, _⟩ => rfl
    | ⟨2, _⟩ => rfl
  rw [hidx, frac_at]
/-- … and the column fraction. -/
theorem fracC_at (x1 : Off.Idx → EReal) (b : Fin 64) (n : Fin 65536) (ch : Fin 3) :
    val_main_v156 (F := Ideal) x1 (ix3 b n ch)
      = val_main_v17 (F := Ideal) x1 (ix3 b n (1 : Fin 2)) - flo (val_main_v17 (F := Ideal) x1 (ix3 b n (1 : Fin 2))) := by
  rw [val_main_v156_apply, val_main_v146_apply]
  have hidx : idx_main_v146 (idx_main_v156 (ix3 b n ch)) = ix3 b n (1 : Fin 2) := by
    funext a
    match a with
    | ⟨0, _⟩ => rfl
    | ⟨1, _⟩ => rfl
    | ⟨2, _⟩ => rfl
  rw [hidx, frac_at]

/-- The result's element `(b, ch, i, j)` is the blend array's at the flat pixel `i · 256 + j`: the last transpose
    and reshape read at an index. -/
theorem result_idx (b : Fin 64) (ch : Fin 3) (i j : Fin 256) :
    idx_main_v159 (idx_main_v160 (ix4 b ch i j)) = ix3 b (flatPix i j) ch := by
  funext a
  have hb := b.isLt
  have hi := i.isLt
  have hj := j.isLt
  have hc := ch.isLt
  match a with
  | ⟨0, _⟩ => exact Fin.ext (by show (((b.val * 256 + i.val) * 256 + j.val) * 3 + ch.val) / 196608 = b.val; omega)
  | ⟨1, _⟩ => exact Fin.ext (by show (((b.val * 256 + i.val) * 256 + j.val) * 3 + ch.val) / 3 % 65536 = i.val * 256 + j.val; omega)
  | ⟨2, _⟩ => exact Fin.ext (by show (((b.val * 256 + i.val) * 256 + j.val) * 3 + ch.val) % 3 = ch.val; omega)

/-- The clipped source coordinates: component 0 is the row's, component 1 the column's. -/
theorem s_row (x1 : Off.Idx → EReal) (b : Fin 64) (i j : Fin 256) :
    val_main_v17 (F := Ideal) x1 (ix3 b (flatPix i j) (0 : Fin 2)) = srow x1 b i j := by
  rw [clip_at, grid_row, off_at]
  rfl
theorem s_col (x1 : Off.Idx → EReal) (b : Fin 64) (i j : Fin 256) :
    val_main_v17 (F := Ideal) x1 (ix3 b (flatPix i j) (1 : Fin 2)) = scol x1 b i j := by
  rw [clip_at, grid_col, off_at]
  rfl

/-! ## The start indices of the four gathers -/

/-- The negative-index normalisation `select (w < 0) (w + m) w` keeps a word that is not negative read signed. -/
theorem norm_keep (w m : BitVec 32) (h : 0 ≤ w.toInt) :
    Scalar.select (IntOp.cmpi .slt w 0#32) (IntOp.addi w m) w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-- … in particular the word of a number below 65536. -/
theorem norm_small {k : ℕ} (hk : k < 65536) (m : BitVec 32) :
    Scalar.select (IntOp.cmpi .slt (BitVec.ofNat 32 k) 0#32) (IntOp.addi (BitVec.ofNat 32 k) m) (BitVec.ofNat 32 k)
      = BitVec.ofNat 32 k :=
  norm_keep _ _ (by rw [toInt_ofNat_small hk]; omega)

/-- The gather at a start index whose three components at `(b, n)` are the batch number's word and two words `wr`,
    `wc`: the image at batch `b`, channel `ch`, row `pos wr`, column `pos wc`. -/
theorem gather_at (x0 : Img.Idx → EReal) (idx : IVec S64x65536x3 32) (b : Fin 64) (n : Fin 65536) (ch : Fin 3)
    (wr wc : BitVec 32) (h0 : idx (ix3 b n (0 : Fin 3)) = BitVec.ofNat 32 b.val)
    (h1 : idx (ix3 b n (1 : Fin 3)) = wr) (h2 : idx (ix3 b n (2 : Fin 3)) = wc) :
    Host.gather gather_S64x256x256x3_S64x65536x3_S64x65536x3_2_012_n_n_012_2_1113 (val_main_v0 (F := Ideal) x0) idx (ix3 b n ch)
      = x0 (ix4 b ch (pos wr) (pos wc)) := by
  subst h1 h2
  rw [RefLayout.gather_pixel_apply, val_main_v0_apply]
  congr 1
  funext a
  match a with
  | ⟨0, _⟩ =>
    refine Fin.ext ?_
    show min (idx (ix3 b n (0 : Fin 3))).toInt.toNat 63 = b.val
    rw [h0, toInt_ofNat_small (by omega)]
    omega
  | ⟨1, _⟩ => rfl
  | ⟨2, _⟩ => rfl
  | ⟨3, _⟩ => rfl

/-- The words of the floor and of the ceiling of a clipped coordinate are not negative: the normalisation keeps them. -/
theorem norm_flo_clip (x : EReal) (m : BitVec 32) :
    Scalar.select (IntOp.cmpi .slt (word (flo (clip x))) 0#32) (IntOp.addi (word (flo (clip x))) m) (word (flo (clip x)))
      = word (flo (clip x)) := by
  obtain ⟨k, hk, ek⟩ := word_flo_clip x
  rw [ek]
  exact norm_small (by omega) m
theorem norm_cei_clip (x : EReal) (m : BitVec 32) :
    Scalar.select (IntOp.cmpi .slt (word (cei (clip x))) 0#32) (IntOp.addi (word (cei (clip x))) m) (word (cei (clip x)))
      = word (cei (clip x)) := by
  obtain ⟨k, hk, ek⟩ := word_cei_clip x
  rw [ek]
  exact norm_small (by omega) m

/-- The floor and the ceiling of the clipped coordinates at a pixel. -/
theorem floor_row (x1 : Off.Idx → EReal) (b : Fin 64) (i j : Fin 256) :
    val_main_v18 (F := Ideal) x1 (ix3 b (flatPix i j) (0 : Fin 2)) = flo (srow x1 b i j) := by
  rw [val_main_v18_apply, s_row]
  rfl
theorem floor_col (x1 : Off.Idx → EReal) (b : Fin 64) (i j : Fin 256) :
    val_main_v18 (F := Ideal) x1 (ix3 b (flatPix i j) (1 : Fin 2)) = flo (scol x1 b i j) := by
  rw [val_main_v18_apply, s_col]
  rfl
theorem ceil_row (x1 : Off.Idx → EReal) (b : Fin 64) (i j : Fin 256) :
    val_main_v19 (F := Ideal) x1 (ix3 b (flatPix i j) (0 : Fin 2)) = cei (srow x1 b i j) := by
  rw [val_main_v19_apply, s_row]
  rfl
theorem ceil_col (x1 : Off.Idx → EReal) (b : Fin 64) (i j : Fin 256) :
    val_main_v19 (F := Ideal) x1 (ix3 b (flatPix i j) (1 : Fin 2)) = cei (scol x1 b i j) := by
  rw [val_main_v19_apply, s_col]
  rfl

/-- Component `k` at `(b, n)` of a `[64, 65536, 2]` array, read through the slice of that component, the reshape to
    `[64, 65536]` and the broadcast back to `[64, 65536, 1]`: the three index maps compose to `(b, n, k)`. -/
theorem idx_comp0 (b : Fin 64) (n : Fin 65536) :
    idx_main_v36 (idx_main_v37 (idx_main_v59 (ix3 b n (0 : Fin 1)))) = ix3 b n (0 : Fin 2) := by
  funext a
  match a with
  | ⟨0, _⟩ => exact Fin.ext (by show (b.val * 65536 + n.val) / 65536 = b.val; omega)
  | ⟨1, _⟩ => exact Fin.ext (by show (b.val * 65536 + n.val) / 1 % 65536 = n.val; omega)
  | ⟨2, _⟩ => rfl
theorem idx_comp1 (b : Fin 64) (n : Fin 65536) :
    idx_main_v39 (idx_main_v40 (idx_main_v60 (ix3 b n (0 : Fin 1)))) = ix3 b n (1 : Fin 2) := by
  funext a
  match a with
  | ⟨0, _⟩ => exact Fin.ext (by show (b.val * 65536 + n.val) / 65536 = b.val; omega)
  | ⟨1, _⟩ => exact Fin.ext (by show (b.val * 65536 + n.val) / 1 % 65536 = n.val; omega)
  | ⟨2, _⟩ => rfl

/-- The two mixed coordinate pairs: (floor of the row, ceiling of the column) and (ceiling of the row, floor of the
    column). -/
theorem pair_fc_0 (x1 : Off.Idx → EReal) (b : Fin 64) (n : Fin 65536) :
    val_main_v26 (F := Ideal) x1 (ix3 b n (0 : Fin 2)) = val_main_v18 (F := Ideal) x1 (ix3 b n (0 : Fin 2)) := by
  unfold val_main_v26
  rw [RefLayout.concat2_apply]
  show val_main_v24 (F := Ideal) x1 (ix3 b n (0 : Fin 1)) = _
  rw [val_main_v24_apply, val_main_v21_apply, val_main_v20_apply]
  exact congrArg _ (idx_comp0 b n)
theorem pair_fc_1 (x1 : Off.Idx → EReal) (b : Fin 64) (n : Fin 65536) :
    val_main_v26 (F := Ideal) x1 (ix3 b n (1 : Fin 2)) = val_main_v19 (F := Ideal) x1 (ix3 b n (1 : Fin 2)) := by
  unfold val_main_v26
  rw [RefLayout.concat2_apply]
  show val_main_v25 (F := Ideal) x1 (ix3 b n (0 : Fin 1)) = _
  rw [val_main_v25_apply, val_main_v23_apply, val_main_v22_apply]
  exact congrArg _ (idx_comp1 b n)
theorem pair_cf_0 (x1 : Off.Idx → EReal) (b : Fin 64) (n : Fin 65536) :
    val_main_v33 (F := Ideal) x1 (ix3 b n (0 : Fin 2)) = val_main_v19 (F := Ideal) x1 (ix3 b n (0 : Fin 2)) := by
  unfold val_main_v33
  rw [RefLayout.concat2_apply]
  show val_main_v31 (F := Ideal) x1 (ix3 b n (0 : Fin 1)) = _
  rw [val_main_v31_apply, val_main_v28_apply, val_main_v27_apply]
  exact congrArg _ (idx_comp0 b n)
theorem pair_cf_1 (x1 : Off.Idx → EReal) (b : Fin 64) (n : Fin 65536) :
    val_main_v33 (F := Ideal) x1 (ix3 b n (1 : Fin 2)) = val_main_v18 (F := Ideal) x1 (ix3 b n (1 : Fin 2)) := by
  unfold val_main_v33
  rw [RefLayout.concat2_apply]
  show val_main_v32 (F := Ideal) x1 (ix3 b n (0 : Fin 1)) = _
  rw [val_main_v32_apply, val_main_v30_apply, val_main_v29_apply]
  exact congrArg _ (idx_comp1 b n)

/-- The upper-left corner's start index at a pixel: the batch number, the floor of the row and the floor of the column, as words. -/
theorem start_lu_batch (x1 : Off.Idx → EReal) (b : Fin 64) (n : Fin 65536) :
    val_main_v61 (F := Ideal) x1 (ix3 b n (0 : Fin 3)) = BitVec.ofNat 32 b.val := by
  unfold val_main_v61
  rw [RefLayout.concat3_apply]
  show val_main_v58 (F := Ideal) (ix3 b n (0 : Fin 1)) = _
  rw [val_main_v58_apply, val_main_v57_apply, val_main_v46_apply, val_main_v43_apply, val_main_v45_apply, val_main_v35_apply, val_main_v34_apply,
    val_main_v42_apply, val_main_c_1_apply, val_main_v44_apply, val_main_c_2_apply]
  exact norm_small (k := b.val) (by omega) _
theorem start_lu_row (x1 : Off.Idx → EReal) (b : Fin 64) (i j : Fin 256) :
    val_main_v61 (F := Ideal) x1 (ix3 b (flatPix i j) (1 : Fin 3)) = word (flo (srow x1 b i j)) := by
  unfold val_main_v61
  rw [RefLayout.concat3_apply]
  show val_main_v59 (F := Ideal) x1 (ix3 b (flatPix i j) (0 : Fin 1)) = _
  rw [val_main_v59_apply, val_main_v51_apply, val_main_v48_apply, val_main_v50_apply, val_main_v38_apply, val_main_v37_apply, val_main_v36_apply,
    val_main_v47_apply, val_main_c_3_apply, val_main_v49_apply, val_main_c_4_apply]
  have hi : idx_main_v36 (idx_main_v37 (idx_main_v59 (ix3 b (flatPix i j) (0 : Fin 1)))) = ix3 b (flatPix i j) (0 : Fin 2) :=
    idx_comp0 b _
  rw [hi, floor_row]
  exact norm_flo_clip (gridf i + x1 (ix4 b (0 : Fin 2) i j) * c256) _
theorem start_lu_col (x1 : Off.Idx → EReal) (b : Fin 64) (i j : Fin 256) :
    val_main_v61 (F := Ideal) x1 (ix3 b (flatPix i j) (2 : Fin 3)) = word (flo (scol x1 b i j)) := by
  unfold val_main_v61
  rw [RefLayout.concat3_apply]
  show val_main_v60 (F := Ideal) x1 (ix3 b (flatPix i j) (0 : Fin 1)) = _
  rw [val_main_v60_apply, val_main_v56_apply, val_main_v53_apply, val_main_v55_apply, val_main_v41_apply, val_main_v40_apply, val_main_v39_apply,
    val_main_v52_apply, val_main_c_5_apply, val_main_v54_apply, val_main_c_6_apply]
  have hi : idx_main_v39 (idx_main_v40 (idx_main_v60 (ix3 b (flatPix i j) (0 : Fin 1)))) = ix3 b (flatPix i j) (1 : Fin 2) :=
    idx_comp1 b _
  rw [hi, floor_col]
  exact norm_flo_clip (gridf j + x1 (ix4 b (1 : Fin 2) i j) * c256) _

/-- The lower-right corner's start index at a pixel: the batch number, the ceiling of the row and the ceiling of the column, as words. -/
theorem start_rb_batch (x1 : Off.Idx → EReal) (b : Fin 64) (n : Fin 65536) :
    val_main_v88 (F := Ideal) x1 (ix3 b n (0 : Fin 3)) = BitVec.ofNat 32 b.val := by
  unfold val_main_v88
  rw [RefLayout.concat3_apply]
  show val_main_v85 (F := Ideal) (ix3 b n (0 : Fin 1)) = _
  rw [val_main_v85_apply, val_main_v84_apply, val_main_v73_apply, val_main_v70_apply, val_main_v72_apply, val_main_v35_apply, val_main_v34_apply,
    val_main_v69_apply, val_main_c_7_apply, val_main_v71_apply, val_main_c_8_apply]
  exact norm_small (k := b.val) (by omega) _
theorem start_rb_row (x1 : Off.Idx → EReal) (b : Fin 64) (i j : Fin 256) :
    val_main_v88 (F := Ideal) x1 (ix3 b (flatPix i j) (1 : Fin 3)) = word (cei (srow x1 b i j)) := by
  unfold val_main_v88
  rw [RefLayout.concat3_apply]
  show val_main_v86 (F := Ideal) x1 (ix3 b (flatPix i j) (0 : Fin 1)) = _
  rw [val_main_v86_apply, val_main_v78_apply, val_main_v75_apply, val_main_v77_apply, val_main_v65_apply, val_main_v64_apply, val_main_v63_apply,
    val_main_v74_apply, val_main_c_9_apply, val_main_v76_apply, val_main_c_10_apply]
  have hi : idx_main_v63 (idx_main_v64 (idx_main_v86 (ix3 b (flatPix i j) (0 : Fin 1)))) = ix3 b (flatPix i j) (0 : Fin 2) :=
    idx_comp0 b _
  rw [hi, ceil_row]
  exact norm_cei_clip (gridf i + x1 (ix4 b (0 : Fin 2) i j) * c256) _
theorem start_rb_col (x1 : Off.Idx → EReal) (b : Fin 64) (i j : Fin 256) :
    val_main_v88 (F := Ideal) x1 (ix3 b (flatPix i j) (2 : Fin 3)) = word (cei (scol x1 b i j)) := by
  unfold val_main_v88
  rw [RefLayout.concat3_apply]
  show val_main_v87 (F := Ideal) x1 (ix3 b (flatPix i j) (0 : Fin 1)) = _
  rw [val_main_v87_apply, val_main_v83_apply, val_main_v80_apply, val_main_v82_apply, val_main_v68_apply, val_main_v67_apply, val_main_v66_apply,
    val_main_v79_apply, val_main_c_11_apply, val_main_v81_apply, val_main_c_12_apply]
  have hi : idx_main_v66 (idx_main_v67 (idx_main_v87 (ix3 b (flatPix i j) (0 : Fin 1)))) = ix3 b (flatPix i j) (1 : Fin 2) :=
    idx_comp1 b _
  rw [hi, ceil_col]
  exact norm_cei_clip (gridf j + x1 (ix4 b (1 : Fin 2) i j) * c256) _

/-- The lower-left corner's start index at a pixel: the batch number, the floor of the row and the ceiling of the column, as words. -/
theorem start_lb_batch (x1 : Off.Idx → EReal) (b : Fin 64) (n : Fin 65536) :
    val_main_v115 (F := Ideal) x1 (ix3 b n (0 : Fin 3)) = BitVec.ofNat 32 b.val := by
  unfold val_main_v115
  rw [RefLayout.concat3_apply]
  show val_main_v112 (F := Ideal) (ix3 b n (0 : Fin 1)) = _
  rw [val_main_v112_apply, val_main_v111_apply, val_main_v100_apply, val_main_v97_apply, val_main_v99_apply, val_main_v35_apply, val_main_v34_apply,
    val_main_v96_apply, val_main_c_13_apply, val_main_v98_apply, val_main_c_14_apply]
  exact norm_small (k := b.val) (by omega) _
theorem start_lb_row (x1 : Off.Idx → EReal) (b : Fin 64) (i j : Fin 256) :
    val_main_v115 (F := Ideal) x1 (ix3 b (flatPix i j) (1 : Fin 3)) = word (flo (srow x1 b i j)) := by
  unfold val_main_v115
  rw [RefLayout.concat3_apply]
  show val_main_v113 (F := Ideal) x1 (ix3 b (flatPix i j) (0 : Fin 1)) = _
  rw [val_main_v113_apply, val_main_v105_apply, val_main_v102_apply, val_main_v104_apply, val_main_v92_apply, val_main_v91_apply, val_main_v90_apply,
    val_main_v101_apply, val_main_c_15_apply, val_main_v103_apply, val_main_c_16_apply]
  have hi : idx_main_v90 (idx_main_v91 (idx_main_v113 (ix3 b (flatPix i j) (0 : Fin 1)))) = ix3 b (flatPix i j) (0 : Fin 2) :=
    idx_comp0 b _
  rw [hi, pair_fc_0, floor_row]
  exact norm_flo_clip (gridf i + x1 (ix4 b (0 : Fin 2) i j) * c256) _
theorem start_lb_col (x1 : Off.Idx → EReal) (b : Fin 64) (i j : Fin 256) :
    val_main_v115 (F := Ideal) x1 (ix3 b (flatPix i j) (2 : Fin 3)) = word (cei (scol x1 b i j)) := by
  unfold val_main_v115
  rw [RefLayout.concat3_apply]
  show val_main_v114 (F := Ideal) x1 (ix3 b (flatPix i j) (0 : Fin 1)) = _
  rw [val_main_v114_apply, val_main_v110_apply, val_main_v107_apply, val_main_v109_apply, val_main_v95_apply, val_main_v94_apply, val_main_v93_apply,
    val_main_v106_apply, val_main_c_17_apply, val_main_v108_apply, val_main_c_18_apply]
  have hi : idx_main_v93 (idx_main_v94 (idx_main_v114 (ix3 b (flatPix i j) (0 : Fin 1)))) = ix3 b (flatPix i j) (1 : Fin 2) :=
    idx_comp1 b _
  rw [hi, pair_fc_1, ceil_col]
  exact norm_cei_clip (gridf j + x1 (ix4 b (1 : Fin 2) i j) * c256) _

/-- The upper-right corner's start index at a pixel: the batch number, the ceiling of the row and the floor of the column, as words. -/
theorem start_ru_batch (x1 : Off.Idx → EReal) (b : Fin 64) (n : Fin 65536) :
    val_main_v142 (F := Ideal) x1 (ix3 b n (0 : Fin 3)) = BitVec.ofNat 32 b.val := by
  unfold val_main_v142
  rw [RefLayout.concat3_apply]
  show val_main_v139 (F := Ideal) (ix3 b n (0 : Fin 1)) = _
  rw [val_main_v139_apply, val_main_v138_apply, val_main_v127_apply, val_main_v124_apply, val_main_v126_apply, val_main_v35_apply, val_main_v34_apply,
    val_main_v123_apply, val_main_c_19_apply, val_main_v125_apply, val_main_c_20_apply]
  exact norm_small (k := b.val) (by omega) _
theorem start_ru_row (x1 : Off.Idx → EReal) (b : Fin 64) (i j : Fin 256) :
    val_main_v142 (F := Ideal) x1 (ix3 b (flatPix i j) (1 : Fin 3)) = word (cei (srow x1 b i j)) := by
  unfold val_main_v142
  rw [RefLayout.concat3_apply]
  show val_main_v140 (F := Ideal) x1 (ix3 b (flatPix i j) (0 : Fin 1)) = _
  rw [val_main_v140_apply, val_main_v132_apply, val_main_v129_apply, val_main_v131_apply, val_main_v119_apply, val_main_v118_apply, val_main_v117_apply,
    val_main_v128_apply, val_main_c_21_apply, val_main_v130_apply, val_main_c_22_apply]
  have hi : idx_main_v117 (idx_main_v118 (idx_main_v140 (ix3 b (flatPix i j) (0 : Fin 1)))) = ix3 b (flatPix i j) (0 : Fin 2) :=
    idx_comp0 b _
  rw [hi, pair_cf_0, ceil_row]
  exact norm_cei_clip (gridf i + x1 (ix4 b (0 : Fin 2) i j) * c256) _
theorem start_ru_col (x1 : Off.Idx → EReal) (b : Fin 64) (i j : Fin 256) :
    val_main_v142 (F := Ideal) x1 (ix3 b (flatPix i j) (2 : Fin 3)) = word (flo (scol x1 b i j)) := by
  unfold val_main_v142
  rw [RefLayout.concat3_apply]
  show val_main_v141 (F := Ideal) x1 (ix3 b (flatPix i j) (0 : Fin 1)) = _
  rw [val_main_v141_apply, val_main_v137_apply, val_main_v134_apply, val_main_v136_apply, val_main_v122_apply, val_main_v121_apply, val_main_v120_apply,
    val_main_v133_apply, val_main_c_23_apply, val_main_v135_apply, val_main_c_24_apply]
  have hi : idx_main_v120 (idx_main_v121 (idx_main_v141 (ix3 b (flatPix i j) (0 : Fin 1)))) = ix3 b (flatPix i j) (1 : Fin 2) :=
    idx_comp1 b _
  rw [hi, pair_cf_1, floor_col]
  exact norm_flo_clip (gridf j + x1 (ix4 b (1 : Fin 2) i j) * c256) _

/-- The four gathered corner pixels. -/
theorem corner_lu (x0 : Img.Idx → EReal) (x1 : Off.Idx → EReal) (b : Fin 64) (ch : Fin 3) (i j : Fin 256) :
    val_main_v62 (F := Ideal) x0 x1 (ix3 b (flatPix i j) ch) = x0 (ix4 b ch (rowF x1 b i j) (colF x1 b i j)) := by
  unfold val_main_v62
  exact gather_at x0 _ b (flatPix i j) ch _ _ (start_lu_batch x1 b _) (start_lu_row x1 b i j) (start_lu_col x1 b i j)
theorem corner_rb (x0 : Img.Idx → EReal) (x1 : Off.Idx → EReal) (b : Fin 64) (ch : Fin 3) (i j : Fin 256) :
    val_main_v89 (F := Ideal) x0 x1 (ix3 b (flatPix i j) ch) = x0 (ix4 b ch (rowC x1 b i j) (colC x1 b i j)) := by
  unfold val_main_v89
  exact gather_at x0 _ b (flatPix i j) ch _ _ (start_rb_batch x1 b _) (start_rb_row x1 b i j) (start_rb_col x1 b i j)
theorem corner_lb (x0 : Img.Idx → EReal) (x1 : Off.Idx → EReal) (b : Fin 64) (ch : Fin 3) (i j : Fin 256) :
    val_main_v116 (F := Ideal) x0 x1 (ix3 b (flatPix i j) ch) = x0 (ix4 b ch (rowF x1 b i j) (colC x1 b i j)) := by
  unfold val_main_v116
  exact gather_at x0 _ b (flatPix i j) ch _ _ (start_lb_batch x1 b _) (start_lb_row x1 b i j) (start_lb_col x1 b i j)
theorem corner_ru (x0 : Img.Idx → EReal) (x1 : Off.Idx → EReal) (b : Fin 64) (ch : Fin 3) (i j : Fin 256) :
    val_main_v143 (F := Ideal) x0 x1 (ix3 b (flatPix i j) ch) = x0 (ix4 b ch (rowC x1 b i j) (colF x1 b i j)) := by
  unfold val_main_v143
  exact gather_at x0 _ b (flatPix i j) ch _ _ (start_ru_batch x1 b _) (start_ru_row x1 b i j) (start_ru_col x1 b i j)

/-- The reference's result at a pixel is the warp there. -/
theorem result_apply (x0 : Img.Idx → EReal) (x1 : Off.Idx → EReal) (b : Fin 64) (ch : Fin 3) (i j : Fin 256) :
    val_main_v160 (F := Ideal) x0 x1 (ix4 b ch i j) = warpAt x0 x1 b ch i j := by
  rw [val_main_v160_apply, val_main_v159_apply, result_idx, val_main_v158_apply, val_main_v157_apply, val_main_v155_apply,
    val_main_v154_apply, val_main_v153_apply, val_main_v151_apply, val_main_v150_apply, val_main_v149_apply,
    val_main_v147_apply, fracR_at, fracR_at', fracC_at, s_row, s_col, corner_lu, corner_rb, corner_lb, corner_ru]
  rfl

/-- The reference's result is the warp of its arguments. -/
theorem result_eq (x0 : Img.Idx → EReal) (x1 : Off.Idx → EReal) :
    (val_main_v160 (F := Ideal) x0 x1 : Img.Idx → EReal) = warp x0 x1 := by
  funext y
  obtain ⟨b, ch, i, j, rfl⟩ : ∃ (b : Fin 64) (ch : Fin 3) (i j : Fin 256), y = ix4 b ch i j := ⟨y 0, y 1, y 2, y 3, eq_ix4 y⟩
  exact result_apply x0 x1 b ch i j

end Cert.ReferenceIdeal.RefValue

end
-- ==== Proof.lean ====
/-
  The kernel program and the reference compute the same bilinear warp of a batch of images by a batch of offset fields.

  For every pixel both clip the source row `i + 256 · off[b, 0, i, j]` and the source column `j + 256 · off[b, 1, i, j]` into
  `[0, 255]`, read the image at the four corners given by the floor and the ceiling of the two coordinates, and blend the
  four values with the fractional parts, first along the rows and then along the columns, by the same formula in the same
  order of operands. They differ only in how the corners are fetched: the kernel program gathers all four at once along a
  flat pixel axis at the index `row · 256 + col` (with an in-range mask that is true everywhere, the coordinates being
  clipped) and blends inside one pipelined region, two images per grid point; the reference gathers each corner by a
  three-component index from the image with the channels last, on flat pixels, and transposes back. Both results are
  shown equal to one specification (`Cert.Warp.warp`) index by index; no algebraic law of the extended reals is needed, so
  the precondition is never opened.

  The three frames: the two kernel programs' by a hand-written frame over the pipeline's launch theorem (the body loads five
  whole blocks and stores one), the reference's from its run. The idealization rewrote nothing, so there is nothing to
  preserve.
-/
import proofs.«405025_j5866925326584_3_alg».proof.Defs
import proofs.«405025_j5866925326584_3_alg».proof.Proof.Gen.Kernel
import proofs.«405025_j5866925326584_3_alg».proof.Proof.Gen.KernelIdeal
import proofs.«405025_j5866925326584_3_alg».proof.Proof.Gen.ReferenceIdeal
import proofs.«405025_j5866925326584_3_alg».proof.Proof.Gen.Pre_finite_inputs
import proofs.«405025_j5866925326584_3_alg».proof.Proof.RefRun
import proofs.«405025_j5866925326584_3_alg».proof.Proof.RefRead
import proofs.«405025_j5866925326584_3_alg».proof.Proof.KernelFrame
import proofs.«405025_j5866925326584_3_alg».proof.Proof.KernelIdealFrame
import proofs.«405025_j5866925326584_3_alg».proof.Proof.KernelIdealRun
import proofs.«405025_j5866925326584_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the warp of the arguments as their result. -/
theorem algebraic : Cert.algebraic_KernelIdeal_ReferenceIdeal := by
  intro m ρ m' ρ' _ hagree
  refine ⟨fun c => Cert.Warp.warp (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v160_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
